-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S128x4096 : Shape := ⟨2, ![128, 4096]⟩
abbrev S4x128x4096 : Shape := ⟨3, ![4, 128, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S4x128x4096 : S_.BroadcastsInDim S4x128x4096 (![] : Fin 0 → Fin S4x128x4096.rank)
  reducesTo_S4x128x4096_S_d0_1_2 : S4x128x4096.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S128x4096 .f32) (main_arg5 : FVec F S4096x128 .f32) (main_arg6 : FVec F S4096x4096 .f32) (main_arg7 : FVec F S4096 .f32) (main_v13 : IVec S_ 1) (main_v16 : IVec S4x128x4096 1) : IVec S_ 1 :=
  let main_c_5 : IVec S_ 1 := constantI S_ 1 1#1
  let main_v17 : IVec S_ 1 := (fun x v => Host.reduce IntOp.andi x v reducesTo_S4x128x4096_S_d0_1_2 h_S_) main_v16 main_c_5
  let main_v18 : IVec S_ 1 := andi main_v13 main_v17
  let main_v19 : FVec F S128x4096 .f32 := Host.absf main_arg4
  let main_cst_6 : FVec F S_ .f32 := constant S_ .f32 0x7F800000#32
  let main_v20 : FVec F S128x4096 .f32 := broadcastInDim S128x4096 ![] bcast_S_S128x4096 main_cst_6
  let main_v21 : IVec S128x4096 1 := cmpf .olt main_v19 main_v20
  let main_c_7 : IVec S_ 1 := constantI S_ 1 1#1
  let main_v22 : IVec S_ 1 := (fun x v => Host.reduce IntOp.andi x v reducesTo_S128x4096_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_v33

def fn {F : FTy → Type} [FloatOps F] (main_arg0 : FVec F S4x2048x4096 .f32) (main_arg1 : FVec F S128x4096 .f32) (main_arg2 : FVec F S4x128x4096 .f32) (main_arg3 : FVec F S4x128x4096 .f32) (main_arg4 : FVec F S128x4096 .f32) (main_arg5 : FVec F S4096x128 .f32) (main_arg6 : FVec F S4096x4096 .f32) (main_arg7 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S4x128x4096 .f32 := Host.absf main_arg2
  let main_cst_2 : FVec F S_ .f32 := constant S_ .f32 0x7F800000#32
  let main_v10 : FVec F S4x128x4096 .f32 := broadcastInDim S4x128x4096 ![] bcast_S_S4x128x4096 main_cst_2
  let main_v11 : IVec S4x128x4096 1 := cmpf .olt main_v9 main_v10
  let main_c_3 : IVec S_ 1 := constantI S_ 1 1#1
  let main_v12 : IVec S_ 1 := (fun x v => Host.reduce IntOp.andi x v reducesTo_S4x128x4096_S_d0_1_2 h_S_) main_v11 main_c_3
  let main_v13 : IVec S_ 1 := andi main_v8 main_v12
  let main_v14 : FVec F S4x128x4096 .f32 := Host.absf main_arg3
  let main_cst_4 : FVec F S_ .f32 := constant S_ .f32 0x7F800000#32
  let main_v15 : FVec F S4x128x4096 .f32 := broadcastInDim S4x128x4096 ![] bcast_S_S4x128x4096 main_cst_4
  let main_v16 : IVec S4x128x4096 1 := cmpf .olt main_v14 main_v15
  fn_part1 (F := F) main_arg4 main_arg5 main_arg6 main_arg7 main_v13 main_v16
-- ==== Kernel.lean ====
abbrev S4x2048x4096 : Shape := ⟨3, ![4, 2048, 4096]⟩
abbrev S128x4096 : Shape := ⟨2, ![128, 4096]⟩
abbrev S4x128x4096 : Shape := ⟨3, ![4, 128, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩
abbrev S1x128x4096 : Shape := ⟨3, ![1, 128, 4096]⟩
abbrev S4x2048x128 : Shape := ⟨3, ![4, 2048, 128]⟩
abbrev S1x2048x256 : Shape := ⟨3, ![1, 2048, 256]⟩
abbrev S1x128x256 : Shape := ⟨3, ![1, 128, 256]⟩
abbrev S1x2048x128 : Shape := ⟨3, ![1, 2048, 128]⟩
abbrev S2048x128 : Shape := ⟨2, ![2048, 128]⟩
abbrev S2048x256 : Shape := ⟨2, ![2048, 256]⟩
abbrev S128x256 : Shape := ⟨2, ![128, 256]⟩
abbrev S1x4096 : Shape := ⟨2, ![1, 4096]⟩
abbrev S1024x128 : Shape := ⟨2, ![1024, 128]⟩
abbrev S1024x256 : Shape := ⟨2, ![1024, 256]⟩
abbrev S1x1024 : Shape := ⟨2, ![1, 1024]⟩
abbrev S1x2048x1024 : Shape := ⟨3, ![1, 2048, 1024]⟩
abbrev S2048x1024 : Shape := ⟨2, ![2048, 1024]⟩

abbrev nBuf : Space → Nat
  | .hbm => 24
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S128x4096, .f32⟩
  | .hbm, ⟨2, _⟩ => ⟨S4x128x4096, .f32⟩
  | .hbm, ⟨3, _⟩ => ⟨S4x128x4096, .f32⟩
  | .hbm, ⟨4, _⟩ => ⟨S128x4096, .f32⟩
  | .hbm, ⟨5, _⟩ => ⟨S4096x128, .f32⟩
  | .hbm, ⟨6, _⟩ => ⟨S4096x4096, .f32⟩
  | .hbm, ⟨7, _⟩ => ⟨S4096, .f32⟩
  | .hbm, ⟨8, _⟩ => ⟨S_, .f32⟩
  | .hbm, ⟨9, _⟩ => ⟨S128x4096, .f32⟩
  | .hbm, ⟨10, _⟩ => ⟨S128x4096, .f32⟩
  | .hbm, ⟨11, _⟩ => ⟨S128x4096, .f32⟩
  | .hbm, ⟨12, _⟩ => ⟨S_, .f32⟩
  | .hbm, ⟨13, _⟩ => ⟨S128x4096, .f32⟩
  | .hbm, ⟨14, _⟩ => ⟨S128x4096, .f32⟩
  | .hbm, ⟨15, _⟩ => ⟨S1x128x4096, .f32⟩
  | .hbm, ⟨16, _⟩ => ⟨S4x128x4096, .f32⟩
  | .hbm, ⟨17, _⟩ => ⟨S4x128x4096, .f32⟩
  | .hbm, ⟨18, _⟩ => ⟨S1x128x4096, .f32⟩
  | .hbm, ⟨19, _⟩ => ⟨S4x128x4096, .f32⟩
  | .hbm, ⟨20, _⟩ => ⟨S4x128x4096, .f32⟩
  | .hbm, ⟨21, _⟩ => ⟨S4x2048x128, .f32⟩
  | .hbm, ⟨22, _⟩ => ⟨S1x4096, .f32⟩
  | .hbm, ⟨23, _⟩ => ⟨S4x2048x4096, .f32⟩
  | .local _ .vmem, ⟨0, _⟩ => ⟨S1x2048x256, .f32⟩
  | .local _ .vmem, ⟨1, _⟩ => ⟨S1x2048x256, .f32⟩
  | .local _ .vmem, ⟨2, _⟩ => ⟨S1x128x256, .f32⟩
  | .local _ .vmem, ⟨3, _⟩ => ⟨S1x128x256, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x128, .f32⟩
  | .local _ .vmem, ⟨10, _⟩ => ⟨S1x2048x128, .f32⟩
  | .local _ .vmem, ⟨11, _⟩ => ⟨S1024x128, .f32⟩
  | .local _ .vmem, ⟨12, _⟩ => ⟨S1024x128, .f32⟩
  | .local _ .vmem, ⟨13, _⟩ => ⟨S1024x256, .f32⟩
  | .local _ .vmem, ⟨14, _⟩ => ⟨S1024x256, .f32⟩
  | .local _ .vmem, ⟨15, _⟩ => ⟨S1x1024, .f32⟩
  | .local _ .vmem, ⟨16, _⟩ => ⟨S1x1024, .f32⟩
  | .local _ .vmem, ⟨17, _⟩ => ⟨S1x2048x1024, .f32⟩
  | .local _ .vmem, ⟨18, _⟩ => ⟨S1x2048x1024, .f32⟩
  | .local _ .vmem, ⟨19, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![4, 4, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_9 : BitVec 32 := 0#32
  let v16 : BitVec 1 := Scalar.cmpi .ne v15 c0_i32_9
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bcast_S_S128x4096 : S_.BroadcastsInDim S128x4096 (![] : Fin 0 → Fin S128x4096.rank)
  bcast_S128x4096_S1x128x4096_1_2 : S128x4096.BroadcastsInDim S1x128x4096 (![1, 2] : Fin 2 → Fin S1x128x4096.rank)
  bcast_S1x128x4096_S4x128x4096_0_1_2 : S1x128x4096.BroadcastsInDim S4x128x4096 (![0, 1, 2] : Fin 3 → Fin S4x128x4096.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  shapeCasts_S4096_S1x4096 : S4096.ShapeCasts S1x4096
  inb_S1024x128_S1024x128_0_0 : ∀ a, (![0, 0] : Fin 2 → Nat) a + S1024x128.size a ≤ S1024x128.size a
  h_S1024x128 : 0 < S1024x128.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S2048x256_S128x256_S2048x128_1_1_0_0_n_n_wf : DotDims.WF S2048x256 S128x256 S2048x128 [1] [1] [0] [0] [] []
  dot_S2048x128_S1024x128_S2048x1024_1_1_0_0_n_n_wf : DotDims.WF S2048x128 S1024x128 S2048x1024 [1] [1] [0] [0] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x2048x4096.size a
  hwx0_0 : ∀ i : grid0.Coords, EltTy.bits .f32 = 32 ∨ (Rect.block (s := S4x2048x4096) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x128x4096.size a
  hwx0_1 : ∀ i : grid0.Coords, EltTy.bits .f32 = 32 ∨ (Rect.block (s := S4x128x4096) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x128.size a
  hwx0_2 : ∀ i : grid0.Coords, EltTy.bits .f32 = 32 ∨ (Rect.block (s := S4x2048x128) S1x2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S4x2048x4096.size a
  hwx1_0 : ∀ i : grid1.Coords, EltTy.bits .f32 = 32 ∨ (Rect.block (s := S4x2048x4096) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x128.size a
  hwx1_1 : ∀ i : grid1.Coords, EltTy.bits .f32 = 32 ∨ (Rect.block (s := S4x2048x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x4096.size a
  hwx1_3 : ∀ i : grid1.Coords, EltTy.bits .f32 = 32 ∨ (Rect.block (s := S4096x4096) S1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x1024.size a ≤ S4x2048x4096.size a
  hwx1_5 : ∀ i : grid1.Coords, EltTy.bits .f32 = 32 ∨ (Rect.block (s := S4x2048x4096) S1x2048x1024.size (cc1_transform_5 i) (hinb1_5 i)).WholeWords (EltTy.packing .f32)

variable [Facts₀]

def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S128x4096 : Shape := ⟨2, ![128, 4096]⟩
abbrev S4x128x4096 : Shape := ⟨3, ![4, 128, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩
abbrev S1x128x4096 : Shape := ⟨3, ![1, 128, 4096]⟩
abbrev S4x2048x128 : Shape := ⟨3, ![4, 2048, 128]⟩
abbrev S1x1x4096 : Shape := ⟨3, ![1, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x4096, .f32⟩
  | .hbm, ⟨2, _⟩ => ⟨S4x128x4096, .f32⟩
  | .hbm, ⟨3, _⟩ => ⟨S4x128x4096, .f32⟩
  | .hbm, ⟨4, _⟩ => ⟨S128x4096, .f32⟩
  | .hbm, ⟨5, _⟩ => ⟨S4096x128, .f32⟩
  | .hbm, ⟨6, _⟩ => ⟨S4096x4096, .f32⟩
  | .hbm, ⟨7, _⟩ => ⟨S4096, .f32⟩
  | .hbm, ⟨8, _⟩ => ⟨S_, .f32⟩
  | .hbm, ⟨9, _⟩ => ⟨S128x4096, .f32⟩
  | .hbm, ⟨10, _⟩ => ⟨S128x4096, .f32⟩
  | .hbm, ⟨11, _⟩ => ⟨S128x4096, .f32⟩
  | .hbm, ⟨12, _⟩ => ⟨S_, .f32⟩
  | .hbm, ⟨13, _⟩ => ⟨S128x4096, .f32⟩
  | .hbm, ⟨14, _⟩ => ⟨S128x4096, .f32⟩
  | .hbm, ⟨15, _⟩ => ⟨S1x128x4096, .f32⟩
  | .hbm, ⟨16, _⟩ => ⟨S4x128x4096, .f32⟩
  | .hbm, ⟨17, _⟩ => ⟨S4x128x4096, .f32⟩
  | .hbm, ⟨18, _⟩ => ⟨S4x2048x128, .f32⟩
  | .hbm, ⟨19, _⟩ => ⟨S4x2048x128, .f32⟩
  | .hbm, ⟨20, _⟩ => ⟨S4x2048x128, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S128x4096 : S_.BroadcastsInDim S128x4096 (![] : Fin 0 → Fin S128x4096.rank)
  bcast_S128x4096_S1x128x4096_1_2 : S128x4096.BroadcastsInDim S1x128x4096 (![1, 2] : Fin 2 → Fin S1x128x4096.rank)
  bcast_S1x128x4096_S4x128x4096_0_1_2 : S1x128x4096.BroadcastsInDim S4x128x4096 (![0, 1, 2] : Fin 3 → Fin S4x128x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4x128x4096_S4x2048x128_2_2_1_1_0_0_wf : DotDims.WF S4x2048x4096 S4x128x4096 S4x2048x128 [2] [2] [1] [1] [0] [0]
  dot_S4x2048x4096_S128x4096_S4x2048x128_2_1_01_0_n_n_wf : DotDims.WF S4x2048x4096 S128x4096 S4x2048x128 [2] [1] [0, 1] [0] [] []
  dot_S4x2048x128_S4096x128_S4x2048x4096_2_1_01_0_n_n_wf : DotDims.WF S4x2048x128 S4096x128 S4x2048x4096 [2] [1] [0, 1] [0] [] []
  dot_S4x2048x4096_S4096x4096_S4x2048x4096_2_1_01_0_n_n_wf : DotDims.WF S4x2048x4096 S4096x4096 S4x2048x4096 [2] [1] [0, 1] [0] [] []

variable [Facts₀]

def dot_S4x2048x4096_S4x128x4096_S4x2048x128_2_2_1_1_0_0 : DotDims S4x2048x4096 S4x128x4096 S4x2048x128 where
  lhsContracting := [2]
  rhsContracting := [2]
  lhsNonContracting := [1]
  rhsNonContracting := [1]
  lhsBatch := [0]
  rhsBatch := [0]
  wf := dot_S4x2048x4096_S4x128x4096_S4x2048x128_2_2_1_1_0_0_wf
def dot_S4x2048x4096_S128x4096_S4x2048x128_2_1_01_0_n_n : DotDims S4x2048x4096 S128x4096 S4x2048x128 where
  lhsContracting := [2]
  rhsContracting := [1]
  lhsNonContracting := [0, 1]
  rhsNonContracting := [0]
  lhsBatch := []
  rhsBatch := []
  wf := dot_S4x2048x4096_S128x4096_S4x2048x128_2_1_01_0_n_n_wf
def dot_S4x2048x128_S4096x128_S4x2048x4096_2_1_01_0_n_n : DotDims S4x2048x128 S4096x128 S4x2048x4096 where
  lhsContracting := [2]
  rhsContracting := [1]
  lhsNonContracting := [0, 1]
  rhsNonContracting := [0]
  lhsBatch := []
  rhsBatch := []
  wf := dot_S4x2048x128_S4096x128_S4x2048x4096_2_1_01_0_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KZ0Runs.lean ====
/-
  Region 0 (the code z = x · Wbᵀ, grid 4 × 16): what its three control cases share.
  A grid point is (batch b, input tile k); the body adds the tile's partial product into an accumulator kept in
  scratch memory across the sixteen tiles of a batch: it clears the accumulator when k = 0 and copies it to the
  output block when k = 15. So there are three cases: k = 0, 0 < k < 15, k = 15.
  Everything is stated at a parameter V: the buffer contents when the region is entered.
-/
import proofs.«158239_j26474178412911_1_alg».proof.Proof.Gen.Kernel.Launch
import proofs.«158239_j26474178412911_1_alg».proof.Proof.Gen.Kernel.Skeleton
import proofs.«158239_j26474178412911_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The combined-matrix tile's staging buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the 64 points -/

/-- "This is the first tile of the batch" (k = 0). -/
abbrev cond_0 (i : grid0.Coords) : Prop := (Scalar.cmpi .ne (Scalar.extui (Scalar.cmpi .eq (BitVec.ofNat 32 (i 1).val) 0#32)) 0#32) = 1#1
theorem hcond_0 : ∀ t : Fin cfg0.N, cond_0 (grid0.coords t) ↔ t.val % 16 = 0 :=
  (by decide +kernel : ∀ t : Fin grid0.N, cond_0 (grid0.coords t) ↔ t.val % 16 = 0)

/-- "This is the last tile of the batch" (k = 15). -/
abbrev cond_1 (i : grid0.Coords) : Prop := k0_cond2 i = 1#1
theorem hcond_1 : ∀ t : Fin cfg0.N, cond_1 (grid0.coords t) ↔ t.val % 16 = 15 :=
  (by decide +kernel : ∀ t : Fin grid0.N, cond_1 (grid0.coords t) ↔ t.val % 16 = 15)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Away from the last tile the output block is neither stored into nor written back. -/
theorem idleAt_2_A : ∀ t : Fin cfg0.N, cond_0 (grid0.coords t) → ¬cond_1 (grid0.coords t) → cfg0.idle 2 (grid0.coords t) = true := by decide +kernel
theorem noFlush_2_A : ∀ t : Fin cfg0.N, cond_0 (grid0.coords t) → ¬cond_1 (grid0.coords t) → (cfg0.win 2).flush t = false := by decide +kernel
theorem idleAt_2_B : ∀ t : Fin cfg0.N, ¬cond_0 (grid0.coords t) → ¬cond_1 (grid0.coords t) → cfg0.idle 2 (grid0.coords t) = true := by decide +kernel
theorem noFlush_2_B : ∀ t : Fin cfg0.N, ¬cond_0 (grid0.coords t) → ¬cond_1 (grid0.coords t) → (cfg0.win 2).flush t = false := by decide +kernel
/-- At the last tile it is stored. -/
theorem liveAt_2_C : ∀ t : Fin cfg0.N, ¬cond_0 (grid0.coords t) → cond_1 (grid0.coords t) → cfg0.idle 2 (grid0.coords t) = false := by decide +kernel

/-! ## The memrefs the body is called with -/

/-- One staging buffer of the output window, through which its contents are stated. -/
abbrev VO_2 : View sig .tc .vmem S1x2048x128 .f32 := (Memref.whole cc0_stg2_0 : Memref sig .tc .vmem S1x2048x128 .f32).view
abbrev ms_0 (t : Fin cfg0.N) : Memref sig .tc .vmem S1x2048x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x128x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x2048x128 .f32 := win0_2.stage (cfg0.slots t 2)
abbrev hs_2 (t : Fin cfg0.N) : (ms_2 t).IsWhole := hstage0_2 ((cfg0.slots t 2).cast nbuf0_2)
/-- The accumulator: a whole scoped buffer of the kernel's own. -/
abbrev scM_0 : Memref sig .tc .vmem S2048x128 .f32 := Memref.whole cc0_scratch0
abbrev VS_0 : View sig .tc .vmem S2048x128 .f32 := scM_0.view

/-- The scoped buffers this region never touches (the other region's staging buffers and accumulator), each whole
    at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region is handed beside its windows: the accumulator at some contents, the untouched scoped buffers, the
    generator register at some state. -/
theorem PhiA_eq (c : Dev nD) :
    (Pipeline.ΦA spec0 c : sProp 𝕄)
      = iprop(iprop((∃ d, owns (c : Thread nD τ) scM_0 fullShare d) ∗ others c) ∗ (∃ r, prngReg c r)) := by
  unfold Pipeline.ΦA others; rw [scopedRest0_eq]; simp only [scM_0, owns_whole]; try rfl

end Cert.Kernel.R0

end
-- ==== Proof.KZ0RunA.lean ====
/-
  Region 0, the first tile of a batch (k = 0): the body clears the accumulator, adds the tile's product, and leaves the
  output block alone. The whole body run on any whole memrefs; the pieces the accumulator ends with are found by the run.
-/
import proofs.«158239_j26474178412911_1_alg».proof.Proof.KZ0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input tiles at their contents, the output block at contents handed back untouched, the
    accumulator at anything — the body runs to a continuation holding the inputs as they were and the accumulator with
    its pieces written. -/
noncomputable def kernelRun_A (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) :
    Σ' (L2 : List (View.Piece (Elt F) S1x2048x128 .f32)), { LS0 : List (View.Piece (Elt F) S2048x128 .f32) //
      ∀ (xi2 : Vec F S1x2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨[], ?_, fun xi2 E K => ?run⟩
  case run =>
    simp only [cc0__z_kernel_eq_skeleton]; unfold cc0__z_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.R0

end
-- ==== Proof.KZ0RunB.lean ====
/-
  Region 0, a middle tile of a batch (0 < k < 15): the body adds the tile's product to the accumulator, which holds what
  the tile before left, and leaves the output block alone.
-/
import proofs.«158239_j26474178412911_1_alg».proof.Proof.KZ0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input tiles at their contents, the output block handed back untouched, the accumulator at
    the contents xs0 — the body runs to a continuation holding the inputs as they were and the accumulator with its
    pieces written. -/
noncomputable def kernelRun_B (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) :
    Σ' (L2 : List (View.Piece (Elt F) S1x2048x128 .f32)), { LS0 : List (View.Piece (Elt F) S2048x128 .f32) //
      ∀ (xi2 : Vec F S1x2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨[], ?_, fun xi2 E K => ?run⟩
  case run =>
    simp only [cc0__z_kernel_eq_skeleton]; unfold cc0__z_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.R0

end
-- ==== Proof.KZ0RunC.lean ====
/-
  Region 0, the last tile of a batch (k = 15): the body adds the tile's product to the accumulator and then copies the
  accumulator into the output block.
-/
import proofs.«158239_j26474178412911_1_alg».proof.Proof.KZ0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input tiles at their contents, the output block at anything, the accumulator at the
    contents xs0 — the body runs to a continuation holding the inputs as they were and the output block and the
    accumulator with their pieces written. -/
noncomputable def kernelRun_C (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) :
    Σ' (L2 : List (View.Piece (Elt F) S1x2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨?_, ?_, fun E K => ?run⟩
  case run =>
    simp only [cc0__z_kernel_eq_skeleton]; unfold cc0__z_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.R0

end
-- ==== Proof.KZ0Frame.lean ====
/-
  Region 0: what the output block and the accumulator hold point by point, the region's invariant, its proof data and the
  body obligation.
  After the body at point t = 16·b + k the accumulator holds the sum of the first k + 1 tile products of batch b: the first
  tile's case starts from the cleared accumulator, the later ones from what the point before left. Only at k = 15 is the
  output block stored (with the accumulator) and written back; elsewhere it is idle.
  The invariant between points: before the first point whatever the launch hands the region; afterwards the accumulator
  at exactly what the point before left, the other region's scoped buffers untouched, the generator register at some state.
-/
import proofs.«158239_j26474178412911_1_alg».proof.Proof.KZ0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: what the body leaves in the output block's buffer (nothing is stored there: a placeholder nothing consults). -/
def out_A_2 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) : Vec F S1x2048x128 .f32 :=
  VO_2.read (Elt F) (VO_2.writes (Elt F) VO_2.junk (kernelRun_A c i arg2 harg2 arg3 harg3 arg4 harg4 arg5 harg5 hc0 hc1 x0 x1).1)

/-- Case A: the accumulator's pieces cover it. -/
theorem scover_A_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) (y : S2048x128.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S2048x128.size (by sl_kernel_rfl) y

/-- Case A: what the body leaves in the accumulator. -/
def sout_A_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) : Vec F S2048x128 .f32 :=
  VS_0.read (Elt F) (VS_0.writes (Elt F) VS_0.junk (kernelRun_A c i arg2 harg2 arg3 harg3 arg4 harg4 arg5 harg5 hc0 hc1 x0 x1).2.1)

/-- Case B: what the body leaves in the output block's buffer (nothing is stored there: a placeholder nothing consults). -/
def out_B_2 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) : Vec F S1x2048x128 .f32 :=
  VO_2.read (Elt F) (VO_2.writes (Elt F) VO_2.junk (kernelRun_B c i arg2 harg2 arg3 harg3 arg4 harg4 arg5 harg5 hc0 hc1 x0 x1 xs0).1)

/-- Case B: the accumulator's pieces cover it. -/
theorem scover_B_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) (y : S2048x128.Idx) :
    ∃ pc ∈ (kernelRun_B c i arg2 harg2 arg3 harg3 arg4 harg4 arg5 harg5 hc0 hc1 x0 x1 xs0).2.1, y ∈ pc.1.set :=
  View.cover_of_tiledL (kernelRun_B c i arg2 harg2 arg3 harg3 arg4 harg4 arg5 harg5 hc0 hc1 x0 x1 xs0).2.1 S2048x128.size (by sl_kernel_rfl) y

/-- Case B: what the body leaves in the accumulator. -/
def sout_B_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) : Vec F S2048x128 .f32 :=
  VS_0.read (Elt F) (VS_0.writes (Elt F) VS_0.junk (kernelRun_B c i arg2 harg2 arg3 harg3 arg4 harg4 arg5 harg5 hc0 hc1 x0 x1 xs0).2.1)

/-- Case C: the output block's pieces cover it. -/
theorem cover_C_2 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) (y : S1x2048x128.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1x2048x128.size (by sl_kernel_rfl) y

/-- Case C: what the body leaves in the output block's buffer. -/
def out_C_2 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) : Vec F S1x2048x128 .f32 :=
  VO_2.read (Elt F) (VO_2.writes (Elt F) VO_2.junk (kernelRun_C c i arg2 harg2 arg3 harg3 arg4 harg4 arg5 harg5 hc0 hc1 x0 x1 xs0).1)

/-- Case C: the accumulator's pieces cover it. -/
theorem scover_C_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) (y : S2048x128.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S2048x128.size (by sl_kernel_rfl) y

/-- Case C: what the body leaves in the accumulator. -/
def sout_C_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) : Vec F S2048x128 .f32 :=
  VS_0.read (Elt F) (VS_0.writes (Elt F) VS_0.junk (kernelRun_C c i arg2 harg2 arg3 harg3 arg4 harg4 arg5 harg5 hc0 hc1 x0 x1 xs0).2.1)

/-! ## The accumulation, point by point -/

/-- What the output block's buffer and the accumulator hold after the body at position n: the case the position is in, run
    at the point's memrefs and input tiles, the accumulator started from what position n - 1 left. -/
def outsAt (c : Dev nD) : (n : ℕ) → n < cfg0.N → Vec F S1x2048x128 .f32 × Vec F S2048x128 .f32
  | 0, hn => (out_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_0 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (out_A_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 16 = 15 then
        (out_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2, sout_C_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2)
      else
        (out_B_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2, sout_B_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2)

/-- At a first tile. -/
theorem outsAt_A (c : Dev nD) (t : Fin cfg0.N) (h0 : t.val % 16 = 0) (h1 : ¬t.val % 16 = 15) :
    outsAt V c t.val t.isLt = (out_A_2 c (grid0.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t), sout_A_0 c (grid0.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

/-- At a middle tile: over what the point before left. -/
theorem outsAt_B (c : Dev nD) (t : Fin cfg0.N) (h0 : ¬t.val % 16 = 0) (h1 : ¬t.val % 16 = 15) :
    outsAt V c t.val t.isLt = (out_B_2 c (grid0.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2, sout_B_0 c (grid0.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt_C (c : Dev nD) (t : Fin cfg0.N) (h0 : ¬t.val % 16 = 0) (h1 : t.val % 16 = 15) :
    outsAt V c t.val t.isLt = (out_C_2 c (grid0.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2, sout_C_0 c (grid0.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS (c : Dev nD) : (n : ℕ) → n ≤ cfg0.N → sProp 𝕄
  | 0, _ => Pipeline.ΦA spec0 c
  | n + 1, hn => iprop(iprop(owns (c : Thread nD τ) scM_0 fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM_0 fullShare ((outsAt V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) scM_0 fullShare ((outsAt V c (n - 1) (by omega)).2) ∗ others c) ∗ (∃ r, prngReg c r)) := by
  cases n with
  | zero => exact absurd rfl hz
  | succ n => rfl

/-! ## The proof data -/

/-- The arrays as the region finds them; after the body each input's buffer at its tile and the output block's at
    `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input buffers hold their tiles; the closed forms say which case the point is in; the
    invariant hands the body the accumulator at what the point before left (at anything at the very first point) and
    takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 16 = 0
  · by_cases h1 : t.val % 16 = 15
    · exfalso; omega
    · rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
      rw [outsAt_A V c t h0 h1]
      unfold sout_A_0; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩, ⟨%d2, H2⟩⟩
        iapply ((kernelRun_A c (grid0.coords t) _ _ _ _ _ _ _ _ ((hcond_0 t).mpr h0) (fun h => h1 ((hcond_1 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_A c (grid0.coords t) _ _ _ _ _ _ _ _ ((hcond_0 t).mpr h0) (fun h => h1 ((hcond_1 t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 16 = 15
    · rw [show (dat V c).leavesExact 2 t = owns (c : Thread nD τ) (ms_2 t) fullShare ((dat V c).after 2 t) from by
        unfold Dat.leavesExact; rw [liveAt_2_C t (fun h => h0 ((hcond_0 t).mp h)) ((hcond_1 t).mpr h1)], after_2]
      rw [outsAt_C V c t h0 h1]
      unfold out_C_2 sout_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_C c (grid0.coords t) _ _ _ _ _ _ _ _ (fun h => h0 ((hcond_0 t).mp h)) ((hcond_1 t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_C_0 c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C_2 c _ _ _ _ _ _ _ _ _ _ _ _ _ _)
    · rw [Dat.leavesExact_idle (dat V c) 2 t (idleAt_2_B t (fun h => h0 ((hcond_0 t).mp h)) (fun h => h1 ((hcond_1 t).mp h))) (noFlush_2_B t (fun h => h0 ((hcond_0 t).mp h)) (fun h => h1 ((hcond_1 t).mp h)))]
      rw [outsAt_B V c t h0 h1]
      unfold sout_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_B c (grid0.coords t) _ _ _ _ _ _ _ _ (fun h => h0 ((hcond_0 t).mp h)) (fun h => h1 ((hcond_1 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_B_0 c _ _ _ _ _ _ _ _ _ _ _ _ _ _)
            iexact Hoth
          iexact Hg
        isplitl [Ho]; · iexact Ho
        isplitl [H0]; · iexact H0
        isplitl [H1]; · iexact H1
        iexists _; iexact H2

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives that back, the accumulator's contents forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, Hoth⟩, Hg⟩
  isplitl [HS0 Hoth]
  · isplitl [HS0]
    · iexists _; iexact HS0
    iexact Hoth
  iexact Hg

theorem hout (c : Dev nD) : (dat V c).Φ (Fin.last cfg0.N) ⊢ Pipeline.ΦA spec0 c :=
  Phi_out V c _ (by rw [Fin.val_last]; have : cfg0.N = 64 := N_0; omega)

end Cert.Kernel.R0

end
-- ==== Proof.KY1Runs.lean ====
/-
  Region 1 (y = z · W_outᵀ + x · W_linᵀ + b, grid 4 × 4 × 16): what its three control cases share.

  A grid point is (batch b, output-column tile j, input tile k). The body keeps an accumulator in scratch memory over
  the sixteen input tiles of one (b, j): at k = 0 it sets the accumulator to the low-rank term z_b · W_out[j]ᵀ; at
  every k it adds the partial product x[b, :, k] · W_lin[j, k]ᵀ; at k = 15 it stores accumulator + bias[j] into the
  output block. So a point is in one of three cases: k = 0 (A), 0 < k < 15 (B), k = 15 (C).

  Everything is stated at a parameter V: the buffer contents when the region is entered.
-/
import proofs.«158239_j26474178412911_1_alg».proof.Proof.Gen.Kernel.Launch
import proofs.«158239_j26474178412911_1_alg».proof.Proof.Gen.Kernel.Skeleton
import proofs.«158239_j26474178412911_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x tile (window 0): its staging buffer holds the window's block at every point, whether or not the block was fetched
    there (where it was not, the block index has not moved since the last fetch). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The code block z (window 1): its staging buffer holds the window's block at every point, whether or not the block was fetched
    there (where it was not, the block index has not moved since the last fetch). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The output-projection tile (window 2): its staging buffer holds the window's block at every point, whether or not the block was fetched
    there (where it was not, the block index has not moved since the last fetch). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The linear-map tile (window 3): its staging buffer holds the window's block at every point, whether or not the block was fetched
    there (where it was not, the block index has not moved since the last fetch). -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The bias tile (window 4): its staging buffer holds the window's block at every point, whether or not the block was fetched
    there (where it was not, the block index has not moved since the last fetch). -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the 256 points -/

/-- "This is the first input tile of the (b, j) pair" (k = 0). -/
abbrev cond_0 (i : grid1.Coords) : Prop := (Scalar.cmpi .ne (Scalar.extui (Scalar.cmpi .eq (BitVec.ofNat 32 (i 2).val) 0#32)) 0#32) = 1#1
/-- In row-major order k is the point's position modulo 16. -/
theorem hcond_0 : ∀ t : Fin cfg1.N, cond_0 (grid1.coords t) ↔ t.val % 16 = 0 :=
  (by decide +kernel : ∀ t : Fin grid1.N, cond_0 (grid1.coords t) ↔ t.val % 16 = 0)

/-- "This is the last input tile of the (b, j) pair" (k = 15). -/
abbrev cond_1 (i : grid1.Coords) : Prop := k1_cond2 i = 1#1
theorem hcond_1 : ∀ t : Fin cfg1.N, cond_1 (grid1.coords t) ↔ t.val % 16 = 15 :=
  (by decide +kernel : ∀ t : Fin grid1.N, cond_1 (grid1.coords t) ↔ t.val % 16 = 15)

/-! ## Where the windows are idle -/

/-- The five inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
/-- Away from k = 15 the output block is neither stored into nor written back. -/
theorem idleAt_5_A : ∀ t : Fin cfg1.N, cond_0 (grid1.coords t) → ¬cond_1 (grid1.coords t) → cfg1.idle 5 (grid1.coords t) = true := by decide +kernel
theorem noFlush_5_A : ∀ t : Fin cfg1.N, cond_0 (grid1.coords t) → ¬cond_1 (grid1.coords t) → (cfg1.win 5).flush t = false := by decide +kernel
theorem idleAt_5_B : ∀ t : Fin cfg1.N, ¬cond_0 (grid1.coords t) → ¬cond_1 (grid1.coords t) → cfg1.idle 5 (grid1.coords t) = true := by decide +kernel
theorem noFlush_5_B : ∀ t : Fin cfg1.N, ¬cond_0 (grid1.coords t) → ¬cond_1 (grid1.coords t) → (cfg1.win 5).flush t = false := by decide +kernel
/-- At k = 15 it is stored. -/
theorem liveAt_5_C : ∀ t : Fin cfg1.N, ¬cond_0 (grid1.coords t) → cond_1 (grid1.coords t) → cfg1.idle 5 (grid1.coords t) = false := by decide +kernel

/-! ## The memrefs the body is called with -/

/-- One staging buffer of the output window, through which its contents are stated (which of the two does not matter). -/
abbrev VO_5 : View sig .tc .vmem S1x2048x1024 .f32 := (Memref.whole cc1_stg5_0 : Memref sig .tc .vmem S1x2048x1024 .f32).view
/-- Each window's current staging memref at point t, and that it is a whole buffer. -/
abbrev ms_0 (t : Fin cfg1.N) : Memref sig .tc .vmem S1x2048x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x2048x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x256 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x1024 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x2048x1024 .f32 := win1_5.stage (cfg1.slots t 5)
abbrev hs_5 (t : Fin cfg1.N) : (ms_5 t).IsWhole := hstage1_5 ((cfg1.slots t 5).cast nbuf1_5)
/-- The accumulator: a whole scoped buffer of the kernel's own, passed beside the windows. -/
abbrev scM_0 : Memref sig .tc .vmem S2048x1024 .f32 := Memref.whole cc1_scratch0
/-- The accumulator as a view: what it holds is stated through it. -/
abbrev VS_0 : View sig .tc .vmem S2048x1024 .f32 := scM_0.view

/-! ## What the region is handed beside its windows -/

/-- The scoped buffers this region never touches (the other region's staging buffers and accumulator), each whole
    at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped buffers that are no staging buffer of this region, listed with the accumulator first. -/
theorem scopedRest_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg1_1, cc0_stg2_0, cc0_stg2_1, cc0_scratch0] (by decide) (by decide)

/-- The region's invariant before the first point: the accumulator at some contents, the untouched scoped buffers, the
    generator register at some state. -/
theorem PhiA_eq (c : Dev nD) :
    (Pipeline.ΦA spec1 c : sProp 𝕄)
      = iprop((∃ d, owns (c : Thread nD τ) scM_0 fullShare d) ∗ others c ∗ (∃ r, prngReg c r)) := by
  unfold Pipeline.ΦA others; rw [scopedRest_eq]; simp only [scM_0, owns_whole]
  exact BI.equiv_iff.mp ⟨Idealize.SL.BI.sep_assoc, Idealize.SL.BI.sep_assoc'⟩

end Cert.Kernel.R1

end
-- ==== Proof.KY1RunA.lean ====
/-
  Region 1, case A (k = 0): the whole body run on any whole staging memrefs.
  The accumulator is set to the low-rank term and the first partial product is added; the output block is not touched.
-/
import proofs.«158239_j26474178412911_1_alg».proof.Proof.KY1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (k = 0, and k ≠ 15). On whole memrefs — the five inputs' at contents x0 … x4, the output block's at any
    contents xi5 (handed back untouched: no store), the accumulator's at anything — the body runs to the continuation
    holding the inputs' as they were, the output's as it was, and the accumulator with the pieces LS0 written: its two
    whole stores, the second over the first. The pieces are found by running the body; they are the witness. -/
noncomputable def kernelRun_A (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i)
    (x0 : Vec F S1x2048x256 .f32) (x1 : Vec F S1x2048x128 .f32) (x2 : Vec F S1024x128 .f32) (x3 : Vec F S1024x256 .f32) (x4 : Vec F S1x1024 .f32) :
    Σ' (L5 : List (View.Piece (Elt F) S1x2048x1024 .f32)), { LS0 : List (View.Piece (Elt F) S2048x1024 .f32) //
      ∀ (xi5 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨[], ?_, fun xi5 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.R1

end
-- ==== Proof.KY1RunB.lean ====
/-
  Region 1, case B (0 < k < 15): the whole body run on any whole staging memrefs.
  The partial product is added to the accumulator; the output block is not touched.
-/
import proofs.«158239_j26474178412911_1_alg».proof.Proof.KY1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (k ≠ 0 and k ≠ 15). On whole memrefs — the five inputs' at contents x0 … x4, the output block's at any
    contents xi5 (handed back untouched: no store), the accumulator's at what the point before left, xs0 — the body runs
    to the continuation holding the inputs' as they were, the output's as it was, and the accumulator with the pieces LS0
    written: one whole store. -/
noncomputable def kernelRun_B (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) :
    Σ' (L5 : List (View.Piece (Elt F) S1x2048x1024 .f32)), { LS0 : List (View.Piece (Elt F) S2048x1024 .f32) //
      ∀ (xi5 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨[], ?_, fun xi5 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.R1

end
-- ==== Proof.KY1RunC.lean ====
/-
  Region 1, case C (k = 15): the whole body run on any whole staging memrefs.
  The last partial product is added to the accumulator, and accumulator + bias is stored into the output block.
-/
import proofs.«158239_j26474178412911_1_alg».proof.Proof.KY1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (k = 15, and k ≠ 0). On whole memrefs — the five inputs' at contents x0 … x4, the output block's at
    anything, the accumulator's at what the point before left, xs0 — the body runs to the continuation holding the
    inputs' as they were, the output block with the pieces L5 written (one whole store) and the accumulator with the
    pieces LS0 written (one whole store). -/
noncomputable def kernelRun_C (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) :
    Σ' (L5 : List (View.Piece (Elt F) S1x2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨?_, ?_, fun E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.R1

end
-- ==== Proof.KY1Frame.lean ====
/-
  Region 1: what the output block and the accumulator hold after each grid point, the region's invariant, the
  pipeline's proof data, and the body obligation at every point.

  Positions are in row-major order, so the input-tile coordinate k of position n is n mod 16. After position n the
  accumulator holds: at k = 0 the low-rank term plus the first partial product; otherwise what position n - 1 left
  plus this position's partial product. The output block's staging buffer is stored only at k = 15, from the
  accumulator as position n - 1 left it plus this position's partial product, plus the bias tile.
-/
import proofs.«158239_j26474178412911_1_alg».proof.Proof.KY1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output block's buffer and in the accumulator -/

/-- Case A stores nothing into the output block (idle there and not written back): no pieces; a placeholder (junk read
    back) that nothing consults. -/
def out_A_5 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i)
    (x0 : Vec F S1x2048x256 .f32) (x1 : Vec F S1x2048x128 .f32) (x2 : Vec F S1024x128 .f32) (x3 : Vec F S1024x256 .f32) (x4 : Vec F S1x1024 .f32) : Vec F S1x2048x1024 .f32 :=
  VO_5.read (Elt F) (VO_5.writes (Elt F) VO_5.junk (kernelRun_A c i arg3 harg3 arg4 harg4 arg5 harg5 arg6 harg6 arg7 harg7 arg8 harg8 arg9 harg9 hc0 hc1 x0 x1 x2 x3 x4).1)

/-- Case A's pieces for the accumulator cover it: two whole stores. -/
theorem scover_A_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (y : S2048x1024.Idx) :
    ∃ pc ∈ (kernelRun_A c i arg3 harg3 arg4 harg4 arg5 harg5 arg6 harg6 arg7 harg7 arg8 harg8 arg9 harg9 hc0 hc1 x0 x1 x2 x3 x4).2.1, y ∈ pc.1.set :=
  View.cover_of_tiledL (kernelRun_A c i arg3 harg3 arg4 harg4 arg5 harg5 arg6 harg6 arg7 harg7 arg8 harg8 arg9 harg9 hc0 hc1 x0 x1 x2 x3 x4).2.1 S2048x1024.size (by sl_kernel_rfl) y

/-- What case A leaves in the accumulator: its pieces read back over junk. -/
def sout_A_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i)
    (x0 : Vec F S1x2048x256 .f32) (x1 : Vec F S1x2048x128 .f32) (x2 : Vec F S1024x128 .f32) (x3 : Vec F S1024x256 .f32) (x4 : Vec F S1x1024 .f32) : Vec F S2048x1024 .f32 :=
  VS_0.read (Elt F) (VS_0.writes (Elt F) VS_0.junk (kernelRun_A c i arg3 harg3 arg4 harg4 arg5 harg5 arg6 harg6 arg7 harg7 arg8 harg8 arg9 harg9 hc0 hc1 x0 x1 x2 x3 x4).2.1)

/-- Case B stores nothing into the output block either: the same placeholder. -/
def out_B_5 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) : Vec F S1x2048x1024 .f32 :=
  VO_5.read (Elt F) (VO_5.writes (Elt F) VO_5.junk (kernelRun_B c i arg3 harg3 arg4 harg4 arg5 harg5 arg6 harg6 arg7 harg7 arg8 harg8 arg9 harg9 hc0 hc1 x0 x1 x2 x3 x4 xs0).1)

/-- Case B's piece for the accumulator covers it: one whole store. -/
theorem scover_B_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) (y : S2048x1024.Idx) :
    ∃ pc ∈ (kernelRun_B c i arg3 harg3 arg4 harg4 arg5 harg5 arg6 harg6 arg7 harg7 arg8 harg8 arg9 harg9 hc0 hc1 x0 x1 x2 x3 x4 xs0).2.1, y ∈ pc.1.set :=
  View.cover_of_tiledL (kernelRun_B c i arg3 harg3 arg4 harg4 arg5 harg5 arg6 harg6 arg7 harg7 arg8 harg8 arg9 harg9 hc0 hc1 x0 x1 x2 x3 x4 xs0).2.1 S2048x1024.size (by sl_kernel_rfl) y

/-- What case B leaves in the accumulator. -/
def sout_B_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) : Vec F S2048x1024 .f32 :=
  VS_0.read (Elt F) (VS_0.writes (Elt F) VS_0.junk (kernelRun_B c i arg3 harg3 arg4 harg4 arg5 harg5 arg6 harg6 arg7 harg7 arg8 harg8 arg9 harg9 hc0 hc1 x0 x1 x2 x3 x4 xs0).2.1)

/-- Case C's piece for the output block covers it: one whole store. -/
theorem cover_C_5 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) (y : S1x2048x1024.Idx) :
    ∃ pc ∈ (kernelRun_C c i arg3 harg3 arg4 harg4 arg5 harg5 arg6 harg6 arg7 harg7 arg8 harg8 arg9 harg9 hc0 hc1 x0 x1 x2 x3 x4 xs0).1, y ∈ pc.1.set :=
  View.cover_of_tiledL (kernelRun_C c i arg3 harg3 arg4 harg4 arg5 harg5 arg6 harg6 arg7 harg7 arg8 harg8 arg9 harg9 hc0 hc1 x0 x1 x2 x3 x4 xs0).1 S1x2048x1024.size (by sl_kernel_rfl) y

/-- What case C leaves in the output block's staging buffer: its piece read back over junk. -/
def out_C_5 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) : Vec F S1x2048x1024 .f32 :=
  VO_5.read (Elt F) (VO_5.writes (Elt F) VO_5.junk (kernelRun_C c i arg3 harg3 arg4 harg4 arg5 harg5 arg6 harg6 arg7 harg7 arg8 harg8 arg9 harg9 hc0 hc1 x0 x1 x2 x3 x4 xs0).1)

/-- Case C's piece for the accumulator covers it: one whole store. -/
theorem scover_C_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) (y : S2048x1024.Idx) :
    ∃ pc ∈ (kernelRun_C c i arg3 harg3 arg4 harg4 arg5 harg5 arg6 harg6 arg7 harg7 arg8 harg8 arg9 harg9 hc0 hc1 x0 x1 x2 x3 x4 xs0).2.1, y ∈ pc.1.set :=
  View.cover_of_tiledL (kernelRun_C c i arg3 harg3 arg4 harg4 arg5 harg5 arg6 harg6 arg7 harg7 arg8 harg8 arg9 harg9 hc0 hc1 x0 x1 x2 x3 x4 xs0).2.1 S2048x1024.size (by sl_kernel_rfl) y

/-- What case C leaves in the accumulator. -/
def sout_C_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) : Vec F S2048x1024 .f32 :=
  VS_0.read (Elt F) (VS_0.writes (Elt F) VS_0.junk (kernelRun_C c i arg3 harg3 arg4 harg4 arg5 harg5 arg6 harg6 arg7 harg7 arg8 harg8 arg9 harg9 hc0 hc1 x0 x1 x2 x3 x4 xs0).2.1)

/-! ## What the output block's buffer and the accumulator hold after each point -/

/-- THE ACCUMULATION. After the body at position n: the output block's staging buffer, then the accumulator. The
    case is read off n mod 16, run at the point's memrefs and input blocks, over what position n - 1 left in the
    accumulator (cases B and C). No position has k = 0 and k = 15 at once. -/
def outsAt (c : Dev nD) : (n : ℕ) → n < cfg1.N → Vec F S1x2048x1024 .f32 × Vec F S2048x1024 .f32
  | 0, hn => (out_A_5 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 16 = 0 then
      if h1 : (n + 1) % 16 = 15 then
        False.elim (by have hN : n + 1 < 256 := lt_of_lt_of_eq hn (show cfg1.N = 256 from N_1); omega)
      else
        (out_A_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 16 = 15 then
        (out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
      else
        (out_B_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

/-- At a position with k = 0: case A's contents. -/
theorem outsAt_A (c : Dev nD) (t : Fin cfg1.N) (h0 : t.val % 16 = 0) (h1 : ¬t.val % 16 = 15) :
    outsAt V c t.val t.isLt = (out_A_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) ((hcond_0 t).mpr h0) (fun h => h1 ((hcond_1 t).mp h)) (iblk V c 0 t) (iblk V c 1 t) (iblk V c 2 t) (iblk V c 3 t) (iblk V c 4 t), sout_A_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) ((hcond_0 t).mpr h0) (fun h => h1 ((hcond_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- At a position with 0 < k < 15: case B's contents, over what the position before left. -/
theorem outsAt_B (c : Dev nD) (t : Fin cfg1.N) (h0 : ¬t.val % 16 = 0) (h1 : ¬t.val % 16 = 15) :
    outsAt V c t.val t.isLt = (out_B_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2, sout_B_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a position with k = 15: case C's contents, over what the position before left. -/
theorem outsAt_C (c : Dev nD) (t : Fin cfg1.N) (h0 : ¬t.val % 16 = 0) (h1 : t.val % 16 = 15) :
    outsAt V c t.val t.isLt = (out_C_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2, sout_C_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n. Before the first point: the accumulator at anything, the untouched scoped buffers, the
    generator register at some state. Afterwards: the accumulator at what position n - 1 left in it, the rest as before. -/
def PhiS (c : Dev nD) : (n : ℕ) → n ≤ cfg1.N → sProp 𝕄
  | 0, _ => Pipeline.ΦA spec1 c
  | n + 1, hn => iprop(owns (c : Thread nD τ) scM_0 fullShare (outsAt V c n hn).2 ∗ others c ∗ (∃ r, prngReg c r))

theorem PhiS_zero (c : Dev nD) (n : ℕ) (h : n ≤ cfg1.N) (hz : n = 0) : PhiS V c n h = Pipeline.ΦA spec1 c := by
  subst hz; rfl

/-- After position n (before position n + 1): the accumulator at that position's contents. -/
theorem PhiS_succ (c : Dev nD) (n : ℕ) (hn : n < cfg1.N) :
    PhiS V c (n + 1) hn = iprop(owns (c : Thread nD τ) scM_0 fullShare (outsAt V c n hn).2 ∗ others c ∗ (∃ r, prngReg c r)) := rfl

/-- Before a position that is not the first: the accumulator at what the position before left. -/
theorem PhiS_pos (c : Dev nD) (n : ℕ) (h : n ≤ cfg1.N) (hz : n ≠ 0) :
    PhiS V c n h = iprop(owns (c : Thread nD τ) scM_0 fullShare (outsAt V c (n - 1) (by omega)).2 ∗ others c ∗ (∃ r, prngReg c r)) := by
  cases n with
  | zero => exact absurd rfl hz
  | succ n => rfl

/-! ## The pipeline's proof data -/

/-- The proof data of the region's pipeline on core c: the arrays as the region finds them; after the body at point t
    each input's buffer at its block and the output's at `outsAt`'s first component; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation, at a generic point -/

/-- What the body is called with at point t: the invariant, the core owing nothing, the six current staging buffers, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' memrefs hold their blocks; the position modulo 16 says which case the point is
    in, so that case's run applies. The invariant hands the body the accumulator at what the position before left (at
    anything at the first position) and takes it back at this position's contents, its pieces covering it; the untouched
    scoped buffers, the generator register and the core's debts pass through. Where the output block is idle its buffer
    goes back as found; at k = 15 it goes back at its piece read back. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  by_cases h0 : t.val % 16 = 0
  · by_cases h1 : t.val % 16 = 15
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5_A t ((hcond_0 t).mpr h0) (fun h => h1 ((hcond_1 t).mp h))) (noFlush_5_A t ((hcond_0 t).mpr h0) (fun h => h1 ((hcond_1 t).mp h)))]
      rw [outsAt_A V c t h0 h1]
      unfold sout_A_0; (try dsimp only)
      by_cases hz : t.val = 0
      · rw [PhiS_castSucc V c t, PhiS_zero V c _ _ hz, PhiA_eq]
        iintro ⟨⟨HS0, Hoth, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨HS0, Hoth, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5_C t (fun h => h0 ((hcond_0 t).mp h)) ((hcond_1 t).mpr h1)], after_5]
      rw [outsAt_C V c t h0 h1]
      unfold out_C_5 sout_C_0; (try dsimp only)
      by_cases hz : t.val = 0
      · exfalso; omega
      · rw [PhiS_castSucc V c t, PhiS_pos V c _ _ hz]
        iintro ⟨⟨HS0, Hoth, Hg⟩, Ho, ⟨%d0, H0⟩, ⟨%d1, H1⟩, ⟨%d2, H2⟩, ⟨%d3, H3⟩, ⟨%d4, H4⟩, ⟨%d5, H5⟩⟩
        iapply ((kernelRun_C c (grid1.coords t) _ _ _ _ _ _ _ _ _ _ _ _ _ _ (fun h => h0 ((hcond_0 t).mp h)) ((hcond_1 t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hoth Hg]
        · isplitl [HS0]
          · unfold owns; iexists _; isplitr
            swap; · iexact HS0
            ipureintro; exact View.read_writes_of_cover _ _ _ _ _ (scover_C_0 c _ _ _ _ _ _ _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_C_5 c _ _ _ _ _ _ _ _ _ _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5_B t (fun h => h0 ((hcond_0 t).mp h)) (fun h => h1 ((hcond_1 t).mp h))) (noFlush_5_B t (fun h => h0 ((hcond_0 t).mp h)) (fun h => h1 ((hcond_1 t).mp h)))]
      rw [outsAt_B V c t h0 h1]
      unfold sout_B_0; (try dsimp only)
      by_cases hz : t.val = 0
      · exfalso; omega
      · rw [PhiS_castSucc V c t, PhiS_pos V c _ _ hz]
        iintro ⟨⟨HS0, Hoth, Hg⟩, Ho, ⟨%d0, H0⟩, ⟨%d1, H1⟩, ⟨%d2, H2⟩, ⟨%d3, H3⟩, ⟨%d4, H4⟩, ⟨%d5, H5⟩⟩
        iapply ((kernelRun_B c (grid1.coords t) _ _ _ _ _ _ _ _ _ _ _ _ _ _ (fun h => h0 ((hcond_0 t).mp h)) (fun h => h1 ((hcond_1 t).mp h)) (iblk V c 0 t) (iblk V c 1 t) (iblk V c 2 t) (iblk V c 3 t) (iblk V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0]
          · unfold owns; iexists _; isplitr
            swap; · iexact HS0
            ipureintro; exact View.read_writes_of_cover _ _ _ _ _ (scover_B_0 c _ _ _ _ _ _ _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first position. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any position but the first the invariant gives that back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨HS0, Hoth, Hg⟩
  isplitl [HS0]
  · iexists _; iexact HS0
  isplitl [Hoth]; · iexact Hoth
  iexact Hg

/-- The same after the last position. -/
theorem hout (c : Dev nD) : (dat V c).Φ (Fin.last cfg1.N) ⊢ Pipeline.ΦA spec1 c :=
  Phi_out V c _ (by rw [Fin.val_last]; have : cfg1.N = 256 := N_1; omega)

end Cert.Kernel.R1

end
-- ==== Proof.KMainRun.lean ====
/-
  The whole program's run: @main is a stretch of host operations (the learning rate, the combined matrix), kernel region 0
  (the code z), one host operation (the bias as a row), kernel region 1 (the result y).
  The buffer contents at each boundary are a fold from the launch memory: a host stretch applies its operations; a region
  leaves each of its arrays at what its write-backs leave (an input array as entered) and every other buffer as entered.
  Every weakly fair execution terminates with every unscoped buffer at the last boundary's contents (`run_all`); read at
  the arguments, which no stretch writes and no region changes, that is the frame.
-/
import proofs.«158239_j26474178412911_1_alg».proof.Proof.KZ0Frame
import proofs.«158239_j26474178412911_1_alg».proof.Proof.KY1Frame
import proofs.«158239_j26474178412911_1_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Run2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A host stretch changes only the buffers its operations write. -/
theorem W1_of (c : Dev nD) (r : Ref sig .tc) (h : r ∉ (hostOps0_W : List (Ref sig .tc))) : W1 m c (Proc.devRef .tc r) = W0 m c (Proc.devRef .tc r) :=
  StableHlo.after_of_writes_sub hostOps0 _ hostOps0_writes h
theorem W3_of (c : Dev nD) (r : Ref sig .tc) (h : r ∉ (hostOps1_W : List (Ref sig .tc))) : W3 m c (Proc.devRef .tc r) = W2 m c (Proc.devRef .tc r) :=
  StableHlo.after_of_writes_sub hostOps1 _ hostOps1_writes h

/-! ## Every argument ends as launched -/

theorem W4_main_arg0 (c : Dev nD) : W4 m c (Proc.devRef .tc main_arg0) = m ((c : Thread nD τ).loc main_arg0) :=
  (((W4_arr m c 0).trans (((R1.dat (V3 m) c).arrAt_in 0 rfl _).trans (R1.A_eq (V3 m) c 0))).trans <| (W3_of m c main_arg0 (by decide)).trans <| ((W2_arr m c 0).trans (((R0.dat (V1 m) c).arrAt_in 0 rfl _).trans (R0.A_eq (V1 m) c 0))).trans <| (W1_of m c main_arg0 (by decide)).trans rfl)
theorem W4_main_arg1 (c : Dev nD) : W4 m c (Proc.devRef .tc main_arg1) = m ((c : Thread nD τ).loc main_arg1) :=
  ((W4_of_ne m c main_arg1 (by decide)).trans <| (W3_of m c main_arg1 (by decide)).trans <| (W2_of_ne m c main_arg1 (by decide)).trans <| (W1_of m c main_arg1 (by decide)).trans rfl)
theorem W4_main_arg2 (c : Dev nD) : W4 m c (Proc.devRef .tc main_arg2) = m ((c : Thread nD τ).loc main_arg2) :=
  ((W4_of_ne m c main_arg2 (by decide)).trans <| (W3_of m c main_arg2 (by decide)).trans <| (W2_of_ne m c main_arg2 (by decide)).trans <| (W1_of m c main_arg2 (by decide)).trans rfl)
theorem W4_main_arg3 (c : Dev nD) : W4 m c (Proc.devRef .tc main_arg3) = m ((c : Thread nD τ).loc main_arg3) :=
  ((W4_of_ne m c main_arg3 (by decide)).trans <| (W3_of m c main_arg3 (by decide)).trans <| (W2_of_ne m c main_arg3 (by decide)).trans <| (W1_of m c main_arg3 (by decide)).trans rfl)
theorem W4_main_arg4 (c : Dev nD) : W4 m c (Proc.devRef .tc main_arg4) = m ((c : Thread nD τ).loc main_arg4) :=
  ((W4_of_ne m c main_arg4 (by decide)).trans <| (W3_of m c main_arg4 (by decide)).trans <| (W2_of_ne m c main_arg4 (by decide)).trans <| (W1_of m c main_arg4 (by decide)).trans rfl)
theorem W4_main_arg5 (c : Dev nD) : W4 m c (Proc.devRef .tc main_arg5) = m ((c : Thread nD τ).loc main_arg5) :=
  (((W4_arr m c 2).trans (((R1.dat (V3 m) c).arrAt_in 2 rfl _).trans (R1.A_eq (V3 m) c 2))).trans <| (W3_of m c main_arg5 (by decide)).trans <| (W2_of_ne m c main_arg5 (by decide)).trans <| (W1_of m c main_arg5 (by decide)).trans rfl)
theorem W4_main_arg6 (c : Dev nD) : W4 m c (Proc.devRef .tc main_arg6) = m ((c : Thread nD τ).loc main_arg6) :=
  (((W4_arr m c 3).trans (((R1.dat (V3 m) c).arrAt_in 3 rfl _).trans (R1.A_eq (V3 m) c 3))).trans <| (W3_of m c main_arg6 (by decide)).trans <| (W2_of_ne m c main_arg6 (by decide)).trans <| (W1_of m c main_arg6 (by decide)).trans rfl)
theorem W4_main_arg7 (c : Dev nD) : W4 m c (Proc.devRef .tc main_arg7) = m ((c : Thread nD τ).loc main_arg7) :=
  ((W4_of_ne m c main_arg7 (by decide)).trans <| (W3_of m c main_arg7 (by decide)).trans <| (W2_of_ne m c main_arg7 (by decide)).trans <| (W1_of m c main_arg7 (by decide)).trans rfl)

/-! ## Region entries read back to the launch memory -/

/-- Region 0 finds x as launched. -/
theorem V1_main_arg0 (c : Dev nD) : V1 m c main_arg0 = m ((c : Thread nD τ).loc main_arg0) :=
  (W1_of m c main_arg0 (by decide)).trans rfl
/-- Region 1 finds x, w_out and w_lin as launched, -/
theorem V3_main_arg0 (c : Dev nD) : V3 m c main_arg0 = m ((c : Thread nD τ).loc main_arg0) :=
  (W3_of m c main_arg0 (by decide)).trans <| ((W2_arr m c 0).trans (((R0.dat (V1 m) c).arrAt_in 0 rfl _).trans (R0.A_eq (V1 m) c 0))).trans <| (W1_of m c main_arg0 (by decide)).trans rfl
theorem V3_main_arg5 (c : Dev nD) : V3 m c main_arg5 = m ((c : Thread nD τ).loc main_arg5) :=
  (W3_of m c main_arg5 (by decide)).trans <| (W2_of_ne m c main_arg5 (by decide)).trans <| (W1_of m c main_arg5 (by decide)).trans rfl
theorem V3_main_arg6 (c : Dev nD) : V3 m c main_arg6 = m ((c : Thread nD τ).loc main_arg6) :=
  (W3_of m c main_arg6 (by decide)).trans <| (W2_of_ne m c main_arg6 (by decide)).trans <| (W1_of m c main_arg6 (by decide)).trans rfl
/-- the code at what region 0's write-backs left, -/
theorem V3_main_v11 (c : Dev nD) : V3 m c main_v11 = (R0.dat (V1 m) c).arrAt 2 cfg0.N :=
  (W3_of m c main_v11 (by decide)).trans (W2_arr m c 2)
/-- and the bias argument, which the second host stretch reads, as launched. -/
theorem W2_main_arg7 (c : Dev nD) : W2 m c (Proc.devRef .tc main_arg7) = m ((c : Thread nD τ).loc main_arg7) :=
  (W2_of_ne m c main_arg7 (by decide)).trans <| (W1_of m c main_arg7 (by decide)).trans rfl
/-- The first host stretch reads these three arguments. -/
theorem W0_main_arg (c : Dev nD) (b : Ref sig .tc) : W0 m c (Proc.devRef .tc b) = m ((c : Thread nD τ).loc b) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

/-- What a region is handed beside its windows — the generator register, its (empty) tables, the scoped buffers no window
    stages — is the class's invariant, and back. -/
theorem toPhiA0 (c : Dev nD) (M : sProp 𝕄) : iprop((∃ r, prngReg c r) ∗ M ∗ Pipeline.scopedRest spec0 c) ⊢ (Pipeline.ΦA spec0 c : sProp 𝕄) := by
  unfold Pipeline.ΦA
  iintro ⟨Hp, -, Hr⟩
  isplitl [Hr]; · iexact Hr
  iexact Hp
theorem fromPhiA0 (c : Dev nD) : (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr
theorem toPhiA1 (c : Dev nD) (M : sProp 𝕄) : iprop((∃ r, prngReg c r) ∗ M ∗ Pipeline.scopedRest spec1 c) ⊢ (Pipeline.ΦA spec1 c : sProp 𝕄) := by
  unfold Pipeline.ΦA
  iintro ⟨Hp, -, Hr⟩
  isplitl [Hr]; · iexact Hr
  iexact Hp
theorem fromPhiA1 (c : Dev nD) : (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at the contents before it, left at those after it.
    Its arrays are split out of the unscoped buffers and put back at what the write-backs leave; the generator register and
    the scoped buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (R0.hin (V1 m) c)
  hout c := by
    rw [Pipeline.ownSems0_none]
    exact (R0.hout (V1 m) c).trans (fromPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those after it.
    Its arrays are split out of the unscoped buffers and put back at what the write-backs leave; the generator register and
    the scoped buffers go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (R1.hin (V3 m) c)
  hout c := by
    rw [Pipeline.ownSems0_none]
    exact (R1.hout (V3 m) c).trans (fromPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main from the memory m with zero counters terminates, nothing faulting, with every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

/-- The run with the result named as well: the result buffer ends at what region 1's write-backs leave in its output array. -/
theorem run_result : θ_run defs (onTc (τ := τ) (main (F := F))) ⟨m, fun _ => 0, ρ⟩ (fun r => ∀ c : Dev nD,
      r.2.mem ((c.tc : Thread nD τ).loc main_v13) = (R1.dat (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v13 (by decide))).trans (W4_arr m c 5),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.Kernel.Run2

end
-- ==== Proof.Z0Runs.lean ====
/-
  Region 0 (the code z = x · Wbᵀ, grid 4 × 16): what its three control cases share.
  A grid point is (batch b, input tile k); the body adds the tile's partial product into an accumulator kept in
  scratch memory across the sixteen tiles of a batch: it clears the accumulator when k = 0 and copies it to the
  output block when k = 15. So there are three cases: k = 0, 0 < k < 15, k = 15.
  Everything is stated at a parameter V: the buffer contents when the region is entered.
-/
import proofs.«158239_j26474178412911_1_alg».proof.Proof.Gen.KernelIdeal.Launch
import proofs.«158239_j26474178412911_1_alg».proof.Proof.Gen.KernelIdeal.Skeleton
import proofs.«158239_j26474178412911_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x tile's staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The combined-matrix tile's staging buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the 64 points -/

/-- "This is the first tile of the batch" (k = 0). -/
abbrev cond_0 (i : grid0.Coords) : Prop := (Scalar.cmpi .ne (Scalar.extui (Scalar.cmpi .eq (BitVec.ofNat 32 (i 1).val) 0#32)) 0#32) = 1#1
theorem hcond_0 : ∀ t : Fin cfg0.N, cond_0 (grid0.coords t) ↔ t.val % 16 = 0 :=
  (by decide +kernel : ∀ t : Fin grid0.N, cond_0 (grid0.coords t) ↔ t.val % 16 = 0)

/-- "This is the last tile of the batch" (k = 15). -/
abbrev cond_1 (i : grid0.Coords) : Prop := k0_cond2 i = 1#1
theorem hcond_1 : ∀ t : Fin cfg0.N, cond_1 (grid0.coords t) ↔ t.val % 16 = 15 :=
  (by decide +kernel : ∀ t : Fin grid0.N, cond_1 (grid0.coords t) ↔ t.val % 16 = 15)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Away from the last tile the output block is neither stored into nor written back. -/
theorem idleAt_2_A : ∀ t : Fin cfg0.N, cond_0 (grid0.coords t) → ¬cond_1 (grid0.coords t) → cfg0.idle 2 (grid0.coords t) = true := by decide +kernel
theorem noFlush_2_A : ∀ t : Fin cfg0.N, cond_0 (grid0.coords t) → ¬cond_1 (grid0.coords t) → (cfg0.win 2).flush t = false := by decide +kernel
theorem idleAt_2_B : ∀ t : Fin cfg0.N, ¬cond_0 (grid0.coords t) → ¬cond_1 (grid0.coords t) → cfg0.idle 2 (grid0.coords t) = true := by decide +kernel
theorem noFlush_2_B : ∀ t : Fin cfg0.N, ¬cond_0 (grid0.coords t) → ¬cond_1 (grid0.coords t) → (cfg0.win 2).flush t = false := by decide +kernel
/-- At the last tile it is stored. -/
theorem liveAt_2_C : ∀ t : Fin cfg0.N, ¬cond_0 (grid0.coords t) → cond_1 (grid0.coords t) → cfg0.idle 2 (grid0.coords t) = false := by decide +kernel

/-! ## The memrefs the body is called with -/

/-- One staging buffer of the output window, through which its contents are stated. -/
abbrev VO_2 : View sig .tc .vmem S1x2048x128 .f32 := (Memref.whole cc0_stg2_0 : Memref sig .tc .vmem S1x2048x128 .f32).view
abbrev ms_0 (t : Fin cfg0.N) : Memref sig .tc .vmem S1x2048x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x128x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x2048x128 .f32 := win0_2.stage (cfg0.slots t 2)
abbrev hs_2 (t : Fin cfg0.N) : (ms_2 t).IsWhole := hstage0_2 ((cfg0.slots t 2).cast nbuf0_2)
/-- The accumulator: a whole scoped buffer of the kernel's own. -/
abbrev scM_0 : Memref sig .tc .vmem S2048x128 .f32 := Memref.whole cc0_scratch0
abbrev VS_0 : View sig .tc .vmem S2048x128 .f32 := scM_0.view

/-- The scoped buffers this region never touches (the other region's staging buffers and accumulator), each whole
    at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region is handed beside its windows: the accumulator at some contents, the untouched scoped buffers, the
    generator register at some state. -/
theorem PhiA_eq (c : Dev nD) :
    (Pipeline.ΦA spec0 c : sProp 𝕄)
      = iprop(iprop((∃ d, owns (c : Thread nD τ) scM_0 fullShare d) ∗ others c) ∗ (∃ r, prngReg c r)) := by
  unfold Pipeline.ΦA others; rw [scopedRest0_eq]; simp only [scM_0, owns_whole]; try rfl

end Cert.KernelIdeal.R0

end
-- ==== Proof.Z0RunA.lean ====
/-
  Region 0, the first tile of a batch (k = 0): the body clears the accumulator, adds the tile's product, and leaves the
  output block alone. The whole body run on any whole memrefs; the pieces the accumulator ends with are found by the run.
-/
import proofs.«158239_j26474178412911_1_alg».proof.Proof.Z0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input tiles at their contents, the output block at contents handed back untouched, the
    accumulator at anything — the body runs to a continuation holding the inputs as they were and the accumulator with
    its pieces written. -/
noncomputable def kernelRun_A (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) :
    Σ' (L2 : List (View.Piece (Elt F) S1x2048x128 .f32)), { LS0 : List (View.Piece (Elt F) S2048x128 .f32) //
      ∀ (xi2 : Vec F S1x2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨[], ?_, fun xi2 E K => ?run⟩
  case run =>
    simp only [cc0__z_kernel_eq_skeleton]; unfold cc0__z_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.R0

end
-- ==== Proof.Z0RunB.lean ====
/-
  Region 0, a middle tile of a batch (0 < k < 15): the body adds the tile's product to the accumulator, which holds what
  the tile before left, and leaves the output block alone.
-/
import proofs.«158239_j26474178412911_1_alg».proof.Proof.Z0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input tiles at their contents, the output block handed back untouched, the accumulator at
    the contents xs0 — the body runs to a continuation holding the inputs as they were and the accumulator with its
    pieces written. -/
noncomputable def kernelRun_B (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) :
    Σ' (L2 : List (View.Piece (Elt F) S1x2048x128 .f32)), { LS0 : List (View.Piece (Elt F) S2048x128 .f32) //
      ∀ (xi2 : Vec F S1x2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨[], ?_, fun xi2 E K => ?run⟩
  case run =>
    simp only [cc0__z_kernel_eq_skeleton]; unfold cc0__z_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.R0

end
-- ==== Proof.Z0RunC.lean ====
/-
  Region 0, the last tile of a batch (k = 15): the body adds the tile's product to the accumulator and then copies the
  accumulator into the output block.
-/
import proofs.«158239_j26474178412911_1_alg».proof.Proof.Z0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the two input tiles at their contents, the output block at anything, the accumulator at the
    contents xs0 — the body runs to a continuation holding the inputs as they were and the output block and the
    accumulator with their pieces written. -/
noncomputable def kernelRun_C (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) :
    Σ' (L2 : List (View.Piece (Elt F) S1x2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨?_, ?_, fun E K => ?run⟩
  case run =>
    simp only [cc0__z_kernel_eq_skeleton]; unfold cc0__z_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.R0

end
-- ==== Proof.Z0Frame.lean ====
/-
  Region 0: what the output block and the accumulator hold point by point, the region's invariant, its proof data and the
  body obligation.
  After the body at point t = 16·b + k the accumulator holds the sum of the first k + 1 tile products of batch b: the first
  tile's case starts from the cleared accumulator, the later ones from what the point before left. Only at k = 15 is the
  output block stored (with the accumulator) and written back; elsewhere it is idle.
  The invariant between points: before the first point whatever the launch hands the region; afterwards the accumulator
  at exactly what the point before left, the other region's scoped buffers untouched, the generator register at some state.
-/
import proofs.«158239_j26474178412911_1_alg».proof.Proof.Z0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: what the body leaves in the output block's buffer (nothing is stored there: a placeholder nothing consults). -/
def out_A_2 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) : Vec F S1x2048x128 .f32 :=
  VO_2.read (Elt F) (VO_2.writes (Elt F) VO_2.junk (kernelRun_A c i arg2 harg2 arg3 harg3 arg4 harg4 arg5 harg5 hc0 hc1 x0 x1).1)

/-- Case A: the accumulator's pieces cover it. -/
theorem scover_A_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) (y : S2048x128.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S2048x128.size (by sl_kernel_rfl) y

/-- Case A: what the body leaves in the accumulator. -/
def sout_A_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) : Vec F S2048x128 .f32 :=
  VS_0.read (Elt F) (VS_0.writes (Elt F) VS_0.junk (kernelRun_A c i arg2 harg2 arg3 harg3 arg4 harg4 arg5 harg5 hc0 hc1 x0 x1).2.1)

/-- Case B: what the body leaves in the output block's buffer (nothing is stored there: a placeholder nothing consults). -/
def out_B_2 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) : Vec F S1x2048x128 .f32 :=
  VO_2.read (Elt F) (VO_2.writes (Elt F) VO_2.junk (kernelRun_B c i arg2 harg2 arg3 harg3 arg4 harg4 arg5 harg5 hc0 hc1 x0 x1 xs0).1)

/-- Case B: the accumulator's pieces cover it. -/
theorem scover_B_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) (y : S2048x128.Idx) :
    ∃ pc ∈ (kernelRun_B c i arg2 harg2 arg3 harg3 arg4 harg4 arg5 harg5 hc0 hc1 x0 x1 xs0).2.1, y ∈ pc.1.set :=
  View.cover_of_tiledL (kernelRun_B c i arg2 harg2 arg3 harg3 arg4 harg4 arg5 harg5 hc0 hc1 x0 x1 xs0).2.1 S2048x128.size (by sl_kernel_rfl) y

/-- Case B: what the body leaves in the accumulator. -/
def sout_B_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) : Vec F S2048x128 .f32 :=
  VS_0.read (Elt F) (VS_0.writes (Elt F) VS_0.junk (kernelRun_B c i arg2 harg2 arg3 harg3 arg4 harg4 arg5 harg5 hc0 hc1 x0 x1 xs0).2.1)

/-- Case C: the output block's pieces cover it. -/
theorem cover_C_2 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) (y : S1x2048x128.Idx) :
    ∃ pc ∈ (kernelRun_C c i arg2 harg2 arg3 harg3 arg4 harg4 arg5 harg5 hc0 hc1 x0 x1 xs0).1, y ∈ pc.1.set :=
  View.cover_of_tiledL (kernelRun_C c i arg2 harg2 arg3 harg3 arg4 harg4 arg5 harg5 hc0 hc1 x0 x1 xs0).1 S1x2048x128.size (by sl_kernel_rfl) y

/-- Case C: what the body leaves in the output block's buffer. -/
def out_C_2 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) : Vec F S1x2048x128 .f32 :=
  VO_2.read (Elt F) (VO_2.writes (Elt F) VO_2.junk (kernelRun_C c i arg2 harg2 arg3 harg3 arg4 harg4 arg5 harg5 hc0 hc1 x0 x1 xs0).1)

/-- Case C: the accumulator's pieces cover it. -/
theorem scover_C_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) (y : S2048x128.Idx) :
    ∃ pc ∈ (kernelRun_C c i arg2 harg2 arg3 harg3 arg4 harg4 arg5 harg5 hc0 hc1 x0 x1 xs0).2.1, y ∈ pc.1.set :=
  View.cover_of_tiledL (kernelRun_C c i arg2 harg2 arg3 harg3 arg4 harg4 arg5 harg5 hc0 hc1 x0 x1 xs0).2.1 S2048x128.size (by sl_kernel_rfl) y

/-- Case C: what the body leaves in the accumulator. -/
def sout_C_0 (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) : Vec F S2048x128 .f32 :=
  VS_0.read (Elt F) (VS_0.writes (Elt F) VS_0.junk (kernelRun_C c i arg2 harg2 arg3 harg3 arg4 harg4 arg5 harg5 hc0 hc1 x0 x1 xs0).2.1)

/-! ## The accumulation, point by point -/

/-- What the output block's buffer and the accumulator hold after the body at position n: the case the position is in, run
    at the point's memrefs and input tiles, the accumulator started from what position n - 1 left. -/
def outsAt (c : Dev nD) : (n : ℕ) → n < cfg0.N → Vec F S1x2048x128 .f32 × Vec F S2048x128 .f32
  | 0, hn => (out_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A_0 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 16 = 0 then
      if h1 : (n + 1) % 16 = 15 then
        False.elim (by omega)
      else
        (out_A_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 16 = 15 then
        (out_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2, sout_C_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2)
      else
        (out_B_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2, sout_B_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2)

/-- At a first tile. -/
theorem outsAt_A (c : Dev nD) (t : Fin cfg0.N) (h0 : t.val % 16 = 0) (h1 : ¬t.val % 16 = 15) :
    outsAt V c t.val t.isLt = (out_A_2 c (grid0.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t), sout_A_0 c (grid0.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

/-- At a middle tile: over what the point before left. -/
theorem outsAt_B (c : Dev nD) (t : Fin cfg0.N) (h0 : ¬t.val % 16 = 0) (h1 : ¬t.val % 16 = 15) :
    outsAt V c t.val t.isLt = (out_B_2 c (grid0.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2, sout_B_0 c (grid0.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt_C (c : Dev nD) (t : Fin cfg0.N) (h0 : ¬t.val % 16 = 0) (h1 : t.val % 16 = 15) :
    outsAt V c t.val t.isLt = (out_C_2 c (grid0.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2, sout_C_0 c (grid0.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

def PhiS (c : Dev nD) : (n : ℕ) → n ≤ cfg0.N → sProp 𝕄
  | 0, _ => Pipeline.ΦA spec0 c
  | n + 1, hn => iprop(iprop(owns (c : Thread nD τ) scM_0 fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM_0 fullShare ((outsAt V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) scM_0 fullShare ((outsAt V c (n - 1) (by omega)).2) ∗ others c) ∗ (∃ r, prngReg c r)) := by
  cases n with
  | zero => exact absurd rfl hz
  | succ n => rfl

/-! ## The proof data -/

/-- The arrays as the region finds them; after the body each input's buffer at its tile and the output block's at
    `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input buffers hold their tiles; the closed forms say which case the point is in; the
    invariant hands the body the accumulator at what the point before left (at anything at the very first point) and
    takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  by_cases h0 : t.val % 16 = 0
  · by_cases h1 : t.val % 16 = 15
    · exfalso; omega
    · rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
      rw [outsAt_A V c t h0 h1]
      unfold sout_A_0; (try dsimp only)
      by_cases hz : t.val = 0
      · rw [PhiS_castSucc V c t, PhiS_zero V c _ _ hz, PhiA_eq]
        iintro ⟨⟨⟨HS0, Hoth⟩, Hg⟩, Ho, ⟨%d0, H0⟩, ⟨%d1, H1⟩, ⟨%d2, H2⟩⟩
        iapply ((kernelRun_A c (grid0.coords t) _ _ _ _ _ _ _ _ ((hcond_0 t).mpr h0) (fun h => h1 ((hcond_1 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_A c (grid0.coords t) _ _ _ _ _ _ _ _ ((hcond_0 t).mpr h0) (fun h => h1 ((hcond_1 t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_A_0 c _ _ _ _ _ _ _ _ _ _ _ _ _)
            iexact Hoth
          iexact Hg
        isplitl [Ho]; · iexact Ho
        isplitl [H0]; · iexact H0
        isplitl [H1]; · iexact H1
        iexists _; iexact H2
  · by_cases h1 : t.val % 16 = 15
    · rw [show (dat V c).leavesExact 2 t = owns (c : Thread nD τ) (ms_2 t) fullShare ((dat V c).after 2 t) from by
        unfold Dat.leavesExact; rw [liveAt_2_C t (fun h => h0 ((hcond_0 t).mp h)) ((hcond_1 t).mpr h1)], after_2]
      rw [outsAt_C V c t h0 h1]
      unfold out_C_2 sout_C_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_C c (grid0.coords t) _ _ _ _ _ _ _ _ (fun h => h0 ((hcond_0 t).mp h)) ((hcond_1 t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_C_0 c _ _ _ _ _ _ _ _ _ _ _ _ _ _)
            iexact Hoth
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C_2 c _ _ _ _ _ _ _ _ _ _ _ _ _ _)
    · rw [Dat.leavesExact_idle (dat V c) 2 t (idleAt_2_B t (fun h => h0 ((hcond_0 t).mp h)) (fun h => h1 ((hcond_1 t).mp h))) (noFlush_2_B t (fun h => h0 ((hcond_0 t).mp h)) (fun h => h1 ((hcond_1 t).mp h)))]
      rw [outsAt_B V c t h0 h1]
      unfold sout_B_0; (try dsimp only)
      by_cases hz : t.val = 0
      · exfalso; omega
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun_B c (grid0.coords t) _ _ _ _ _ _ _ _ (fun h => h0 ((hcond_0 t).mp h)) (fun h => h1 ((hcond_1 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover_B_0 c _ _ _ _ _ _ _ _ _ _ _ _ _ _)
            iexact Hoth
          iexact Hg
        isplitl [Ho]; · iexact Ho
        isplitl [H0]; · iexact H0
        isplitl [H1]; · iexact H1
        iexists _; iexact H2

/-- The body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives that back, the accumulator's contents forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, Hoth⟩, Hg⟩
  isplitl [HS0 Hoth]
  · isplitl [HS0]
    · iexists _; iexact HS0
    iexact Hoth
  iexact Hg

theorem hout (c : Dev nD) : (dat V c).Φ (Fin.last cfg0.N) ⊢ Pipeline.ΦA spec0 c :=
  Phi_out V c _ (by rw [Fin.val_last]; have : cfg0.N = 64 := N_0; omega)

end Cert.KernelIdeal.R0

end
-- ==== Proof.Y1Runs.lean ====
/-
  Region 1 (y = z · W_outᵀ + x · W_linᵀ + b, grid 4 × 4 × 16): what its three control cases share.

  A grid point is (batch b, output-column tile j, input tile k). The body keeps an accumulator in scratch memory over
  the sixteen input tiles of one (b, j): at k = 0 it sets the accumulator to the low-rank term z_b · W_out[j]ᵀ; at
  every k it adds the partial product x[b, :, k] · W_lin[j, k]ᵀ; at k = 15 it stores accumulator + bias[j] into the
  output block. So a point is in one of three cases: k = 0 (A), 0 < k < 15 (B), k = 15 (C).

  Everything is stated at a parameter V: the buffer contents when the region is entered.
-/
import proofs.«158239_j26474178412911_1_alg».proof.Proof.Gen.KernelIdeal.Launch
import proofs.«158239_j26474178412911_1_alg».proof.Proof.Gen.KernelIdeal.Skeleton
import proofs.«158239_j26474178412911_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x tile (window 0): its staging buffer holds the window's block at every point, whether or not the block was fetched
    there (where it was not, the block index has not moved since the last fetch). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The code block z (window 1): its staging buffer holds the window's block at every point, whether or not the block was fetched
    there (where it was not, the block index has not moved since the last fetch). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The output-projection tile (window 2): its staging buffer holds the window's block at every point, whether or not the block was fetched
    there (where it was not, the block index has not moved since the last fetch). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The linear-map tile (window 3): its staging buffer holds the window's block at every point, whether or not the block was fetched
    there (where it was not, the block index has not moved since the last fetch). -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The bias tile (window 4): its staging buffer holds the window's block at every point, whether or not the block was fetched
    there (where it was not, the block index has not moved since the last fetch). -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the 256 points -/

/-- "This is the first input tile of the (b, j) pair" (k = 0). -/
abbrev cond_0 (i : grid1.Coords) : Prop := (Scalar.cmpi .ne (Scalar.extui (Scalar.cmpi .eq (BitVec.ofNat 32 (i 2).val) 0#32)) 0#32) = 1#1
/-- In row-major order k is the point's position modulo 16. -/
theorem hcond_0 : ∀ t : Fin cfg1.N, cond_0 (grid1.coords t) ↔ t.val % 16 = 0 :=
  (by decide +kernel : ∀ t : Fin grid1.N, cond_0 (grid1.coords t) ↔ t.val % 16 = 0)

/-- "This is the last input tile of the (b, j) pair" (k = 15). -/
abbrev cond_1 (i : grid1.Coords) : Prop := k1_cond2 i = 1#1
theorem hcond_1 : ∀ t : Fin cfg1.N, cond_1 (grid1.coords t) ↔ t.val % 16 = 15 :=
  (by decide +kernel : ∀ t : Fin grid1.N, cond_1 (grid1.coords t) ↔ t.val % 16 = 15)

/-! ## Where the windows are idle -/

/-- The five inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
/-- Away from k = 15 the output block is neither stored into nor written back. -/
theorem idleAt_5_A : ∀ t : Fin cfg1.N, cond_0 (grid1.coords t) → ¬cond_1 (grid1.coords t) → cfg1.idle 5 (grid1.coords t) = true := by decide +kernel
theorem noFlush_5_A : ∀ t : Fin cfg1.N, cond_0 (grid1.coords t) → ¬cond_1 (grid1.coords t) → (cfg1.win 5).flush t = false := by decide +kernel
theorem idleAt_5_B : ∀ t : Fin cfg1.N, ¬cond_0 (grid1.coords t) → ¬cond_1 (grid1.coords t) → cfg1.idle 5 (grid1.coords t) = true := by decide +kernel
theorem noFlush_5_B : ∀ t : Fin cfg1.N, ¬cond_0 (grid1.coords t) → ¬cond_1 (grid1.coords t) → (cfg1.win 5).flush t = false := by decide +kernel
/-- At k = 15 it is stored. -/
theorem liveAt_5_C : ∀ t : Fin cfg1.N, ¬cond_0 (grid1.coords t) → cond_1 (grid1.coords t) → cfg1.idle 5 (grid1.coords t) = false := by decide +kernel

/-! ## The memrefs the body is called with -/

/-- One staging buffer of the output window, through which its contents are stated (which of the two does not matter). -/
abbrev VO_5 : View sig .tc .vmem S1x2048x1024 .f32 := (Memref.whole cc1_stg5_0 : Memref sig .tc .vmem S1x2048x1024 .f32).view
/-- Each window's current staging memref at point t, and that it is a whole buffer. -/
abbrev ms_0 (t : Fin cfg1.N) : Memref sig .tc .vmem S1x2048x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x2048x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x256 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x1024 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x2048x1024 .f32 := win1_5.stage (cfg1.slots t 5)
abbrev hs_5 (t : Fin cfg1.N) : (ms_5 t).IsWhole := hstage1_5 ((cfg1.slots t 5).cast nbuf1_5)
/-- The accumulator: a whole scoped buffer of the kernel's own, passed beside the windows. -/
abbrev scM_0 : Memref sig .tc .vmem S2048x1024 .f32 := Memref.whole cc1_scratch0
/-- The accumulator as a view: what it holds is stated through it. -/
abbrev VS_0 : View sig .tc .vmem S2048x1024 .f32 := scM_0.view

/-! ## What the region is handed beside its windows -/

/-- The scoped buffers this region never touches (the other region's staging buffers and accumulator), each whole
    at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped buffers that are no staging buffer of this region, listed with the accumulator first. -/
theorem scopedRest_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg0_1, cc0_stg1_0, cc0_stg1_1, cc0_stg2_0, cc0_stg2_1, cc0_scratch0] (by decide) (by decide)

/-- The region's invariant before the first point: the accumulator at some contents, the untouched scoped buffers, the
    generator register at some state. -/
theorem PhiA_eq (c : Dev nD) :
    (Pipeline.ΦA spec1 c : sProp 𝕄)
      = iprop((∃ d, owns (c : Thread nD τ) scM_0 fullShare d) ∗ others c ∗ (∃ r, prngReg c r)) := by
  unfold Pipeline.ΦA others; rw [scopedRest_eq]; simp only [scM_0, owns_whole]
  exact BI.equiv_iff.mp ⟨Idealize.SL.BI.sep_assoc, Idealize.SL.BI.sep_assoc'⟩

end Cert.KernelIdeal.R1

end
-- ==== Proof.Y1RunA.lean ====
/-
  Region 1, case A (k = 0): the whole body run on any whole staging memrefs.
  The accumulator is set to the low-rank term and the first partial product is added; the output block is not touched.
-/
import proofs.«158239_j26474178412911_1_alg».proof.Proof.Y1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (k = 0, and k ≠ 15). On whole memrefs — the five inputs' at contents x0 … x4, the output block's at any
    contents xi5 (handed back untouched: no store), the accumulator's at anything — the body runs to the continuation
    holding the inputs' as they were, the output's as it was, and the accumulator with the pieces LS0 written: its two
    whole stores, the second over the first. The pieces are found by running the body; they are the witness. -/
noncomputable def kernelRun_A (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i)
    (x0 : Vec F S1x2048x256 .f32) (x1 : Vec F S1x2048x128 .f32) (x2 : Vec F S1024x128 .f32) (x3 : Vec F S1024x256 .f32) (x4 : Vec F S1x1024 .f32) :
    Σ' (L5 : List (View.Piece (Elt F) S1x2048x1024 .f32)), { LS0 : List (View.Piece (Elt F) S2048x1024 .f32) //
      ∀ (xi5 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨[], ?_, fun xi5 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.R1

end
-- ==== Proof.Y1RunB.lean ====
/-
  Region 1, case B (0 < k < 15): the whole body run on any whole staging memrefs.
  The partial product is added to the accumulator; the output block is not touched.
-/
import proofs.«158239_j26474178412911_1_alg».proof.Proof.Y1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (k ≠ 0 and k ≠ 15). On whole memrefs — the five inputs' at contents x0 … x4, the output block's at any
    contents xi5 (handed back untouched: no store), the accumulator's at what the point before left, xs0 — the body runs
    to the continuation holding the inputs' as they were, the output's as it was, and the accumulator with the pieces LS0
    written: one whole store. -/
noncomputable def kernelRun_B (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) :
    Σ' (L5 : List (View.Piece (Elt F) S1x2048x1024 .f32)), { LS0 : List (View.Piece (Elt F) S2048x1024 .f32) //
      ∀ (xi5 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨[], ?_, fun xi5 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.R1

end
-- ==== Proof.Y1RunC.lean ====
/-
  Region 1, case C (k = 15): the whole body run on any whole staging memrefs.
  The last partial product is added to the accumulator, and accumulator + bias is stored into the output block.
-/
import proofs.«158239_j26474178412911_1_alg».proof.Proof.Y1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (k = 15, and k ≠ 0). On whole memrefs — the five inputs' at contents x0 … x4, the output block's at
    anything, the accumulator's at what the point before left, xs0 — the body runs to the continuation holding the
    inputs' as they were, the output block with the pieces L5 written (one whole store) and the accumulator with the
    pieces LS0 written (one whole store). -/
noncomputable def kernelRun_C (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) :
    Σ' (L5 : List (View.Piece (Elt F) S1x2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨?_, ?_, fun E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.R1

end
-- ==== Proof.Y1Frame.lean ====
/-
  Region 1: what the output block and the accumulator hold after each grid point, the region's invariant, the
  pipeline's proof data, and the body obligation at every point.

  Positions are in row-major order, so the input-tile coordinate k of position n is n mod 16. After position n the
  accumulator holds: at k = 0 the low-rank term plus the first partial product; otherwise what position n - 1 left
  plus this position's partial product. The output block's staging buffer is stored only at k = 15, from the
  accumulator as position n - 1 left it plus this position's partial product, plus the bias tile.
-/
import proofs.«158239_j26474178412911_1_alg».proof.Proof.Y1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output block's buffer and in the accumulator -/

/-- Case A stores nothing into the output block (idle there and not written back): no pieces; a placeholder (junk read
    back) that nothing consults. -/
def out_A_5 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i)
    (x0 : Vec F S1x2048x256 .f32) (x1 : Vec F S1x2048x128 .f32) (x2 : Vec F S1024x128 .f32) (x3 : Vec F S1024x256 .f32) (x4 : Vec F S1x1024 .f32) : Vec F S1x2048x1024 .f32 :=
  VO_5.read (Elt F) (VO_5.writes (Elt F) VO_5.junk (kernelRun_A c i arg3 harg3 arg4 harg4 arg5 harg5 arg6 harg6 arg7 harg7 arg8 harg8 arg9 harg9 hc0 hc1 x0 x1 x2 x3 x4).1)

/-- Case A's pieces for the accumulator cover it: two whole stores. -/
theorem scover_A_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (y : S2048x1024.Idx) :
    ∃ pc ∈ (kernelRun_A c i arg3 harg3 arg4 harg4 arg5 harg5 arg6 harg6 arg7 harg7 arg8 harg8 arg9 harg9 hc0 hc1 x0 x1 x2 x3 x4).2.1, y ∈ pc.1.set :=
  View.cover_of_tiledL (kernelRun_A c i arg3 harg3 arg4 harg4 arg5 harg5 arg6 harg6 arg7 harg7 arg8 harg8 arg9 harg9 hc0 hc1 x0 x1 x2 x3 x4).2.1 S2048x1024.size (by sl_kernel_rfl) y

/-- What case A leaves in the accumulator: its pieces read back over junk. -/
def sout_A_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i)
    (x0 : Vec F S1x2048x256 .f32) (x1 : Vec F S1x2048x128 .f32) (x2 : Vec F S1024x128 .f32) (x3 : Vec F S1024x256 .f32) (x4 : Vec F S1x1024 .f32) : Vec F S2048x1024 .f32 :=
  VS_0.read (Elt F) (VS_0.writes (Elt F) VS_0.junk (kernelRun_A c i arg3 harg3 arg4 harg4 arg5 harg5 arg6 harg6 arg7 harg7 arg8 harg8 arg9 harg9 hc0 hc1 x0 x1 x2 x3 x4).2.1)

/-- Case B stores nothing into the output block either: the same placeholder. -/
def out_B_5 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) : Vec F S1x2048x1024 .f32 :=
  VO_5.read (Elt F) (VO_5.writes (Elt F) VO_5.junk (kernelRun_B c i arg3 harg3 arg4 harg4 arg5 harg5 arg6 harg6 arg7 harg7 arg8 harg8 arg9 harg9 hc0 hc1 x0 x1 x2 x3 x4 xs0).1)

/-- Case B's piece for the accumulator covers it: one whole store. -/
theorem scover_B_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) (y : S2048x1024.Idx) :
    ∃ pc ∈ (kernelRun_B c i arg3 harg3 arg4 harg4 arg5 harg5 arg6 harg6 arg7 harg7 arg8 harg8 arg9 harg9 hc0 hc1 x0 x1 x2 x3 x4 xs0).2.1, y ∈ pc.1.set :=
  View.cover_of_tiledL (kernelRun_B c i arg3 harg3 arg4 harg4 arg5 harg5 arg6 harg6 arg7 harg7 arg8 harg8 arg9 harg9 hc0 hc1 x0 x1 x2 x3 x4 xs0).2.1 S2048x1024.size (by sl_kernel_rfl) y

/-- What case B leaves in the accumulator. -/
def sout_B_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) : Vec F S2048x1024 .f32 :=
  VS_0.read (Elt F) (VS_0.writes (Elt F) VS_0.junk (kernelRun_B c i arg3 harg3 arg4 harg4 arg5 harg5 arg6 harg6 arg7 harg7 arg8 harg8 arg9 harg9 hc0 hc1 x0 x1 x2 x3 x4 xs0).2.1)

/-- Case C's piece for the output block covers it: one whole store. -/
theorem cover_C_5 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) (y : S1x2048x1024.Idx) :
    ∃ pc ∈ (kernelRun_C c i arg3 harg3 arg4 harg4 arg5 harg5 arg6 harg6 arg7 harg7 arg8 harg8 arg9 harg9 hc0 hc1 x0 x1 x2 x3 x4 xs0).1, y ∈ pc.1.set :=
  View.cover_of_tiledL (kernelRun_C c i arg3 harg3 arg4 harg4 arg5 harg5 arg6 harg6 arg7 harg7 arg8 harg8 arg9 harg9 hc0 hc1 x0 x1 x2 x3 x4 xs0).1 S1x2048x1024.size (by sl_kernel_rfl) y

/-- What case C leaves in the output block's staging buffer: its piece read back over junk. -/
def out_C_5 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) : Vec F S1x2048x1024 .f32 :=
  VO_5.read (Elt F) (VO_5.writes (Elt F) VO_5.junk (kernelRun_C c i arg3 harg3 arg4 harg4 arg5 harg5 arg6 harg6 arg7 harg7 arg8 harg8 arg9 harg9 hc0 hc1 x0 x1 x2 x3 x4 xs0).1)

/-- Case C's piece for the accumulator covers it: one whole store. -/
theorem scover_C_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) (y : S2048x1024.Idx) :
    ∃ pc ∈ (kernelRun_C c i arg3 harg3 arg4 harg4 arg5 harg5 arg6 harg6 arg7 harg7 arg8 harg8 arg9 harg9 hc0 hc1 x0 x1 x2 x3 x4 xs0).2.1, y ∈ pc.1.set :=
  View.cover_of_tiledL (kernelRun_C c i arg3 harg3 arg4 harg4 arg5 harg5 arg6 harg6 arg7 harg7 arg8 harg8 arg9 harg9 hc0 hc1 x0 x1 x2 x3 x4 xs0).2.1 S2048x1024.size (by sl_kernel_rfl) y

/-- What case C leaves in the accumulator. -/
def sout_C_0 (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i)
    (x0 : Vec F S1x2048x256 .f32) (x1 : Vec F S1x2048x128 .f32) (x2 : Vec F S1024x128 .f32) (x3 : Vec F S1024x256 .f32) (x4 : Vec F S1x1024 .f32) (xs0 : Vec F S2048x1024 .f32) : Vec F S2048x1024 .f32 :=
  VS_0.read (Elt F) (VS_0.writes (Elt F) VS_0.junk (kernelRun_C c i arg3 harg3 arg4 harg4 arg5 harg5 arg6 harg6 arg7 harg7 arg8 harg8 arg9 harg9 hc0 hc1 x0 x1 x2 x3 x4 xs0).2.1)

/-! ## What the output block's buffer and the accumulator hold after each point -/

/-- THE ACCUMULATION. After the body at position n: the output block's staging buffer, then the accumulator. The
    case is read off n mod 16, run at the point's memrefs and input blocks, over what position n - 1 left in the
    accumulator (cases B and C). No position has k = 0 and k = 15 at once. -/
def outsAt (c : Dev nD) : (n : ℕ) → n < cfg1.N → Vec F S1x2048x1024 .f32 × Vec F S2048x1024 .f32
  | 0, hn => (out_A_5 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 16 = 0 then
      if h1 : (n + 1) % 16 = 15 then
        False.elim (by have hN : n + 1 < 256 := lt_of_lt_of_eq hn (show cfg1.N = 256 from N_1); omega)
      else
        (out_A_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
    else
      if h1 : (n + 1) % 16 = 15 then
        (out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)
      else
        (out_B_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).2)

/-- At a position with k = 0: case A's contents. -/
theorem outsAt_A (c : Dev nD) (t : Fin cfg1.N) (h0 : t.val % 16 = 0) (h1 : ¬t.val % 16 = 15) :
    outsAt V c t.val t.isLt = (out_A_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) ((hcond_0 t).mpr h0) (fun h => h1 ((hcond_1 t).mp h)) (iblk V c 0 t) (iblk V c 1 t) (iblk V c 2 t) (iblk V c 3 t) (iblk V c 4 t), sout_A_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) ((hcond_0 t).mpr h0) (fun h => h1 ((hcond_1 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_neg h1).trans rfl)

/-- At a position with 0 < k < 15: case B's contents, over what the position before left. -/
theorem outsAt_B (c : Dev nD) (t : Fin cfg1.N) (h0 : ¬t.val % 16 = 0) (h1 : ¬t.val % 16 = 15) :
    outsAt V c t.val t.isLt = (out_B_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2, sout_B_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a position with k = 15: case C's contents, over what the position before left. -/
theorem outsAt_C (c : Dev nD) (t : Fin cfg1.N) (h0 : ¬t.val % 16 = 0) (h1 : t.val % 16 = 15) :
    outsAt V c t.val t.isLt = (out_C_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2, sout_C_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n. Before the first point: the accumulator at anything, the untouched scoped buffers, the
    generator register at some state. Afterwards: the accumulator at what position n - 1 left in it, the rest as before. -/
def PhiS (c : Dev nD) : (n : ℕ) → n ≤ cfg1.N → sProp 𝕄
  | 0, _ => Pipeline.ΦA spec1 c
  | n + 1, hn => iprop(owns (c : Thread nD τ) scM_0 fullShare (outsAt V c n hn).2 ∗ others c ∗ (∃ r, prngReg c r))

theorem PhiS_zero (c : Dev nD) (n : ℕ) (h : n ≤ cfg1.N) (hz : n = 0) : PhiS V c n h = Pipeline.ΦA spec1 c := by
  subst hz; rfl

/-- After position n (before position n + 1): the accumulator at that position's contents. -/
theorem PhiS_succ (c : Dev nD) (n : ℕ) (hn : n < cfg1.N) :
    PhiS V c (n + 1) hn = iprop(owns (c : Thread nD τ) scM_0 fullShare (outsAt V c n hn).2 ∗ others c ∗ (∃ r, prngReg c r)) := rfl

/-- Before a position that is not the first: the accumulator at what the position before left. -/
theorem PhiS_pos (c : Dev nD) (n : ℕ) (h : n ≤ cfg1.N) (hz : n ≠ 0) :
    PhiS V c n h = iprop(owns (c : Thread nD τ) scM_0 fullShare (outsAt V c (n - 1) (by omega)).2 ∗ others c ∗ (∃ r, prngReg c r)) := by
  cases n with
  | zero => exact absurd rfl hz
  | succ n => rfl

/-! ## The pipeline's proof data -/

/-- The proof data of the region's pipeline on core c: the arrays as the region finds them; after the body at point t
    each input's buffer at its block and the output's at `outsAt`'s first component; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-! ## The body obligation, at a generic point -/

/-- What the body is called with at point t: the invariant, the core owing nothing, the six current staging buffers, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' memrefs hold their blocks; the position modulo 16 says which case the point is
    in, so that case's run applies. The invariant hands the body the accumulator at what the position before left (at
    anything at the first position) and takes it back at this position's contents, its pieces covering it; the untouched
    scoped buffers, the generator register and the core's debts pass through. Where the output block is idle its buffer
    goes back as found; at k = 15 it goes back at its piece read back. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  by_cases h0 : t.val % 16 = 0
  · by_cases h1 : t.val % 16 = 15
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5_A t ((hcond_0 t).mpr h0) (fun h => h1 ((hcond_1 t).mp h))) (noFlush_5_A t ((hcond_0 t).mpr h0) (fun h => h1 ((hcond_1 t).mp h)))]
      rw [outsAt_A V c t h0 h1]
      unfold sout_A_0; (try dsimp only)
      by_cases hz : t.val = 0
      · rw [PhiS_castSucc V c t, PhiS_zero V c _ _ hz, PhiA_eq]
        iintro ⟨⟨HS0, Hoth, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨HS0, Hoth, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond_0 t).mpr h0) (fun h => h1 ((hcond_1 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5_C t (fun h => h0 ((hcond_0 t).mp h)) ((hcond_1 t).mpr h1)], after_5]
      rw [outsAt_C V c t h0 h1]
      unfold out_C_5 sout_C_0; (try dsimp only)
      by_cases hz : t.val = 0
      · exfalso; omega
      · rw [PhiS_castSucc V c t, PhiS_pos V c _ _ hz]
        iintro ⟨⟨HS0, Hoth, Hg⟩, Ho, ⟨%d0, H0⟩, ⟨%d1, H1⟩, ⟨%d2, H2⟩, ⟨%d3, H3⟩, ⟨%d4, H4⟩, ⟨%d5, H5⟩⟩
        iapply ((kernelRun_C c (grid1.coords t) _ _ _ _ _ _ _ _ _ _ _ _ _ _ (fun h => h0 ((hcond_0 t).mp h)) ((hcond_1 t).mpr h1) (iblk V c 0 t) (iblk V c 1 t) (iblk V c 2 t) (iblk V c 3 t) (iblk V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hoth Hg]
        · isplitl [HS0]
          · unfold owns; iexists _; isplitr
            swap; · iexact HS0
            ipureintro; exact View.read_writes_of_cover _ _ _ _ _ (scover_C_0 c _ _ _ _ _ _ _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover_C_5 c _ _ _ _ _ _ _ _ _ _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [Dat.leavesExact_idle (dat V c) 5 t (idleAt_5_B t (fun h => h0 ((hcond_0 t).mp h)) (fun h => h1 ((hcond_1 t).mp h))) (noFlush_5_B t (fun h => h0 ((hcond_0 t).mp h)) (fun h => h1 ((hcond_1 t).mp h)))]
      rw [outsAt_B V c t h0 h1]
      unfold sout_B_0; (try dsimp only)
      by_cases hz : t.val = 0
      · exfalso; omega
      · rw [PhiS_castSucc V c t, PhiS_pos V c _ _ hz]
        iintro ⟨⟨HS0, Hoth, Hg⟩, Ho, ⟨%d0, H0⟩, ⟨%d1, H1⟩, ⟨%d2, H2⟩, ⟨%d3, H3⟩, ⟨%d4, H4⟩, ⟨%d5, H5⟩⟩
        iapply ((kernelRun_B c (grid1.coords t) _ _ _ _ _ _ _ _ _ _ _ _ _ _ (fun h => h0 ((hcond_0 t).mp h)) (fun h => h1 ((hcond_1 t).mp h)) (iblk V c 0 t) (iblk V c 1 t) (iblk V c 2 t) (iblk V c 3 t) (iblk V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0]
          · unfold owns; iexists _; isplitr
            swap; · iexact HS0
            ipureintro; exact View.read_writes_of_cover _ _ _ _ _ (scover_B_0 c _ _ _ _ _ _ _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the region is handed is the invariant before the first position. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any position but the first the invariant gives that back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨HS0, Hoth, Hg⟩
  isplitl [HS0]
  · iexists _; iexact HS0
  isplitl [Hoth]; · iexact Hoth
  iexact Hg

/-- The same after the last position. -/
theorem hout (c : Dev nD) : (dat V c).Φ (Fin.last cfg1.N) ⊢ Pipeline.ΦA spec1 c :=
  Phi_out V c _ (by rw [Fin.val_last]; have : cfg1.N = 256 := N_1; omega)

end Cert.KernelIdeal.R1

end
-- ==== Proof.MainRun.lean ====
/-
  The whole program's run: @main is a stretch of host operations (the learning rate, the combined matrix), kernel region 0
  (the code z), one host operation (the bias as a row), kernel region 1 (the result y).
  The buffer contents at each boundary are a fold from the launch memory: a host stretch applies its operations; a region
  leaves each of its arrays at what its write-backs leave (an input array as entered) and every other buffer as entered.
  Every weakly fair execution terminates with every unscoped buffer at the last boundary's contents (`run_all`); read at
  the arguments, which no stretch writes and no region changes, that is the frame.
-/
import proofs.«158239_j26474178412911_1_alg».proof.Proof.Z0Frame
import proofs.«158239_j26474178412911_1_alg».proof.Proof.Y1Frame
import proofs.«158239_j26474178412911_1_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Run2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: region 1's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A host stretch changes only the buffers its operations write. -/
theorem W1_of (c : Dev nD) (r : Ref sig .tc) (h : r ∉ (hostOps0_W : List (Ref sig .tc))) : W1 m c (Proc.devRef .tc r) = W0 m c (Proc.devRef .tc r) :=
  StableHlo.after_of_writes_sub hostOps0 _ hostOps0_writes h
theorem W3_of (c : Dev nD) (r : Ref sig .tc) (h : r ∉ (hostOps1_W : List (Ref sig .tc))) : W3 m c (Proc.devRef .tc r) = W2 m c (Proc.devRef .tc r) :=
  StableHlo.after_of_writes_sub hostOps1 _ hostOps1_writes h

/-! ## Every argument ends as launched -/

theorem W4_main_arg0 (c : Dev nD) : W4 m c (Proc.devRef .tc main_arg0) = m ((c : Thread nD τ).loc main_arg0) :=
  (((W4_arr m c 0).trans (((R1.dat (V3 m) c).arrAt_in 0 rfl _).trans (R1.A_eq (V3 m) c 0))).trans <| (W3_of m c main_arg0 (by decide)).trans <| ((W2_arr m c 0).trans (((R0.dat (V1 m) c).arrAt_in 0 rfl _).trans (R0.A_eq (V1 m) c 0))).trans <| (W1_of m c main_arg0 (by decide)).trans rfl)
theorem W4_main_arg1 (c : Dev nD) : W4 m c (Proc.devRef .tc main_arg1) = m ((c : Thread nD τ).loc main_arg1) :=
  ((W4_of_ne m c main_arg1 (by decide)).trans <| (W3_of m c main_arg1 (by decide)).trans <| (W2_of_ne m c main_arg1 (by decide)).trans <| (W1_of m c main_arg1 (by decide)).trans rfl)
theorem W4_main_arg2 (c : Dev nD) : W4 m c (Proc.devRef .tc main_arg2) = m ((c : Thread nD τ).loc main_arg2) :=
  ((W4_of_ne m c main_arg2 (by decide)).trans <| (W3_of m c main_arg2 (by decide)).trans <| (W2_of_ne m c main_arg2 (by decide)).trans <| (W1_of m c main_arg2 (by decide)).trans rfl)
theorem W4_main_arg3 (c : Dev nD) : W4 m c (Proc.devRef .tc main_arg3) = m ((c : Thread nD τ).loc main_arg3) :=
  ((W4_of_ne m c main_arg3 (by decide)).trans <| (W3_of m c main_arg3 (by decide)).trans <| (W2_of_ne m c main_arg3 (by decide)).trans <| (W1_of m c main_arg3 (by decide)).trans rfl)
theorem W4_main_arg4 (c : Dev nD) : W4 m c (Proc.devRef .tc main_arg4) = m ((c : Thread nD τ).loc main_arg4) :=
  ((W4_of_ne m c main_arg4 (by decide)).trans <| (W3_of m c main_arg4 (by decide)).trans <| (W2_of_ne m c main_arg4 (by decide)).trans <| (W1_of m c main_arg4 (by decide)).trans rfl)
theorem W4_main_arg5 (c : Dev nD) : W4 m c (Proc.devRef .tc main_arg5) = m ((c : Thread nD τ).loc main_arg5) :=
  (((W4_arr m c 2).trans (((R1.dat (V3 m) c).arrAt_in 2 rfl _).trans (R1.A_eq (V3 m) c 2))).trans <| (W3_of m c main_arg5 (by decide)).trans <| (W2_of_ne m c main_arg5 (by decide)).trans <| (W1_of m c main_arg5 (by decide)).trans rfl)
theorem W4_main_arg6 (c : Dev nD) : W4 m c (Proc.devRef .tc main_arg6) = m ((c : Thread nD τ).loc main_arg6) :=
  (((W4_arr m c 3).trans (((R1.dat (V3 m) c).arrAt_in 3 rfl _).trans (R1.A_eq (V3 m) c 3))).trans <| (W3_of m c main_arg6 (by decide)).trans <| (W2_of_ne m c main_arg6 (by decide)).trans <| (W1_of m c main_arg6 (by decide)).trans rfl)
theorem W4_main_arg7 (c : Dev nD) : W4 m c (Proc.devRef .tc main_arg7) = m ((c : Thread nD τ).loc main_arg7) :=
  ((W4_of_ne m c main_arg7 (by decide)).trans <| (W3_of m c main_arg7 (by decide)).trans <| (W2_of_ne m c main_arg7 (by decide)).trans <| (W1_of m c main_arg7 (by decide)).trans rfl)

/-! ## Region entries read back to the launch memory -/

/-- Region 0 finds x as launched. -/
theorem V1_main_arg0 (c : Dev nD) : V1 m c main_arg0 = m ((c : Thread nD τ).loc main_arg0) :=
  (W1_of m c main_arg0 (by decide)).trans rfl
/-- Region 1 finds x, w_out and w_lin as launched, -/
theorem V3_main_arg0 (c : Dev nD) : V3 m c main_arg0 = m ((c : Thread nD τ).loc main_arg0) :=
  (W3_of m c main_arg0 (by decide)).trans <| ((W2_arr m c 0).trans (((R0.dat (V1 m) c).arrAt_in 0 rfl _).trans (R0.A_eq (V1 m) c 0))).trans <| (W1_of m c main_arg0 (by decide)).trans rfl
theorem V3_main_arg5 (c : Dev nD) : V3 m c main_arg5 = m ((c : Thread nD τ).loc main_arg5) :=
  (W3_of m c main_arg5 (by decide)).trans <| (W2_of_ne m c main_arg5 (by decide)).trans <| (W1_of m c main_arg5 (by decide)).trans rfl
theorem V3_main_arg6 (c : Dev nD) : V3 m c main_arg6 = m ((c : Thread nD τ).loc main_arg6) :=
  (W3_of m c main_arg6 (by decide)).trans <| (W2_of_ne m c main_arg6 (by decide)).trans <| (W1_of m c main_arg6 (by decide)).trans rfl
/-- the code at what region 0's write-backs left, -/
theorem V3_main_v11 (c : Dev nD) : V3 m c main_v11 = (R0.dat (V1 m) c).arrAt 2 cfg0.N :=
  (W3_of m c main_v11 (by decide)).trans (W2_arr m c 2)
/-- and the bias argument, which the second host stretch reads, as launched. -/
theorem W2_main_arg7 (c : Dev nD) : W2 m c (Proc.devRef .tc main_arg7) = m ((c : Thread nD τ).loc main_arg7) :=
  (W2_of_ne m c main_arg7 (by decide)).trans <| (W1_of m c main_arg7 (by decide)).trans rfl
/-- The first host stretch reads these three arguments. -/
theorem W0_main_arg (c : Dev nD) (b : Ref sig .tc) : W0 m c (Proc.devRef .tc b) = m ((c : Thread nD τ).loc b) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

/-- What a region is handed beside its windows — the generator register, its (empty) tables, the scoped buffers no window
    stages — is the class's invariant, and back. -/
theorem toPhiA0 (c : Dev nD) (M : sProp 𝕄) : iprop((∃ r, prngReg c r) ∗ M ∗ Pipeline.scopedRest spec0 c) ⊢ (Pipeline.ΦA spec0 c : sProp 𝕄) := by
  unfold Pipeline.ΦA
  iintro ⟨Hp, -, Hr⟩
  isplitl [Hr]; · iexact Hr
  iexact Hp
theorem fromPhiA0 (c : Dev nD) : (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr
theorem toPhiA1 (c : Dev nD) (M : sProp 𝕄) : iprop((∃ r, prngReg c r) ∗ M ∗ Pipeline.scopedRest spec1 c) ⊢ (Pipeline.ΦA spec1 c : sProp 𝕄) := by
  unfold Pipeline.ΦA
  iintro ⟨Hp, -, Hr⟩
  isplitl [Hr]; · iexact Hr
  iexact Hp
theorem fromPhiA1 (c : Dev nD) : (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at the contents before it, left at those after it.
    Its arrays are split out of the unscoped buffers and put back at what the write-backs leave; the generator register and
    the scoped buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA0 c _).trans (R0.hin (V1 m) c)
  hout c := by
    rw [Pipeline.ownSems0_none]
    exact (R0.hout (V1 m) c).trans (fromPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those after it.
    Its arrays are split out of the unscoped buffers and put back at what the write-backs leave; the generator register and
    the scoped buffers go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA1 c _).trans (R1.hin (V3 m) c)
  hout c := by
    rw [Pipeline.ownSems0_none]
    exact (R1.hout (V3 m) c).trans (fromPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution of @main from the memory m with zero counters terminates, nothing faulting, with every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

/-- The run with the result named as well: the result buffer ends at what region 1's write-backs leave in its output array. -/
theorem run_result : θ_run defs (onTc (τ := τ) (main (F := F))) ⟨m, fun _ => 0, ρ⟩ (fun r => ∀ c : Dev nD,
      r.2.mem ((c.tc : Thread nD τ).loc main_v13) = (R1.dat (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v13 (by decide))).trans (W4_arr m c 5),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.KernelIdeal.Run2

end
-- ==== Proof.Spec.lean ====
/-
  The two programs as functions of the argument arrays, index by index, on the extended reals.

  Both compute, for a batch b, a position s and an output feature o,
      y[b,s,o] = Σ_r z[b,s,r] · w_out[o,r] + Σ_i x[b,s,i] · w_lin[o,i] + b_lin[o],
  with the low-rank code z[b,s,r] built from the per-batch matrix  lr[r,i] · state[b,r,i]  and the shared
  matrix  w_bsp[r,i],  where  lr[r,i] = c · exp(log_lr[r,i] · 64)  (c the f32 nearest 0.01; 64 = √4096).
  The reference contracts x against the two matrices separately and adds the two codes (`zRef`, `G`).
  The kernel first adds the two matrices (`WB`) and contracts x against the sum, 256 input features at a
  time, accumulating the sixteen partial sums from zero (`ZK`); its second stage starts its accumulator at
  z · w_outᵀ, adds the sixteen partial sums of x · w_linᵀ, and adds the bias last (`YK`).
  `accFrom a T n` is the accumulator after n partial sums: a + T 0 + … + T (n-1), associated to the left.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

abbrev SX : Shape := ⟨3, ![4, 2048, 4096]⟩
abbrev SL : Shape := ⟨2, ![128, 4096]⟩
abbrev SS : Shape := ⟨3, ![4, 128, 4096]⟩
abbrev SO : Shape := ⟨2, ![4096, 128]⟩
abbrev SW : Shape := ⟨2, ![4096, 4096]⟩
abbrev SB : Shape := ⟨1, ![4096]⟩
abbrev SZ : Shape := ⟨3, ![4, 2048, 128]⟩

/-- The learning rate of rank row r and input feature i. -/
def lr (logl : SL.Idx → EReal) (r : Fin 128) (i : Fin 4096) : EReal :=
  Ideal.ofBits .f32 0x3C23D70A#32 * Ideal.exp (logl (ix2 r i) * Ideal.ofBits .f32 0x42800000#32)

/-- The reference's code: x against lr · state, plus x against w_bsp. -/
def zRef (x : SX.Idx → EReal) (logl : SL.Idx → EReal) (st : SS.Idx → EReal) (wb : SL.Idx → EReal)
    (b : Fin 4) (s : Fin 2048) (r : Fin 128) : EReal :=
  (∑ i : Fin 4096, x (ix3 b s i) * (lr logl r i * st (ix3 b r i))) + ∑ i : Fin 4096, x (ix3 b s i) * wb (ix2 r i)

/-- The reference's result. -/
def G (x : SX.Idx → EReal) (logl : SL.Idx → EReal) (st : SS.Idx → EReal) (wb : SL.Idx → EReal)
    (wo : SO.Idx → EReal) (wl : SW.Idx → EReal) (bl : SB.Idx → EReal) : SX.Idx → EReal := fun j =>
  ((∑ r : Fin 128, zRef x logl st wb (j 0) (j 1) r * wo (ix2 (j 2) r))
    + ∑ i : Fin 4096, x (ix3 (j 0) (j 1) i) * wl (ix2 (j 2) i)) + bl (ix1 (j 2))

/-- The accumulator after n partial sums, started at a. -/
def accFrom (a : EReal) (T : ℕ → EReal) : ℕ → EReal
  | 0 => a
  | n + 1 => accFrom a T n + T n

/-- Input feature j of tile k (256 features a tile). -/
def tix (k : Fin 16) (j : Fin 256) : Fin 4096 := ⟨k.val * 256 + 1 * j.val, by omega⟩

/-- The kernel's combined matrix lr · state + w_bsp. -/
def WB (logl : SL.Idx → EReal) (st : SS.Idx → EReal) (wb : SL.Idx → EReal) : SS.Idx → EReal := fun j =>
  lr logl (j 1) (j 2) * st (ix3 (j 0) (j 1) (j 2)) + wb (ix2 (j 1) (j 2))

/-- The kernel's code, from any combined matrix w: sixteen tile sums accumulated from zero. -/
def ZK (x : SX.Idx → EReal) (w : SS.Idx → EReal) : SZ.Idx → EReal := fun j =>
  accFrom 0 (fun k => if h : k < 16 then ∑ q : Fin 256, x (ix3 (j 0) (j 1) (tix ⟨k, h⟩ q)) * w (ix3 (j 0) (j 2) (tix ⟨k, h⟩ q)) else 0) 16

/-- The kernel's result, from any code z. -/
def YK (x : SX.Idx → EReal) (z : SZ.Idx → EReal) (wo : SO.Idx → EReal) (wl : SW.Idx → EReal) (bl : SB.Idx → EReal) :
    SX.Idx → EReal := fun j =>
  accFrom (∑ r : Fin 128, z (ix3 (j 0) (j 1) r) * wo (ix2 (j 2) r))
    (fun k => if h : k < 16 then ∑ q : Fin 256, x (ix3 (j 0) (j 1) (tix ⟨k, h⟩ q)) * wl (ix2 (j 2) (tix ⟨k, h⟩ q)) else 0) 16
    + bl (ix1 (j 2))

end Cert.Spec

end
-- ==== Proof.ZValue.lean ====
/-
  Region 0's output array, read as a value on the extended reals.

  At point t = 16 b + k the body adds the product of the k-th tiles of x and of the combined matrix into an accumulator
  that it clears first when k = 0; when k = 15 it copies the accumulator to the output block, which is then written
  back as block b of the output array. So the accumulator after point t holds, at (s, r), the first k + 1 tile sums of
  batch b accumulated from zero, and the output array ends holding all sixteen: the tiled form of the code.
-/
import proofs.«158239_j26474178412911_1_alg».proof.Proof.Z0Frame
import proofs.«158239_j26474178412911_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic Idealize.ShloMosaic.ValueIdx
open Idealize.SL Idealize.SL.Sem
open Idealize.ShloMosaic.Pipeline (Dat)
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's pieces are, as payloads -/

section Pieces

variable {F : FTy → Type} [FloatOps F]

/-- A middle tile leaves the accumulator at the old accumulator plus the tile product. -/
theorem sout_B_eq (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : ¬cond_1 i)
    (x0 : Vec F S1x2048x256 .f32) (x1 : Vec F S1x128x256 .f32) (xs0 : Vec F S2048x128 .f32) :
    sout_B_0 c i arg2 harg2 arg3 harg3 arg4 harg4 arg5 harg5 hc0 hc1 x0 x1 xs0 = k0_pay2 x0 x1 xs0 := by
  unfold sout_B_0
  rw [View.read_writes_eq_canon _ _ _ (scover_B_0 c i arg2 harg2 arg3 harg3 arg4 harg4 arg5 harg5 hc0 hc1 x0 x1 xs0)]
  unfold kernelRun_B
  dsimp only
  sl_unfold_words
  rw [View.canon_unit_zero hz2]
  simp only [View.readAt_eq_ld, harg2.read_unread, harg3.read_unread, harg5.read_unread, View.ld_unit_zero (S := S1x2048x256) hz3, View.ld_unit_zero (S := S1x128x256) hz3, View.ld_unit_zero (S := S2048x128) hz2]

/-- A first tile leaves the accumulator at zero plus the tile product. -/
theorem sout_A_eq (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : cond_0 i) (hc1 : ¬cond_1 i)
    (x0 : Vec F S1x2048x256 .f32) (x1 : Vec F S1x128x256 .f32) :
    sout_A_0 c i arg2 harg2 arg3 harg3 arg4 harg4 arg5 harg5 hc0 hc1 x0 x1 = k0_pay2 x0 x1 (k0_pay1 (F := F)) := by
  unfold sout_A_0
  rw [View.read_writes_eq_canon _ _ _ (scover_A_0 c i arg2 harg2 arg3 harg3 arg4 harg4 arg5 harg5 hc0 hc1 x0 x1)]
  unfold kernelRun_A
  dsimp only
  sl_unfold_words
  rw [View.canon_cons_unit_zero (S := S2048x128) hz2, View.readCov_unit_zero (S := S2048x128) _ hz2]
  simp only [View.readAt_eq_ld, harg2.read_unread, harg3.read_unread, View.ld_unit_zero (S := S1x2048x256) hz3, View.ld_unit_zero (S := S1x128x256) hz3]

/-- A last tile leaves the accumulator likewise, -/
theorem sout_C_eq (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) :
    sout_C_0 c i arg2 harg2 arg3 harg3 arg4 harg4 arg5 harg5 hc0 hc1 x0 x1 xs0 = k0_pay2 x0 x1 xs0 := by
  unfold sout_C_0
  rw [View.read_writes_eq_canon _ _ _ (scover_C_0 c i arg2 harg2 arg3 harg3 arg4 harg4 arg5 harg5 hc0 hc1 x0 x1 xs0)]
  unfold kernelRun_C
  dsimp only
  sl_unfold_words
  rw [View.canon_unit_zero hz2]
  simp only [View.readAt_eq_ld, harg2.read_unread, harg3.read_unread, harg5.read_unread, View.ld_unit_zero (S := S1x2048x256) hz3, View.ld_unit_zero (S := S1x128x256) hz3, View.ld_unit_zero (S := S2048x128) hz2]

/-- and the output block at the new accumulator with a unit batch axis in front. -/
theorem out_C_eq (c : Dev nD) (i : grid0.Coords) (arg2 : Memref sig .tc .vmem S1x2048x256 .f32) (harg2 : arg2.IsWhole) (arg3 : Memref sig .tc .vmem S1x128x256 .f32) (harg3 : arg3.IsWhole) (arg4 : Memref sig .tc .vmem S1x2048x128 .f32) (harg4 : arg4.IsWhole) (arg5 : Memref sig .tc .vmem S2048x128 .f32) (harg5 : arg5.IsWhole) (hc0 : ¬cond_0 i) (hc1 : cond_1 i)
    (x0 : Vec F S1x2048x256 .f32) (x1 : Vec F S1x128x256 .f32) (xs0 : Vec F S2048x128 .f32) :
    out_C_2 c i arg2 harg2 arg3 harg3 arg4 harg4 arg5 harg5 hc0 hc1 x0 x1 xs0 = k0_pay3 (k0_pay2 x0 x1 xs0) := by
  unfold out_C_2
  rw [View.read_writes_eq_canon _ _ _ (cover_C_2 c i arg2 harg2 arg3 harg3 arg4 harg4 arg5 harg5 hc0 hc1 x0 x1 xs0)]
  unfold kernelRun_C
  dsimp only
  sl_unfold_words
  rw [View.canon_unit_zero hz3]
  simp only [View.readCov_unit_zero (S := S2048x128) _ hz2, View.readAt_eq_ld, harg2.read_unread, harg3.read_unread, harg5.read_unread, View.ld_unit_zero (S := S1x2048x256) hz3, View.ld_unit_zero (S := S1x128x256) hz3, View.ld_unit_zero (S := S2048x128) hz2]

end Pieces

/-! ## The payloads at an index, on the extended reals -/

section Payload

/-- The cleared accumulator is zero everywhere. -/
theorem pay1_apply (s : Fin 2048) (r : Fin 128) : k0_pay1 (F := Ideal) (ix2 s r) = 0 := by
  unfold k0_pay1
  refine (congrFun (shapeCast_self _ shapeCasts_S2048x128_S2048x128) (ix2 s r)).trans ?_
  exact Ideal.ofBits_zero_f32

theorem lhs_mm_0 (i : S2048x128.Idx) (q : dot_S2048x256_S128x256_S2048x128_1_1_0_0_n_n.contr.Idx) :
    (dot_S2048x256_S128x256_S2048x128_1_1_0_0_n_n.lhsIdx i q 0).val = (i 0).val := by
  unfold DotDims.lhsIdx
  rw [dif_neg (show ¬(0 : Fin S2048x256.rank) ∈ dot_S2048x256_S128x256_S2048x128_1_1_0_0_n_n.lhsBatch by decide), dif_pos (show (0 : Fin S2048x256.rank) ∈ dot_S2048x256_S128x256_S2048x128_1_1_0_0_n_n.lhsNonContracting by decide)]
  rfl
theorem lhs_mm_1 (i : S2048x128.Idx) (q : dot_S2048x256_S128x256_S2048x128_1_1_0_0_n_n.contr.Idx) :
    (dot_S2048x256_S128x256_S2048x128_1_1_0_0_n_n.lhsIdx i q 1).val = (q ⟨0, by decide⟩).val :=
  dot_S2048x256_S128x256_S2048x128_1_1_0_0_n_n.lhsIdx_val_of_single rfl i q
theorem rhs_mm_0 (i : S2048x128.Idx) (q : dot_S2048x256_S128x256_S2048x128_1_1_0_0_n_n.contr.Idx) :
    (dot_S2048x256_S128x256_S2048x128_1_1_0_0_n_n.rhsIdx i q 0).val = (i 1).val := by
  unfold DotDims.rhsIdx
  rw [dif_neg (show ¬(0 : Fin S128x256.rank) ∈ dot_S2048x256_S128x256_S2048x128_1_1_0_0_n_n.rhsBatch by decide), dif_pos (show (0 : Fin S128x256.rank) ∈ dot_S2048x256_S128x256_S2048x128_1_1_0_0_n_n.rhsNonContracting by decide)]
  rfl
theorem rhs_mm_1 (i : S2048x128.Idx) (q : dot_S2048x256_S128x256_S2048x128_1_1_0_0_n_n.contr.Idx) :
    (dot_S2048x256_S128x256_S2048x128_1_1_0_0_n_n.rhsIdx i q 1).val = (q ⟨0, by decide⟩).val :=
  dot_S2048x256_S128x256_S2048x128_1_1_0_0_n_n.rhsIdx_val_of_single rfl i q

/-- The tile product at (s, r): the sum over the tile's 256 features of x times the combined matrix. -/
theorem mm_apply (a : FVec Ideal S2048x256 .bf16) (b : FVec Ideal S128x256 .bf16) (s : Fin 2048) (r : Fin 128) :
    FloatOps.matmul dot_S2048x256_S128x256_S2048x128_1_1_0_0_n_n none a b (constant S2048x128 .f32 0x00000000#32) (ix2 s r)
      = ∑ q : Fin 256, a (ix2 s q) * b (ix2 r q) := by
  rw [Ideal.matmul_constant_zero_apply, ← Equiv.sum_comp (ValueIdx.contrEquiv1 dot_S2048x256_S128x256_S2048x128_1_1_0_0_n_n 256 rfl rfl).symm]
  refine Finset.sum_congr rfl fun k _ => ?_
  have hk := ValueIdx.contrEquiv1_symm_val dot_S2048x256_S128x256_S2048x128_1_1_0_0_n_n 256 rfl rfl k
  have el : dot_S2048x256_S128x256_S2048x128_1_1_0_0_n_n.lhsIdx (ix2 s r) ((ValueIdx.contrEquiv1 dot_S2048x256_S128x256_S2048x128_1_1_0_0_n_n 256 rfl rfl).symm k) = ix2 s k := funext fun a => Fin.ext (by
    match a with
    | ⟨0, _⟩ => exact lhs_mm_0 _ _
    | ⟨1, _⟩ => exact (lhs_mm_1 _ _).trans hk)
  have er : dot_S2048x256_S128x256_S2048x128_1_1_0_0_n_n.rhsIdx (ix2 s r) ((ValueIdx.contrEquiv1 dot_S2048x256_S128x256_S2048x128_1_1_0_0_n_n 256 rfl rfl).symm k) = ix2 r k := funext fun a => Fin.ext (by
    match a with
    | ⟨0, _⟩ => exact rhs_mm_0 _ _
    | ⟨1, _⟩ => exact (rhs_mm_1 _ _).trans hk)
  rw [el, er]

/-- The accumulator's update at (s, r): the old entry plus the tile product. -/
theorem pay2_apply (v3 : Vec Ideal S1x2048x256 .f32) (v6 : Vec Ideal S1x128x256 .f32) (v9 : Vec Ideal S2048x128 .f32)
    (s : Fin 2048) (r : Fin 128) :
    k0_pay2 v3 v6 v9 (ix2 s r) = v9 (ix2 s r) + ∑ q : Fin 256, v3 (ix3 (0 : Fin 1) s q) * v6 (ix3 (0 : Fin 1) r q) := by
  unfold k0_pay2
  refine (congrFun (shapeCast_self _ shapeCasts_S2048x128_S2048x128) (ix2 s r)).trans ?_
  refine congrArg (v9 (ix2 s r) + ·) ?_
  refine (mm_apply _ _ s r).trans ?_
  refine Finset.sum_congr rfl fun q _ => ?_
  exact congrArg₂ (· * ·) (shapeCast_1ab_ab_apply v3 shapeCasts_S1x2048x256_S2048x256 s q)
    (shapeCast_1ab_ab_apply v6 shapeCasts_S1x128x256_S128x256 r q)

/-- The copy to the output block at (0, s, r) is the accumulator at (s, r). -/
theorem pay3_apply (v18 : Vec Ideal S2048x128 .f32) (u : Fin 1) (s : Fin 2048) (r : Fin 128) :
    k0_pay3 v18 (ix3 u s r) = v18 (ix2 s r) := by
  unfold k0_pay3
  exact shapeCast_ab_1ab_apply v18 shapeCasts_S2048x128_S1x2048x128 u s r

end Payload

/-! ## The input tiles read where the index maps say -/

section Blocks

variable (V : (c : Dev nD) → (b : Ref sig .tc) → Buf (Elt Ideal) ((c : Thread nD τ).loc b))

/-- The x tile and the combined-matrix tile of a point, and the two arrays, by their literal types. -/
abbrev xblk (c : Dev nD) (t : Fin cfg0.N) : Vec Ideal S1x2048x256 .f32 := iblk V c 0 t
abbrev wblk (c : Dev nD) (t : Fin cfg0.N) : Vec Ideal S1x128x256 .f32 := iblk V c 1 t
abbrev xarr (c : Dev nD) : Cert.Spec.SX.Idx → EReal := V c main_arg0
abbrev warr (c : Dev nD) : Cert.Spec.SS.Idx → EReal := V c main_v10

theorem N_eq : cfg0.N = 64 := rfl

/-- Point t = 16 b + k reads block (b, 0, k) of both inputs and writes block (b, 0, 0) of the output. -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = 0 :=
  (by decide +kernel : ∀ t : Fin grid0.N, _)

/-- The x tile of point 16 b + k at (0, s, q) is x at (b, s, 256 k + q). -/
theorem xblk_apply (c : Dev nD) (t : Fin cfg0.N) (u : Fin 1) (s : Fin 2048) (q : Fin 256) (b : Fin 4) (k : Fin 16)
    (hb : b.val = t.val / 16) (hk : k.val = t.val % 16) :
    xblk V c t (ix3 u s q) = xarr V c (ix3 b s (Cert.Spec.tix k q)) := by
  obtain ⟨e0, e1, e2, -⟩ := idx_facts t
  unfold xblk iblk
  rw [View.read_apply]
  show V c main_arg0 _ = V c main_arg0 _
  refine congrArg (V c main_arg0) (funext fun a => Fin.ext ?_)
  match a with
  | ⟨0, _⟩ => show win0_0.index t (0 : Fin 3) * 1 + 1 * u.val = b.val; rw [e0]; omega
  | ⟨1, _⟩ => show win0_0.index t (1 : Fin 3) * 2048 + 1 * s.val = s.val; rw [e1]; omega
  | ⟨2, _⟩ => show win0_0.index t (2 : Fin 3) * 256 + 1 * q.val = k.val * 256 + 1 * q.val; rw [e2, hk]

/-- The combined-matrix tile of point 16 b + k at (0, r, q) is the matrix at (b, r, 256 k + q). -/
theorem wblk_apply (c : Dev nD) (t : Fin cfg0.N) (u : Fin 1) (r : Fin 128) (q : Fin 256) (b : Fin 4) (k : Fin 16)
    (hb : b.val = t.val / 16) (hk : k.val = t.val % 16) :
    wblk V c t (ix3 u r q) = warr V c (ix3 b r (Cert.Spec.tix k q)) := by
  obtain ⟨-, -, -, e0, e1, e2, -⟩ := idx_facts t
  unfold wblk iblk
  rw [View.read_apply]
  show V c main_v10 _ = V c main_v10 _
  refine congrArg (V c main_v10) (funext fun a => Fin.ext ?_)
  match a with
  | ⟨0, _⟩ => show win0_1.index t (0 : Fin 3) * 1 + 1 * u.val = b.val; rw [e0]; omega
  | ⟨1, _⟩ => show win0_1.index t (1 : Fin 3) * 128 + 1 * r.val = r.val; rw [e1]; omega
  | ⟨2, _⟩ => show win0_1.index t (2 : Fin 3) * 256 + 1 * q.val = k.val * 256 + 1 * q.val; rw [e2, hk]

end Blocks

/-! ## The accumulator, point by point -/

section Invariant

variable (V : (c : Dev nD) → (b : Ref sig .tc) → Buf (Elt Ideal) ((c : Thread nD τ).loc b))

/-- Tile sum k of batch b at (s, r), as the tiled form of the code states it (zero past the sixteenth tile). -/
def tileT (c : Dev nD) (b : Fin 4) (s : Fin 2048) (r : Fin 128) : ℕ → EReal := fun k =>
  if h : k < 16 then
    ∑ q : Fin 256, xarr V c (ix3 b s (Cert.Spec.tix ⟨k, h⟩ q)) * warr V c (ix3 b r (Cert.Spec.tix ⟨k, h⟩ q))
  else 0

/-- The tiled form of the code at (b, s, r): the sixteen tile sums accumulated from zero. -/
theorem ZK_ix (c : Dev nD) (b : Fin 4) (s : Fin 2048) (r : Fin 128) :
    Cert.Spec.ZK (xarr V c) (warr V c) (ix3 b s r) = Cert.Spec.accFrom 0 (tileT V c b s r) 16 := rfl

/-- The product of a point's two tiles at (s, r) is the point's tile sum. -/
theorem tile_at (c : Dev nD) (t : Fin cfg0.N) (s : Fin 2048) (r : Fin 128) (b : Fin 4) (hb : b.val = t.val / 16) :
    ∑ q : Fin 256, xblk V c t (ix3 (0 : Fin 1) s q) * wblk V c t (ix3 (0 : Fin 1) r q) = tileT V c b s r (t.val % 16) := by
  have hk : t.val % 16 < 16 := Nat.mod_lt _ (by decide)
  unfold tileT
  rw [dif_pos hk]
  refine Finset.sum_congr rfl fun q _ => ?_
  rw [xblk_apply V c t 0 s q b ⟨t.val % 16, hk⟩ hb rfl, wblk_apply V c t 0 r q b ⟨t.val % 16, hk⟩ hb rfl]

/-- At a first tile the accumulator is zero plus the tile product. -/
theorem acc_A (c : Dev nD) (t : Fin cfg0.N) (h0 : t.val % 16 = 0) (h1 : ¬t.val % 16 = 15) (s : Fin 2048) (r : Fin 128) :
    (outsAt V c t.val t.isLt).2 (ix2 s r)
      = 0 + ∑ q : Fin 256, xblk V c t (ix3 (0 : Fin 1) s q) * wblk V c t (ix3 (0 : Fin 1) r q) := by
  rw [outsAt_A V c t h0 h1]
  dsimp only
  refine (congrFun (sout_A_eq (F := Ideal) c (grid0.coords t) (ms_0 t) (hs_0 t) (ms_1 t) (hs_1 t) (ms_2 t) (hs_2 t) scM_0 (Memref.isWhole_whole _) ((hcond_0 t).mpr h0) (fun h => h1 ((hcond_1 t).mp h)) (iblk V c 0 t) (iblk V c 1 t)) (ix2 s r)).trans ?_
  refine (pay2_apply (xblk V c t) (wblk V c t) (k0_pay1 (F := Ideal)) s r).trans ?_
  rw [pay1_apply]

/-- At a middle tile it is what the point before left plus the tile product. -/
theorem acc_B (c : Dev nD) (t : Fin cfg0.N) (h0 : ¬t.val % 16 = 0) (h1 : ¬t.val % 16 = 15) (s : Fin 2048) (r : Fin 128) :
    (outsAt V c t.val t.isLt).2 (ix2 s r)
      = (outsAt V c (t.val - 1) (Nat.lt_of_le_of_lt (Nat.sub_le _ _) t.isLt)).2 (ix2 s r)
        + ∑ q : Fin 256, xblk V c t (ix3 (0 : Fin 1) s q) * wblk V c t (ix3 (0 : Fin 1) r q) := by
  rw [outsAt_B V c t h0 h1]
  dsimp only
  refine (congrFun (sout_B_eq (F := Ideal) c (grid0.coords t) (ms_0 t) (hs_0 t) (ms_1 t) (hs_1 t) (ms_2 t) (hs_2 t) scM_0 (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2) (ix2 s r)).trans ?_
  exact pay2_apply (xblk V c t) (wblk V c t) (outsAt V c (t.val - 1) (Nat.lt_of_le_of_lt (Nat.sub_le _ _) t.isLt)).2 s r

/-- At a last tile likewise, -/
theorem acc_C (c : Dev nD) (t : Fin cfg0.N) (h0 : ¬t.val % 16 = 0) (h1 : t.val % 16 = 15) (s : Fin 2048) (r : Fin 128) :
    (outsAt V c t.val t.isLt).2 (ix2 s r)
      = (outsAt V c (t.val - 1) (Nat.lt_of_le_of_lt (Nat.sub_le _ _) t.isLt)).2 (ix2 s r)
        + ∑ q : Fin 256, xblk V c t (ix3 (0 : Fin 1) s q) * wblk V c t (ix3 (0 : Fin 1) r q) := by
  rw [outsAt_C V c t h0 h1]
  dsimp only
  refine (congrFun (sout_C_eq (F := Ideal) c (grid0.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) (ix2 s r)).trans ?_
  exact pay2_apply (xblk V c t) (wblk V c t) (outsAt V c (t.val - 1) (Nat.lt_of_le_of_lt (Nat.sub_le _ _) t.isLt)).2 s r

/-- and the output block at (0, s, r) holds the accumulator at (s, r). -/
theorem out_C (c : Dev nD) (t : Fin cfg0.N) (h0 : ¬t.val % 16 = 0) (h1 : t.val % 16 = 15) (u : Fin 1) (s : Fin 2048) (r : Fin 128) :
    (outsAt V c t.val t.isLt).1 (ix3 u s r) = (outsAt V c t.val t.isLt).2 (ix2 s r) := by
  rw [outsAt_C V c t h0 h1]
  dsimp only
  refine (congrFun (out_C_eq (F := Ideal) c (grid0.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) (ix3 u s r)).trans ?_
  refine (pay3_apply _ u s r).trans ?_
  exact (congrFun (sout_C_eq (F := Ideal) c (grid0.coords t) (ms_0 t) (hs_0 t) (ms_1 t) (hs_1 t) (ms_2 t) (hs_2 t) scM_0 (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) (ix2 s r)).symm

/-- After point n = 16 b + k the accumulator holds, at (s, r), the first k + 1 tile sums of batch b accumulated from zero. -/
theorem acc_eq (c : Dev nD) (n : ℕ) : ∀ (hn : n < cfg0.N) (s : Fin 2048) (r : Fin 128) (b : Fin 4), b.val = n / 16 →
    (outsAt V c n hn).2 (ix2 s r) = Cert.Spec.accFrom 0 (tileT V c b s r) (n % 16 + 1) := by
  induction n using Nat.strong_induction_on with
  | _ n ih =>
    intro hn s r b hb
    have hN : cfg0.N = 64 := N_eq
    show _ = Cert.Spec.accFrom 0 (tileT V c b s r) (n % 16) + tileT V c b s r (n % 16)
    by_cases h0 : n % 16 = 0
    · have e : Cert.Spec.accFrom 0 (tileT V c b s r) (n % 16) = 0 := by rw [h0]; rfl
      have h1 : ¬n % 16 = 15 := by omega
      rw [acc_A V c ⟨n, hn⟩ h0 h1 s r, tile_at V c ⟨n, hn⟩ s r b hb, e]
    · have ihp := ih (n - 1) (by omega) (by omega) s r b (by omega)
      have e : (n - 1) % 16 + 1 = n % 16 := by omega
      rw [e] at ihp
      by_cases h1 : n % 16 = 15
      · rw [acc_C V c ⟨n, hn⟩ h0 h1 s r, tile_at V c ⟨n, hn⟩ s r b hb, ihp]
      · rw [acc_B V c ⟨n, hn⟩ h0 h1 s r, tile_at V c ⟨n, hn⟩ s r b hb, ihp]

end Invariant

/-! ## From the blocks to the array -/

section Final

variable (V : (c : Dev nD) → (b : Ref sig .tc) → Buf (Elt Ideal) ((c : Thread nD τ).loc b))

/-- After the last tile of batch b the output block holds, at (0, s, r), the tiled form of the code at (b, s, r). -/
theorem out_at (c : Dev nD) (t : Fin cfg0.N) (h15 : t.val % 16 = 15) (b : Fin 4) (hb : b.val = t.val / 16)
    (u : Fin 1) (s : Fin 2048) (r : Fin 128) :
    (outsAt V c t.val t.isLt).1 (ix3 u s r) = Cert.Spec.ZK (xarr V c) (warr V c) (ix3 b s r) := by
  have h0 : ¬t.val % 16 = 0 := by omega
  rw [out_C V c t h0 h15 u s r, acc_eq V c t.val t.isLt s r b hb, ZK_ix, h15]

/-- What a last tile's point writes back is its block of the tiled form of the code. -/
theorem flushed_eq (c : Dev nD) (t : Fin cfg0.N) (hf : (cfg0.win 2).flush t = true) :
    (dat V c).flushed 2 t
      = ((cfg0.win 2).blk t).view.read (Elt Ideal) (Cert.Spec.ZK (xarr V c) (warr V c)) := by
  have h15 : t.val % 16 = 15 := (flush0_2 t).mp hf
  have hN : cfg0.N = 64 := N_eq
  have ht : t.val < 64 := hN ▸ t.isLt
  obtain ⟨-, -, -, -, -, -, e0, e1, e2⟩ := idx_facts t
  show (cfg0.win 2).cut (grid0.coords t) ((dat V c).after 2 t) = _
  rw [after_2]
  funext j
  show (outsAt V c t.val t.isLt).1 j = Cert.Spec.ZK (xarr V c) (warr V c) (((cfg0.win 2).blk t).view.emb j)
  have hj0 : (j 0).val < 1 := (j 0).isLt
  have hj : j = ix3 (⟨(j 0).val, hj0⟩ : Fin 1) (⟨(j 1).val, (j 1).isLt⟩ : Fin 2048) (⟨(j 2).val, (j 2).isLt⟩ : Fin 128) :=
    funext fun a => match a with | ⟨0, _⟩ => rfl | ⟨1, _⟩ => rfl | ⟨2, _⟩ => rfl
  refine (congrArg (outsAt V c t.val t.isLt).1 hj).trans ?_
  refine (out_at V c t h15 ⟨t.val / 16, by omega⟩ rfl _ _ _).trans ?_
  refine congrArg (Cert.Spec.ZK (xarr V c) (warr V c)) (funext fun a => Fin.ext ?_)
  match a with
  | ⟨0, _⟩ => show t.val / 16 = win0_2.index t (0 : Fin 3) * 1 + 1 * (j 0).val; rw [e0]; omega
  | ⟨1, _⟩ => show (j 1).val = win0_2.index t (1 : Fin 3) * 2048 + 1 * (j 1).val; rw [e1]; omega
  | ⟨2, _⟩ => show (j 2).val = win0_2.index t (2 : Fin 3) * 128 + 1 * (j 2).val; rw [e2]; omega

/-- An index of the output array is in a point's block iff each coordinate is in the block's range on its axis. -/
theorem mem_blk (t : Fin cfg0.N) (i : S4x2048x128.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v11).slice (win0_2.rect t)).set ↔ _
  rw [View.set_slice_whole, Rect.mem_set_unit]
  exact Iff.rfl

/-- Batch b's block is written back at point 16 b + 15: the blocks written back cover the output array. -/
theorem cover (i : S4x2048x128.Idx) :
    ∃ t : Fin cfg0.N, (cfg0.win 2).flush t = true ∧ i ∈ ((cfg0.win 2).blk t).view.set := by
  have hN : cfg0.N = 64 := N_eq
  have hi0 : (i 0).val < 4 := (i 0).isLt
  have hi1 : (i 1).val < 2048 := (i 1).isLt
  have hi2 : (i 2).val < 128 := (i 2).isLt
  have hlt : 16 * (i 0).val + 15 < cfg0.N := by omega
  have hv : (⟨16 * (i 0).val + 15, hlt⟩ : Fin cfg0.N).val = 16 * (i 0).val + 15 := rfl
  obtain ⟨-, -, -, -, -, -, e0, e1, e2⟩ := idx_facts ⟨16 * (i 0).val + 15, hlt⟩
  rw [hv] at e0
  refine ⟨⟨16 * (i 0).val + 15, hlt⟩, (flush0_2 _).mpr (by rw [hv]; omega), ?_⟩
  rw [mem_blk]
  intro a
  match a with
  | ⟨0, _⟩ =>
    show win0_2.index ⟨16 * (i 0).val + 15, hlt⟩ (0 : Fin 3) * 1 ≤ (i 0).val
      ∧ (i 0).val < win0_2.index ⟨16 * (i 0).val + 15, hlt⟩ (0 : Fin 3) * 1 + 1
    rw [e0]; omega
  | ⟨1, _⟩ =>
    show win0_2.index ⟨16 * (i 0).val + 15, hlt⟩ (1 : Fin 3) * 2048 ≤ (i 1).val
      ∧ (i 1).val < win0_2.index ⟨16 * (i 0).val + 15, hlt⟩ (1 : Fin 3) * 2048 + 2048
    rw [e1]; omega
  | ⟨2, _⟩ =>
    show win0_2.index ⟨16 * (i 0).val + 15, hlt⟩ (2 : Fin 3) * 128 ≤ (i 2).val
      ∧ (i 2).val < win0_2.index ⟨16 * (i 0).val + 15, hlt⟩ (2 : Fin 3) * 128 + 128
    rw [e2]; omega

end Final

/-- Region 0's output array ends holding the tiled form of the code, computed from x and the combined matrix as the
    region finds them. -/
theorem z_final (V : (c : Dev nD) → (b : Ref sig .tc) → Buf (Elt Ideal) ((c : Thread nD τ).loc b)) (c : Dev nD) :
    (dat (F := Ideal) V c).arrAt 2 cfg0.N = Cert.Spec.ZK (V c main_arg0) (V c main_v10) :=
  (dat V c).arrAt_eq_of_cover 2 (Cert.Spec.ZK (xarr V c) (warr V c)) (fun t hf => flushed_eq V c t hf) cover

end Cert.KernelIdeal.R0V

end
-- ==== Proof.YValue.lean ====
/-
  Region 1 (y = z · W_outᵀ + x · W_linᵀ + b, grid 4 × 4 × 16): the VALUE of its result array on the extended reals.

  A grid position n = 64·b + 16·j + k is (batch b, output tile j of 1024 features, input tile k of 256 features).
  Over the sixteen input tiles of one (b, j) the body keeps an accumulator: at k = 0 it is set to the low-rank term
      Σ_r z[b,s,r] · W_out[1024·j + q, r],
  at every k the partial product
      Σ_i x[b,s,256·k + i] · W_lin[1024·j + q, 256·k + i]
  is added, and at k = 15 the accumulator plus the bias entry b[1024·j + q] is stored into the output block (b, ·, j),
  which is then written back. So the result array holds, at (b, s, o), the low-rank term plus the sixteen partial
  products in tile order plus the bias.

  The module has four parts: each of the body's three stored values read at an index (two matrix products into a zero
  accumulator, the unit axes cast away and back, the bias row broadcast over the rows; a change of float format is the
  identity on the extended reals); what each control case leaves in the accumulator and in the output block, as those
  stored values of the blocks; the accumulator's closed form by induction on the position; and the passage from the
  blocks written back to the whole array (each block read where the index maps put it, every entry covered once).
-/
import proofs.«158239_j26474178412911_1_alg».proof.Proof.Y1Frame
import proofs.«158239_j26474178412911_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.ValueIdx Idealize.ShloMosaic.Tactic Idealize.SL.Sem
open Idealize.ShloMosaic.Pipeline (Dat)
open scoped BigOperators

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's stored values at an index -/

theorem lhsA_0 (i : S2048x1024.Idx) (q : dot_S2048x128_S1024x128_S2048x1024_1_1_0_0_n_n.contr.Idx) :
    (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch by decide), dif_pos (show (0 : Fin S2048x128.rank) ∈ dot_S2048x128_S1024x128_S2048x1024_1_1_0_0_n_n.lhsNonContracting by decide)]
  rfl
theorem lhsA_1 (i : S2048x1024.Idx) (q : dot_S2048x128_S1024x128_S2048x1024_1_1_0_0_n_n.contr.Idx) :
    (dot_S2048x128_S1024x128_S2048x1024_1_1_0_0_n_n.lhsIdx i q 1).val = (q ⟨0, by decide⟩).val :=
  dot_S2048x128_S1024x128_S2048x1024_1_1_0_0_n_n.lhsIdx_val_of_single rfl i q
theorem rhsA_0 (i : S2048x1024.Idx) (q : dot_S2048x128_S1024x128_S2048x1024_1_1_0_0_n_n.contr.Idx) :
    (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch by decide), dif_pos (show (0 : Fin S1024x128.rank) ∈ dot_S2048x128_S1024x128_S2048x1024_1_1_0_0_n_n.rhsNonContracting by decide)]
  rfl
theorem rhsA_1 (i : S2048x1024.Idx) (q : dot_S2048x128_S1024x128_S2048x1024_1_1_0_0_n_n.contr.Idx) :
    (dot_S2048x128_S1024x128_S2048x1024_1_1_0_0_n_n.rhsIdx i q 1).val = (q ⟨0, by decide⟩).val :=
  dot_S2048x128_S1024x128_S2048x1024_1_1_0_0_n_n.rhsIdx_val_of_single rfl i q

theorem lhsB_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhsB_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem rhsB_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhsB_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The matrix product into a zero accumulator, at (s, q): the sum over the 128 contracted features. -/
theorem mmA_apply (a : FVec Ideal S2048x128 .bf16) (b : FVec Ideal S1024x128 .bf16) (s : Fin 2048) (q : Fin 1024) :
    matmul dot_S2048x128_S1024x128_S2048x1024_1_1_0_0_n_n none a b (constant S2048x1024 .f32 0x00000000#32) (ix2 s q)
      = ∑ r : Fin 128, a (ix2 s r) * b (ix2 q r) := by
  unfold matmul
  rw [Ideal.matmul_constant_zero_apply, ← Equiv.sum_comp (contrEquiv1 dot_S2048x128_S1024x128_S2048x1024_1_1_0_0_n_n 128 rfl rfl).symm]
  refine Finset.sum_congr rfl fun k _ => ?_
  have hk := contrEquiv1_symm_val dot_S2048x128_S1024x128_S2048x1024_1_1_0_0_n_n 128 rfl rfl k
  have el : dot_S2048x128_S1024x128_S2048x1024_1_1_0_0_n_n.lhsIdx (ix2 s q) ((contrEquiv1 dot_S2048x128_S1024x128_S2048x1024_1_1_0_0_n_n 128 rfl rfl).symm k) = ix2 s k := funext fun a => Fin.ext (by
    match a with
    | ⟨0, _⟩ => exact lhsA_0 _ _
    | ⟨1, _⟩ => exact (lhsA_1 _ _).trans hk)
  have er : dot_S2048x128_S1024x128_S2048x1024_1_1_0_0_n_n.rhsIdx (ix2 s q) ((contrEquiv1 dot_S2048x128_S1024x128_S2048x1024_1_1_0_0_n_n 128 rfl rfl).symm k) = ix2 q k := funext fun a => Fin.ext (by
    match a with
    | ⟨0, _⟩ => exact rhsA_0 _ _
    | ⟨1, _⟩ => exact (rhsA_1 _ _).trans hk)
  rw [el, er]

/-- The matrix product into a zero accumulator, at (s, q): the sum over the 256 contracted features. -/
theorem mmB_apply (a : FVec Ideal S2048x256 .bf16) (b : FVec Ideal S1024x256 .bf16) (s : Fin 2048) (q : Fin 1024) :
    matmul dot_S2048x256_S1024x256_S2048x1024_1_1_0_0_n_n none a b (constant S2048x1024 .f32 0x00000000#32) (ix2 s q)
      = ∑ r : Fin 256, a (ix2 s r) * b (ix2 q r) := by
  unfold matmul
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 s q) ((contrEquiv1 dot_S2048x256_S1024x256_S2048x1024_1_1_0_0_n_n 256 rfl rfl).symm k) = ix2 s k := funext fun a => Fin.ext (by
    match a with
    | ⟨0, _⟩ => exact lhsB_0 _ _
    | ⟨1, _⟩ => exact (lhsB_1 _ _).trans hk)
  have er : dot_S2048x256_S1024x256_S2048x1024_1_1_0_0_n_n.rhsIdx (ix2 s q) ((contrEquiv1 dot_S2048x256_S1024x256_S2048x1024_1_1_0_0_n_n 256 rfl rfl).symm k) = ix2 q k := funext fun a => Fin.ext (by
    match a with
    | ⟨0, _⟩ => exact rhsB_0 _ _
    | ⟨1, _⟩ => exact (rhsB_1 _ _).trans hk)
  rw [el, er]

/-- The low-rank start of the accumulator at (s, q): the code row s against row q of the output-projection tile. -/
theorem pay1_apply (z : Vec Ideal S1x2048x128 .f32) (wo : Vec Ideal S1024x128 .f32) (s : Fin 2048) (q : Fin 1024) :
    k1_pay1 (F := Ideal) z wo (ix2 s q) = ∑ r : Fin 128, z (ix3 (0 : Fin 1) s r) * wo (ix2 q r) := by
  unfold k1_pay1
  rw [shapeCast_self]
  refine (mmA_apply _ _ s q).trans ?_
  refine Finset.sum_congr rfl fun r _ => ?_
  rw [truncf_apply, truncf_apply, shapeCast_1ab_ab_apply]

/-- One accumulation step at (s, q): the accumulator plus the x row s against row q of the linear-map tile. -/
theorem pay2_apply (x : Vec Ideal S1x2048x256 .f32) (wl : Vec Ideal S1024x256 .f32) (acc : Vec Ideal S2048x1024 .f32) (s : Fin 2048) (q : Fin 1024) :
    k1_pay2 (F := Ideal) x wl acc (ix2 s q) = acc (ix2 s q) + ∑ r : Fin 256, x (ix3 (0 : Fin 1) s r) * wl (ix2 q r) := by
  unfold k1_pay2
  rw [shapeCast_self, addf_apply]
  refine congrArg (acc (ix2 s q) + ·) ?_
  refine (mmB_apply _ _ s q).trans ?_
  refine Finset.sum_congr rfl fun r _ => ?_
  rw [truncf_apply, truncf_apply, shapeCast_1ab_ab_apply]

/-- The stored block at (0, s, q): the accumulator plus the bias tile's entry q. -/
theorem pay3_apply (acc : Vec Ideal S2048x1024 .f32) (bl : Vec Ideal S1x1024 .f32) (u : Fin 1) (s : Fin 2048) (q : Fin 1024) :
    k1_pay3 (F := Ideal) acc bl (ix3 u s q) = acc (ix2 s q) + bl (ix2 (0 : Fin 1) q) := by
  unfold k1_pay3
  rw [shapeCast_ab_1ab_apply, addf_apply, broadcastTo_1b_ab_apply, shapeCast_self]

/-! ## What each control case leaves, as stored values of the blocks -/

/-- Between the first and the last input tile the body leaves in the accumulator one accumulation step over what it held. -/
theorem sout_B_eq (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : ¬cond_1 i) (x0 : Vec F S1x2048x256 .f32) (x1 : Vec F S1x2048x128 .f32) (x2 : Vec F S1024x128 .f32) (x3 : Vec F S1024x256 .f32) (x4 : Vec F S1x1024 .f32) (xs0 : Vec F S2048x1024 .f32) :
    sout_B_0 c i arg3 harg3 arg4 harg4 arg5 harg5 arg6 harg6 arg7 harg7 arg8 harg8 arg9 harg9 hc0 hc1 x0 x1 x2 x3 x4 xs0 = k1_pay2 x0 x3 xs0 := by
  unfold sout_B_0
  rw [View.read_writes_eq_canon _ _ _ (scover_B_0 c i arg3 harg3 arg4 harg4 arg5 harg5 arg6 harg6 arg7 harg7 arg8 harg8 arg9 harg9 hc0 hc1 x0 x1 x2 x3 x4 xs0)]
  unfold kernelRun_B
  dsimp only
  sl_unfold_words
  rw [View.canon_unit_zero hz2]
  simp only [View.readAt_eq_ld, harg3.read_unread, harg4.read_unread, harg5.read_unread, harg6.read_unread, harg7.read_unread, harg9.read_unread, View.ld_unit_zero (S := S1x2048x256) hz3, View.ld_unit_zero (S := S1x2048x128) hz3, View.ld_unit_zero (S := S1024x128) hz2, View.ld_unit_zero (S := S1024x256) hz2, View.ld_unit_zero (S := S1x1024) hz2, View.ld_unit_zero (S := S2048x1024) hz2]

/-- At the first input tile the accumulator is set to the low-rank term and one accumulation step is made over it. -/
theorem sout_A_eq (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond_0 i) (hc1 : ¬cond_1 i) (x0 : Vec F S1x2048x256 .f32) (x1 : Vec F S1x2048x128 .f32) (x2 : Vec F S1024x128 .f32) (x3 : Vec F S1024x256 .f32) (x4 : Vec F S1x1024 .f32) :
    sout_A_0 c i arg3 harg3 arg4 harg4 arg5 harg5 arg6 harg6 arg7 harg7 arg8 harg8 arg9 harg9 hc0 hc1 x0 x1 x2 x3 x4 = k1_pay2 x0 x3 (k1_pay1 x1 x2) := by
  unfold sout_A_0
  rw [View.read_writes_eq_canon _ _ _ (scover_A_0 c i arg3 harg3 arg4 harg4 arg5 harg5 arg6 harg6 arg7 harg7 arg8 harg8 arg9 harg9 hc0 hc1 x0 x1 x2 x3 x4)]
  unfold kernelRun_A
  dsimp only
  sl_unfold_words
  rw [View.canon_cons_unit_zero (S := S2048x1024) hz2, View.readCov_unit_zero (S := S2048x1024) _ hz2]
  simp only [View.readAt_eq_ld, harg3.read_unread, harg4.read_unread, harg5.read_unread, harg6.read_unread, harg7.read_unread, harg9.read_unread, View.ld_unit_zero (S := S1x2048x256) hz3, View.ld_unit_zero (S := S1x2048x128) hz3, View.ld_unit_zero (S := S1024x128) hz2, View.ld_unit_zero (S := S1024x256) hz2, View.ld_unit_zero (S := S1x1024) hz2, View.ld_unit_zero (S := S2048x1024) hz2]

/-- At the last input tile the accumulator gets its last accumulation step, -/
theorem sout_C_eq (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i) (x0 : Vec F S1x2048x256 .f32) (x1 : Vec F S1x2048x128 .f32) (x2 : Vec F S1024x128 .f32) (x3 : Vec F S1024x256 .f32) (x4 : Vec F S1x1024 .f32) (xs0 : Vec F S2048x1024 .f32) :
    sout_C_0 c i arg3 harg3 arg4 harg4 arg5 harg5 arg6 harg6 arg7 harg7 arg8 harg8 arg9 harg9 hc0 hc1 x0 x1 x2 x3 x4 xs0 = k1_pay2 x0 x3 xs0 := by
  unfold sout_C_0
  rw [View.read_writes_eq_canon _ _ _ (scover_C_0 c i arg3 harg3 arg4 harg4 arg5 harg5 arg6 harg6 arg7 harg7 arg8 harg8 arg9 harg9 hc0 hc1 x0 x1 x2 x3 x4 xs0)]
  unfold kernelRun_C
  dsimp only
  sl_unfold_words
  rw [View.canon_unit_zero hz2]
  simp only [View.readAt_eq_ld, harg3.read_unread, harg4.read_unread, harg5.read_unread, harg6.read_unread, harg7.read_unread, harg9.read_unread, View.ld_unit_zero (S := S1x2048x256) hz3, View.ld_unit_zero (S := S1x2048x128) hz3, View.ld_unit_zero (S := S1024x128) hz2, View.ld_unit_zero (S := S1024x256) hz2, View.ld_unit_zero (S := S1x1024) hz2, View.ld_unit_zero (S := S2048x1024) hz2]

/-- and the output block is stored from it with the bias tile added. -/
theorem out_C_eq (c : Dev nD) (i : grid1.Coords) (arg3 : Memref sig .tc .vmem S1x2048x256 .f32) (harg3 : arg3.IsWhole) (arg4 : Memref sig .tc .vmem S1x2048x128 .f32) (harg4 : arg4.IsWhole) (arg5 : Memref sig .tc .vmem S1024x128 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond_0 i) (hc1 : cond_1 i) (x0 : Vec F S1x2048x256 .f32) (x1 : Vec F S1x2048x128 .f32) (x2 : Vec F S1024x128 .f32) (x3 : Vec F S1024x256 .f32) (x4 : Vec F S1x1024 .f32) (xs0 : Vec F S2048x1024 .f32) :
    out_C_5 c i arg3 harg3 arg4 harg4 arg5 harg5 arg6 harg6 arg7 harg7 arg8 harg8 arg9 harg9 hc0 hc1 x0 x1 x2 x3 x4 xs0 = k1_pay3 (k1_pay2 x0 x3 xs0) x4 := by
  unfold out_C_5
  rw [View.read_writes_eq_canon _ _ _ (cover_C_5 c i arg3 harg3 arg4 harg4 arg5 harg5 arg6 harg6 arg7 harg7 arg8 harg8 arg9 harg9 hc0 hc1 x0 x1 x2 x3 x4 xs0)]
  unfold kernelRun_C
  dsimp only
  sl_unfold_words
  rw [View.canon_unit_zero hz3]
  simp only [View.readAt_eq_ld, harg3.read_unread, harg4.read_unread, harg5.read_unread, harg6.read_unread, harg7.read_unread, harg9.read_unread, View.ld_unit_zero (S := S1x2048x256) hz3, View.ld_unit_zero (S := S1x2048x128) hz3, View.ld_unit_zero (S := S1024x128) hz2, View.ld_unit_zero (S := S1024x256) hz2, View.ld_unit_zero (S := S1x1024) hz2, View.ld_unit_zero (S := S2048x1024) hz2, View.readCov_unit_zero (S := S2048x1024) _ hz2]

/-! ## The arrays, their blocks, and the accumulator's closed form -/

section Value

open Cert.Spec (accFrom tix)

variable (V : (c : Dev nD) → (b : Ref sig .tc) → Buf (Elt Ideal) ((c : Thread nD τ).loc b))

/-- The five input arrays as the region finds them: x, the code z, the output projection, the linear map, the bias row. -/
abbrev xarr (c : Dev nD) : Vec Ideal S4x2048x4096 .f32 := V c main_arg0
abbrev zarr (c : Dev nD) : Vec Ideal S4x2048x128 .f32 := V c main_v11
abbrev oarr (c : Dev nD) : Vec Ideal S4096x128 .f32 := V c main_arg5
abbrev larr (c : Dev nD) : Vec Ideal S4096x4096 .f32 := V c main_arg6
abbrev barr (c : Dev nD) : Vec Ideal S1x4096 .f32 := V c main_v12
/-- Their blocks at a grid point. -/
abbrev xblk (c : Dev nD) (t : Fin cfg1.N) : Vec Ideal S1x2048x256 .f32 := iblk V c 0 t
abbrev zblk (c : Dev nD) (t : Fin cfg1.N) : Vec Ideal S1x2048x128 .f32 := iblk V c 1 t
abbrev oblk (c : Dev nD) (t : Fin cfg1.N) : Vec Ideal S1024x128 .f32 := iblk V c 2 t
abbrev lblk (c : Dev nD) (t : Fin cfg1.N) : Vec Ideal S1024x256 .f32 := iblk V c 3 t
abbrev bblk (c : Dev nD) (t : Fin cfg1.N) : Vec Ideal S1x1024 .f32 := iblk V c 4 t

/-- Output feature q of output tile j (1024 features a tile). -/
def oix (j : Fin 4) (q : Fin 1024) : Fin 4096 := ⟨j.val * 1024 + 1 * q.val, by omega⟩

/-- Position n = 64·b + 16·j + k: every window's block index at it, decided over the 256 positions. -/
theorem idx_facts : ∀ t : Fin cfg1.N,
    win1_0.index t (0 : Fin 3) = t.val / 64 ∧ win1_0.index t (1 : Fin 3) = 0 ∧ win1_0.index t (2 : Fin 3) = t.val % 16
    ∧ win1_1.index t (0 : Fin 3) = t.val / 64 ∧ win1_1.index t (1 : Fin 3) = 0 ∧ win1_1.index t (2 : Fin 3) = 0
    ∧ win1_2.index t (0 : Fin 2) = t.val / 16 % 4 ∧ win1_2.index t (1 : Fin 2) = 0
    ∧ win1_3.index t (0 : Fin 2) = t.val / 16 % 4 ∧ win1_3.index t (1 : Fin 2) = t.val % 16
    ∧ win1_4.index t (0 : Fin 2) = 0 ∧ win1_4.index t (1 : Fin 2) = t.val / 16 % 4
    ∧ win1_5.index t (0 : Fin 3) = t.val / 64 ∧ win1_5.index t (1 : Fin 3) = 0 ∧ win1_5.index t (2 : Fin 3) = t.val / 16 % 4 :=
  (by decide +kernel : ∀ t : Fin grid1.N, _)

/-- The x block holds batch b, all rows, input tile k. -/
theorem xblk_apply (c : Dev nD) (t : Fin cfg1.N) (b : Fin 4) (k : Fin 16) (hb : t.val / 64 = b.val) (hk : t.val % 16 = k.val)
    (u : Fin 1) (s : Fin 2048) (r : Fin 256) : xblk V c t (ix3 u s r) = xarr V c (ix3 b s (tix k r)) := by
  obtain ⟨e0, e1, e2, -⟩ := idx_facts t
  show V c main_arg0 (((cfg1.win 0).blk t).view.emb (ix3 u s r)) = V c main_arg0 (ix3 b s (tix k r))
  refine congrArg _ (funext fun a => Fin.ext ?_)
  match a with
  | ⟨0, _⟩ => show win1_0.index t (0 : Fin 3) * 1 + 1 * u.val = b.val; omega
  | ⟨1, _⟩ => show win1_0.index t (1 : Fin 3) * 2048 + 1 * s.val = s.val; omega
  | ⟨2, _⟩ => show win1_0.index t (2 : Fin 3) * 256 + 1 * r.val = k.val * 256 + 1 * r.val; rw [e2, hk]

/-- The code block holds batch b, all rows, all 128 code features. -/
theorem zblk_apply (c : Dev nD) (t : Fin cfg1.N) (b : Fin 4) (hb : t.val / 64 = b.val)
    (u : Fin 1) (s : Fin 2048) (r : Fin 128) : zblk V c t (ix3 u s r) = zarr V c (ix3 b s r) := by
  obtain ⟨-, -, -, e0, e1, e2, -⟩ := idx_facts t
  show V c main_v11 (((cfg1.win 1).blk t).view.emb (ix3 u s r)) = V c main_v11 (ix3 b s r)
  refine congrArg _ (funext fun a => Fin.ext ?_)
  match a with
  | ⟨0, _⟩ => show win1_1.index t (0 : Fin 3) * 1 + 1 * u.val = b.val; omega
  | ⟨1, _⟩ => show win1_1.index t (1 : Fin 3) * 2048 + 1 * s.val = s.val; omega
  | ⟨2, _⟩ => show win1_1.index t (2 : Fin 3) * 128 + 1 * r.val = r.val; omega

/-- The output-projection block holds output tile j, all 128 code features. -/
theorem oblk_apply (c : Dev nD) (t : Fin cfg1.N) (j : Fin 4) (hj : t.val / 16 % 4 = j.val)
    (q : Fin 1024) (r : Fin 128) : oblk V c t (ix2 q r) = oarr V c (ix2 (oix j q) r) := by
  obtain ⟨-, -, -, -, -, -, e0, e1, -⟩ := idx_facts t
  show V c main_arg5 (((cfg1.win 2).blk t).view.emb (ix2 q r)) = V c main_arg5 (ix2 (oix j q) r)
  refine congrArg _ (funext fun a => Fin.ext ?_)
  match a with
  | ⟨0, _⟩ => show win1_2.index t (0 : Fin 2) * 1024 + 1 * q.val = j.val * 1024 + 1 * q.val; rw [e0, hj]
  | ⟨1, _⟩ => show win1_2.index t (1 : Fin 2) * 128 + 1 * r.val = r.val; omega

/-- The linear-map block holds output tile j, input tile k. -/
theorem lblk_apply (c : Dev nD) (t : Fin cfg1.N) (j : Fin 4) (k : Fin 16) (hj : t.val / 16 % 4 = j.val) (hk : t.val % 16 = k.val)
    (q : Fin 1024) (r : Fin 256) : lblk V c t (ix2 q r) = larr V c (ix2 (oix j q) (tix k r)) := by
  obtain ⟨-, -, -, -, -, -, -, -, e0, e1, -⟩ := idx_facts t
  show V c main_arg6 (((cfg1.win 3).blk t).view.emb (ix2 q r)) = V c main_arg6 (ix2 (oix j q) (tix k r))
  refine congrArg _ (funext fun a => Fin.ext ?_)
  match a with
  | ⟨0, _⟩ => show win1_3.index t (0 : Fin 2) * 1024 + 1 * q.val = j.val * 1024 + 1 * q.val; rw [e0, hj]
  | ⟨1, _⟩ => show win1_3.index t (1 : Fin 2) * 256 + 1 * r.val = k.val * 256 + 1 * r.val; rw [e1, hk]

/-- The bias block holds the row's output tile j. -/
theorem bblk_apply (c : Dev nD) (t : Fin cfg1.N) (j : Fin 4) (hj : t.val / 16 % 4 = j.val)
    (u : Fin 1) (q : Fin 1024) : bblk V c t (ix2 u q) = barr V c (ix2 (0 : Fin 1) (oix j q)) := by
  obtain ⟨-, -, -, -, -, -, -, -, -, -, e0, e1, -⟩ := idx_facts t
  show V c main_v12 (((cfg1.win 4).blk t).view.emb (ix2 u q)) = V c main_v12 (ix2 (0 : Fin 1) (oix j q))
  refine congrArg _ (funext fun a => Fin.ext ?_)
  match a with
  | ⟨0, _⟩ => show win1_4.index t (0 : Fin 2) * 1 + 1 * u.val = 0; omega
  | ⟨1, _⟩ => show win1_4.index t (1 : Fin 2) * 1024 + 1 * q.val = j.val * 1024 + 1 * q.val; rw [e1, hj]

/-- The low-rank term at (b, s, o): the code row against row o of the output projection. -/
def lowRank (c : Dev nD) (b : Fin 4) (s : Fin 2048) (o : Fin 4096) : EReal :=
  ∑ r : Fin 128, zarr V c (ix3 b s r) * oarr V c (ix2 o r)

/-- The partial product of input tile k at (b, s, o) (zero past the sixteenth tile). -/
def tileSum (c : Dev nD) (b : Fin 4) (s : Fin 2048) (o : Fin 4096) (k : ℕ) : EReal :=
  if h : k < 16 then ∑ q : Fin 256, xarr V c (ix3 b s (tix ⟨k, h⟩ q)) * larr V c (ix2 o (tix ⟨k, h⟩ q)) else 0

/-- The accumulator at (b, s, o) after n input tiles: the low-rank term plus the first n partial products, in order. -/
def accAt (c : Dev nD) (b : Fin 4) (s : Fin 2048) (o : Fin 4096) (n : ℕ) : EReal :=
  accFrom (lowRank V c b s o) (tileSum V c b s o) n

theorem accAt_succ (c : Dev nD) (b : Fin 4) (s : Fin 2048) (o : Fin 4096) (k : Fin 16) :
    accAt V c b s o (k.val + 1)
      = accAt V c b s o k.val + ∑ r : Fin 256, xarr V c (ix3 b s (tix k r)) * larr V c (ix2 o (tix k r)) := by
  show accFrom _ _ k.val + tileSum V c b s o k.val = _
  unfold tileSum
  rw [dif_pos k.isLt]
  rfl

/-- The two sums the body forms over its blocks are the low-rank term and tile k's partial product. -/
theorem low_eq (c : Dev nD) (t : Fin cfg1.N) (b j : Fin 4) (hb : t.val / 64 = b.val) (hj : t.val / 16 % 4 = j.val)
    (s : Fin 2048) (q : Fin 1024) :
    ∑ r : Fin 128, zblk V c t (ix3 (0 : Fin 1) s r) * oblk V c t (ix2 q r) = lowRank V c b s (oix j q) :=
  Finset.sum_congr rfl fun r _ => by rw [zblk_apply V c t b hb, oblk_apply V c t j hj]

theorem tile_eq (c : Dev nD) (t : Fin cfg1.N) (b j : Fin 4) (k : Fin 16) (hb : t.val / 64 = b.val) (hj : t.val / 16 % 4 = j.val)
    (hk : t.val % 16 = k.val) (s : Fin 2048) (q : Fin 1024) :
    ∑ r : Fin 256, xblk V c t (ix3 (0 : Fin 1) s r) * lblk V c t (ix2 q r)
      = ∑ r : Fin 256, xarr V c (ix3 b s (tix k r)) * larr V c (ix2 (oix j q) (tix k r)) :=
  Finset.sum_congr rfl fun r _ => by rw [xblk_apply V c t b k hb hk, lblk_apply V c t j k hj hk]

/-- One accumulation step at a position past the first input tile: over an accumulator holding the first k partial
    products it leaves the first k + 1. -/
theorem step (c : Dev nD) (t : Fin cfg1.N) (h0 : ¬t.val % 16 = 0) (b j : Fin 4) (hb : t.val / 64 = b.val) (hj : t.val / 16 % 4 = j.val)
    (prev : Vec Ideal S2048x1024 .f32)
    (hprev : ∀ (s : Fin 2048) (q : Fin 1024), prev (ix2 s q) = accAt V c b s (oix j q) ((t.val - 1) % 16 + 1))
    (s : Fin 2048) (q : Fin 1024) :
    k1_pay2 (F := Ideal) (xblk V c t) (lblk V c t) prev (ix2 s q) = accAt V c b s (oix j q) (t.val % 16 + 1) := by
  refine (pay2_apply (xblk V c t) (lblk V c t) prev s q).trans ?_
  rw [hprev s q, tile_eq V c t b j ⟨t.val % 16, Nat.mod_lt _ (by decide)⟩ hb hj rfl s q,
    show (t.val - 1) % 16 + 1 = t.val % 16 by omega]
  exact (accAt_succ V c b s (oix j q) ⟨t.val % 16, Nat.mod_lt _ (by decide)⟩).symm

/-- THE ACCUMULATOR. After position n = 64·b + 16·j + k it holds, at (s, q), the low-rank term of (b, s, 1024·j + q) plus
    the partial products of the input tiles 0 … k, in order — by induction on the position. -/
theorem acc_inv (c : Dev nD) : ∀ (n : ℕ) (hn : n < cfg1.N) (b j : Fin 4), n / 64 = b.val → n / 16 % 4 = j.val →
    ∀ (s : Fin 2048) (q : Fin 1024), (outsAt V c n hn).2 (ix2 s q) = accAt V c b s (oix j q) (n % 16 + 1) := by
  have first : ∀ (t : Fin cfg1.N) (h0 : t.val % 16 = 0) (h1 : ¬t.val % 16 = 15) (b j : Fin 4), t.val / 64 = b.val → t.val / 16 % 4 = j.val →
      ∀ (s : Fin 2048) (q : Fin 1024), (outsAt V c t.val t.isLt).2 (ix2 s q) = accAt V c b s (oix j q) (t.val % 16 + 1) := by
    intro t h0 h1 b j hb hj s q
    rw [outsAt_A V c t h0 h1]
    dsimp only
    refine (congrFun (sout_A_eq (F := Ideal) c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) ((hcond_0 t).mpr h0) (fun h => h1 ((hcond_1 t).mp h)) (xblk V c t) (zblk V c t) (oblk V c t) (lblk V c t) (bblk V c t)) (ix2 s q)).trans ?_
    refine (pay2_apply (xblk V c t) (lblk V c t) (k1_pay1 (zblk V c t) (oblk V c t)) s q).trans ?_
    rw [pay1_apply (zblk V c t) (oblk V c t) s q, low_eq V c t b j hb hj s q,
      tile_eq V c t b j ⟨0, by decide⟩ hb hj h0 s q, h0]
    exact (accAt_succ V c b s (oix j q) ⟨0, by decide⟩).symm
  intro n
  induction n with
  | zero => exact fun hn b j hb hj s q => first ⟨0, hn⟩ rfl (by show ¬(0 % 16 = 15); omega) b j hb hj s q
  | succ n ih =>
    intro hn b j hb hj s q
    have hN : n + 1 < 256 := lt_of_lt_of_eq hn (show cfg1.N = 256 from N_1)
    by_cases h0 : (n + 1) % 16 = 0
    · exact first ⟨n + 1, hn⟩ h0 (by dsimp only; omega) b j hb hj s q
    · have hprev : ∀ (s : Fin 2048) (q : Fin 1024), (outsAt V c n (Nat.lt_of_succ_lt hn)).2 (ix2 s q) = accAt V c b s (oix j q) (n % 16 + 1) :=
        fun s q => ih (Nat.lt_of_succ_lt hn) b j (by omega) (by omega) s q
      by_cases h1 : (n + 1) % 16 = 15
      · rw [outsAt_C V c ⟨n + 1, hn⟩ h0 h1]
        dsimp only
        refine (congrFun (sout_C_eq (F := Ideal) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) ((hcond_1 ⟨n + 1, hn⟩).mpr h1) (xblk V c ⟨n + 1, hn⟩) (zblk V c ⟨n + 1, hn⟩) (oblk V c ⟨n + 1, hn⟩) (lblk V c ⟨n + 1, hn⟩) (bblk V c ⟨n + 1, hn⟩) (outsAt V c n (Nat.lt_of_succ_lt hn)).2) (ix2 s q)).trans ?_
        exact step V c ⟨n + 1, hn⟩ h0 b j hb hj _ hprev s q
      · rw [outsAt_B V c ⟨n + 1, hn⟩ h0 h1]
        dsimp only
        refine (congrFun (sout_B_eq (F := Ideal) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) (fun h => h1 ((hcond_1 ⟨n + 1, hn⟩).mp h)) (xblk V c ⟨n + 1, hn⟩) (zblk V c ⟨n + 1, hn⟩) (oblk V c ⟨n + 1, hn⟩) (lblk V c ⟨n + 1, hn⟩) (bblk V c ⟨n + 1, hn⟩) (outsAt V c n (Nat.lt_of_succ_lt hn)).2) (ix2 s q)).trans ?_
        exact step V c ⟨n + 1, hn⟩ h0 b j hb hj _ hprev s q

/-! ## From the blocks to the array -/

/-- The kernel's result as one function of the five arrays. -/
abbrev Y (c : Dev nD) : Vec Ideal S4x2048x4096 .f32 :=
  Cert.Spec.YK (xarr V c) (zarr V c) (oarr V c) (larr V c) (fun j => barr V c (ix2 (0 : Fin 1) (j 0)))

/-- WHAT A POSITION WITH k = 15 WRITES BACK is its block of the result: the accumulator after all sixteen tiles plus
    the bias entry. -/
theorem flushed_eq (c : Dev nD) (t : Fin cfg1.N) (hf : (cfg1.win 5).flush t = true) :
    (dat V c).flushed 5 t = ((cfg1.win 5).blk t).view.read (Elt Ideal) (Y V c) := by
  have h1 : t.val % 16 = 15 := (flush1_5 t).mp hf
  have h0 : ¬t.val % 16 = 0 := by omega
  have hN : t.val < 256 := lt_of_lt_of_eq t.isLt (show cfg1.N = 256 from N_1)
  obtain ⟨b, hb⟩ : ∃ b : Fin 4, t.val / 64 = b.val := ⟨⟨t.val / 64, by omega⟩, rfl⟩
  obtain ⟨j, hj⟩ : ∃ j : Fin 4, t.val / 16 % 4 = j.val := ⟨⟨t.val / 16 % 4, by omega⟩, rfl⟩
  show (cfg1.win 5).cut (grid1.coords t) ((dat V c).after 5 t) = _
  rw [after_5, outsAt_C V c t h0 h1]
  dsimp only
  rw [out_C_eq (F := Ideal) c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) ((hcond_1 t).mpr h1) (xblk V c t) (zblk V c t) (oblk V c t) (lblk V c t) (bblk V c t) (outsAt V c (t.val - 1) (Nat.lt_of_le_of_lt (Nat.sub_le _ _) t.isLt)).2]
  refine funext fun (y : S1x2048x1024.Idx) => ?_
  obtain ⟨u, s, q, rfl⟩ : ∃ (u : Fin 1) (s : Fin 2048) (q : Fin 1024), y = ix3 u s q := ⟨y 0, y 1, y 2, eq_ix3 y⟩
  obtain ⟨-, -, -, -, -, -, -, -, -, -, -, -, e0, e1, e2⟩ := idx_facts t
  have he : ((cfg1.win 5).blk t).view.emb (ix3 u s q) = ix3 b s (oix j q) := funext fun a => Fin.ext (by
    match a with
    | ⟨0, _⟩ => show win1_5.index t (0 : Fin 3) * 1 + 1 * u.val = b.val; omega
    | ⟨1, _⟩ => show win1_5.index t (1 : Fin 3) * 2048 + 1 * s.val = s.val; omega
    | ⟨2, _⟩ => show win1_5.index t (2 : Fin 3) * 1024 + 1 * q.val = j.val * 1024 + 1 * q.val; rw [e2, hj])
  show k1_pay3 (F := Ideal) (k1_pay2 (xblk V c t) (lblk V c t) (outsAt V c (t.val - 1) (Nat.lt_of_le_of_lt (Nat.sub_le _ _) t.isLt)).2) (bblk V c t) (ix3 u s q)
    = Y V c (((cfg1.win 5).blk t).view.emb (ix3 u s q))
  rw [he]
  refine (pay3_apply (k1_pay2 (xblk V c t) (lblk V c t) (outsAt V c (t.val - 1) (Nat.lt_of_le_of_lt (Nat.sub_le _ _) t.isLt)).2) (bblk V c t) u s q).trans ?_
  rw [step V c t h0 b j hb hj (outsAt V c (t.val - 1) (Nat.lt_of_le_of_lt (Nat.sub_le _ _) t.isLt)).2 (fun s q => acc_inv V c (t.val - 1) _ b j (by omega) (by omega) s q) s q,
    bblk_apply V c t j hj (0 : Fin 1) q, h1]
  rfl

/-- An index of the result array is in a position's block iff each coordinate is in the block's range. -/
theorem mem_blk (t : Fin cfg1.N) (i : S4x2048x4096.Idx) :
    i ∈ ((cfg1.win 5).blk t).view.set ↔ ∀ a : Fin 3, win1_5.index t a * S1x2048x1024.size a ≤ (i a).val ∧ (i a).val < win1_5.index t a * S1x2048x1024.size a + S1x2048x1024.size a := by
  show i ∈ ((View.whole main_v13).slice (win1_5.rect t)).set ↔ _
  rw [View.set_slice_whole, Rect.mem_set_unit]
  exact Iff.rfl

/-- Entry (b, s, o) is written back at position 64·b + 16·(o / 1024) + 15. -/
theorem cover (i : S4x2048x4096.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 4096 := (i 2).isLt
  obtain ⟨t, ht⟩ : ∃ t : Fin cfg1.N, t.val = 64 * (i 0).val + 16 * ((i 2).val / 1024) + 15 :=
    ⟨⟨64 * (i 0).val + 16 * ((i 2).val / 1024) + 15, by rw [show cfg1.N = 256 from N_1]; omega⟩, rfl⟩
  obtain ⟨-, -, -, -, -, -, -, -, -, -, -, -, e0, e1, e2⟩ := idx_facts t
  refine ⟨t, (flush1_5 t).mpr (by omega), ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 2048 ≤ (i 1).val ∧ (i 1).val < win1_5.index t (1 : Fin 3) * 2048 + 2048; omega
  | ⟨2, _⟩ => show win1_5.index t (2 : Fin 3) * 1024 ≤ (i 2).val ∧ (i 2).val < win1_5.index t (2 : Fin 3) * 1024 + 1024; omega

end Value

/-- THE RESULT ARRAY of the second stage ends holding, at (b, s, o), the low-rank term, plus the sixteen partial products
    of x against the linear map in tile order, plus the bias. -/
theorem y_final (V : (c : Dev nD) → (b : Ref sig .tc) → Buf (Elt Ideal) ((c : Thread nD τ).loc b)) (c : Dev nD) :
    (dat (F := Ideal) V c).arrAt 5 cfg1.N
      = Cert.Spec.YK (V c main_arg0) (V c main_v11) (V c main_arg5) (V c main_arg6) (fun j => V c main_v12 (ValueIdx.ix2 (0 : Fin 1) (j 0))) :=
  (dat V c).arrAt_eq_of_cover 5 (Y V c) (fun t hf => flushed_eq V c t hf) (cover)

end Cert.KernelIdeal.R1V

end
-- ==== Proof.HostGlue.lean ====
/-
  The kernel program's host operations, read as values on the extended reals.

  Before the first kernel region the host computes, for a batch b, a rank row r and an input feature i,
      lr[r,i]        = c · exp(log_lr[r,i] · 64)          (the two constants kept as their words),
      lr[r,i] · state[b,r,i],                             (the rate repeated over the batches),
      w_bsp[r,i] repeated over the batches,
  and their sum, which is the combined matrix  WB[b,r,i] = lr[r,i] · state[b,r,i] + w_bsp[r,i].
  Before the second kernel region it lays the bias b_lin out as a one-row matrix: entry (0, o) is b_lin[o].
  Every other buffer is left as it was by both stretches.
-/
import proofs.«158239_j26474178412911_1_alg».proof.Proof.Gen.KernelIdeal.Launch
import proofs.«158239_j26474178412911_1_alg».proof.Proof.Gen.KernelIdeal.Regions
import proofs.«158239_j26474178412911_1_alg».proof.Proof.Spec
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.HostGlue

open Cert.KernelIdeal Cert.KernelIdeal.Gen Idealize.ShloMosaic Idealize.ShloMosaic.TcCoe
open Idealize.ShloMosaic.ValueIdx

/-! ## The arrays' types -/

/-- A scalar. -/
abbrev A0 : Type := FVec Ideal S_ .f32
/-- log_lr and w_bsp : [128, 4096]. -/
abbrev AL : Type := FVec Ideal S128x4096 .f32
/-- state and the combined matrix : [4, 128, 4096]. -/
abbrev AS : Type := FVec Ideal S4x128x4096 .f32
/-- b_lin : [4096]. -/
abbrev AB : Type := FVec Ideal S4096 .f32
/-- b_lin as a one-row matrix : [1, 4096]. -/
abbrev AR : Type := FVec Ideal S1x4096 .f32

/-! ## The layout operations at coordinates -/

/-- A scalar repeated over a [128, 4096] array reads the scalar's one entry everywhere. -/
theorem scalar_at (y : A0) (j : S128x4096.Idx) :
    broadcastInDim S128x4096 ![] bcast_S_S128x4096 y j = y ix0 :=
  broadcastInDim_apply _ bcast_S_S128x4096 y j ix0 (fun a => a.elim0)

/-- A [128, 4096] array given a leading axis of size one and then repeated over four batches reads its entry
    (r, i) at every (b, r, i). -/
theorem rep_at (y : AL) (b : Fin 4) (r : Fin 128) (i : Fin 4096) :
    broadcastInDim S4x128x4096 ![0, 1, 2] bcast_S1x128x4096_S4x128x4096_0_1_2
      (broadcastInDim S1x128x4096 ![1, 2] bcast_S128x4096_S1x128x4096_1_2 y) (ix3 b r i) = y (ix2 r i) :=
  (broadcastInDim_apply _ bcast_S1x128x4096_S4x128x4096_0_1_2 _ (ix3 b r i) (ix3 (0 : Fin 1) r i) (fun a => match a with
    | ⟨0, _⟩ => by show (0 : Nat) = if (1 : Nat) = 1 then 0 else b.val; rw [if_pos rfl]
    | ⟨1, _⟩ => by show r.val = if (128 : Nat) = 1 then 0 else r.val; rw [if_neg (by decide)]
    | ⟨2, _⟩ => by show i.val = if (4096 : Nat) = 1 then 0 else i.val; rw [if_neg (by decide)])).trans
  (broadcastInDim_apply _ bcast_S128x4096_S1x128x4096_1_2 y (ix3 (0 : Fin 1) r i) (ix2 r i) (fun a => match a with
    | ⟨0, _⟩ => by show r.val = if (128 : Nat) = 1 then 0 else r.val; rw [if_neg (by decide)]
    | ⟨1, _⟩ => by show i.val = if (4096 : Nat) = 1 then 0 else i.val; rw [if_neg (by decide)]))

/-! ## The combined matrix -/

/-- The learning rate as the host computes it from log_lr. -/
def rate (x1 : AL) : AL :=
  mulf (broadcastInDim S128x4096 ![] bcast_S_S128x4096 (constant (F := Ideal) S_ .f32 0x3C23D70A#32))
    (Host.exp (mulf x1 (broadcastInDim S128x4096 ![] bcast_S_S128x4096 (constant (F := Ideal) S_ .f32 0x42800000#32))))

/-- The combined matrix as the host computes it from log_lr, state and w_bsp. -/
def combined (x1 : AL) (x2 : AS) (x4 : AL) : AS :=
  addf
    (mulf (broadcastInDim S4x128x4096 ![0, 1, 2] bcast_S1x128x4096_S4x128x4096_0_1_2
      (broadcastInDim S1x128x4096 ![1, 2] bcast_S128x4096_S1x128x4096_1_2 (rate x1))) x2)
    (broadcastInDim S4x128x4096 ![0, 1, 2] bcast_S1x128x4096_S4x128x4096_0_1_2
      (broadcastInDim S1x128x4096 ![1, 2] bcast_S128x4096_S1x128x4096_1_2 x4))

/-- The rate at (r, i) is c · exp(log_lr[r,i] · 64). -/
theorem rate_at (x1 : AL) (r : Fin 128) (i : Fin 4096) : rate x1 (ix2 r i) = Cert.Spec.lr x1 r i := by
  show FloatOps.mulf (broadcastInDim S128x4096 ![] bcast_S_S128x4096 (constant (F := Ideal) S_ .f32 0x3C23D70A#32) (ix2 r i))
      (FloatOps.hostUnary .exp (FloatOps.mulf (x1 (ix2 r i))
        (broadcastInDim S128x4096 ![] bcast_S_S128x4096 (constant (F := Ideal) S_ .f32 0x42800000#32) (ix2 r i)))) = _
  rw [scalar_at, scalar_at]
  simp only [Ideal.mulf_def, Ideal.hostUnary_exp_def]
  rfl

/-- The combined matrix at (b, r, i) is lr[r,i] · state[b,r,i] + w_bsp[r,i]. -/
theorem combined_at (x1 : AL) (x2 : AS) (x4 : AL) (b : Fin 4) (r : Fin 128) (i : Fin 4096) :
    combined x1 x2 x4 (ix3 b r i) = Cert.Spec.lr x1 r i * x2 (ix3 b r i) + x4 (ix2 r i) := by
  show FloatOps.addf (FloatOps.mulf
      (broadcastInDim S4x128x4096 ![0, 1, 2] bcast_S1x128x4096_S4x128x4096_0_1_2
        (broadcastInDim S1x128x4096 ![1, 2] bcast_S128x4096_S1x128x4096_1_2 (rate x1)) (ix3 b r i)) (x2 (ix3 b r i)))
      (broadcastInDim S4x128x4096 ![0, 1, 2] bcast_S1x128x4096_S4x128x4096_0_1_2
        (broadcastInDim S1x128x4096 ![1, 2] bcast_S128x4096_S1x128x4096_1_2 x4) (ix3 b r i)) = _
  rw [rep_at, rep_at, rate_at, Ideal.mulf_def, Ideal.addf_def]

/-- The combined matrix is the function WB of log_lr, state and w_bsp. -/
theorem combined_eq (x1 : AL) (x2 : AS) (x4 : AL) : combined x1 x2 x4 = Cert.Spec.WB x1 x2 x4 := by
  funext j
  obtain ⟨b, r, i, rfl⟩ : ∃ (b : Fin 4) (r : Fin 128) (i : Fin 4096), j = ix3 b r i := ⟨j 0, j 1, j 2, eq_ix3 j⟩
  rw [combined_at]
  rfl

/-- After the first stretch of host operations, from any contents W of the buffers, the buffer the first kernel
    region reads as its second operand holds WB of log_lr, state and w_bsp as W has them. -/
theorem wb_eq (W : Valuation τ sig (Elt Ideal)) :
    StableHlo.after (hostOps0 (F := Ideal)) W (Proc.devRef .tc main_v10)
      = Cert.Spec.WB (W (Proc.devRef .tc main_arg1)) (W (Proc.devRef .tc main_arg2)) (W (Proc.devRef .tc main_arg4)) := by
  have e : (StableHlo.after (hostOps0 (F := Ideal)) W (Proc.devRef .tc main_v10) : AS)
      = combined (W (Proc.devRef .tc main_arg1)) (W (Proc.devRef .tc main_arg2)) (W (Proc.devRef .tc main_arg4)) := by
    after_results
    rfl
  exact e.trans (combined_eq _ _ _)

/-! ## The bias as a one-row matrix -/

/-- After the second stretch of host operations, entry (0, o) of the one-row matrix is b_lin[o]. -/
theorem bias_eq (W : Valuation τ sig (Elt Ideal)) (o : Fin 4096) :
    StableHlo.after (hostOps1 (F := Ideal)) W (Proc.devRef .tc main_v12) (ValueIdx.ix2 (0 : Fin 1) o) = W (Proc.devRef .tc main_arg7) (ValueIdx.ix1 o) := by
  have e : (StableHlo.after (hostOps1 (F := Ideal)) W (Proc.devRef .tc main_v12) : AR)
      = shapeCast S1x4096 (W (Proc.devRef .tc main_arg7) : AB) shapeCasts_S4096_S1x4096 := by
    after_results
    rfl
  rw [e]
  refine shapeCast_apply _ shapeCasts_S4096_S1x4096 (ix2 (0 : Fin 1) o) (ix1 o) ?_
  rw [Shape.rowMajor_val_two, Shape.rowMajor_val_one]
  show o.val = 0 * 4096 + o.val
  omega

/-! ## What the two stretches leave alone -/

/-- The first stretch changes only the thirteen buffers it writes. -/
theorem hostOps0_keeps (W : Valuation τ sig (Elt Ideal)) (b : Ref sig .tc) (hb : b ∉ ([main_cst, main_v0, main_v1, main_v2, main_cst_0, main_v3, main_v4, main_v5, main_v6, main_v7, main_v8, main_v9, main_v10] : List (Ref sig .tc))) : StableHlo.after (hostOps0 (F := Ideal)) W (Proc.devRef .tc b) = W (Proc.devRef .tc b) :=
  StableHlo.after_of_writes_sub hostOps0 W hostOps0_writes hb

/-- The second stretch changes only the one buffer it writes. -/
theorem hostOps1_keeps (W : Valuation τ sig (Elt Ideal)) (b : Ref sig .tc) (hb : b ∉ ([main_v12] : List (Ref sig .tc))) : StableHlo.after (hostOps1 (F := Ideal)) W (Proc.devRef .tc b) = W (Proc.devRef .tc b) :=
  StableHlo.after_of_writes_sub hostOps1 W hostOps1_writes hb

end Cert.KernelIdeal.HostGlue

end
-- ==== Proof.Algebra.lean ====
/-
  The kernel's tiled evaluation equals the reference's, on the extended reals, when every input entry is real.

  Three facts carry it.
  (1) An accumulator started at a and fed n partial sums is a plus their sum: only associativity of + is used.
  (2) The sixteen tile sums over 256 features are one sum over the 4096 features: (k, q) ↦ 256 k + q is a
      bijection between tile/offset pairs and features.
  (3) x · (a + b) = x · a + x · b. On the extended reals this fails at infinities (∞ · (∞ + -∞)), so it is
      proved for real x, a, b only, by moving the coercion outside and distributing in ℝ. The learning rate is
      real because the exponential of a real is real and the two float constants denote reals (their
      exponent fields are not all ones); their values are never used.
  With (1)–(3) the kernel's code equals the reference's code entry by entry, and the second stage is then the
  reference's expression up to the association of +.
-/
import proofs.«158239_j26474178412911_1_alg».proof.Proof.Spec
import Mathlib.Data.EReal.Basic
import Mathlib.Algebra.BigOperators.Fin
import Mathlib.Algebra.BigOperators.Group.Finset.Basic
import Mathlib.Data.Fintype.BigOperators

noncomputable section

namespace Cert.Spec

open Idealize.ShloMosaic Idealize.ShloMosaic.ValueIdx
open scoped BigOperators

/-! ### (1) The accumulator -/

/-- The accumulator after n partial sums is its start plus their sum. -/
theorem accFrom_eq (a : EReal) (T : ℕ → EReal) (n : ℕ) :
    accFrom a T n = a + ∑ k ∈ Finset.range n, T k := by
  induction n with
  | zero => simp [accFrom]
  | succ n ih => rw [accFrom, ih, Finset.sum_range_succ, add_assoc]

/-! ### (2) Tiles -/

/-- Tile k and offset q name feature 256 k + q, and every feature is named once. -/
def tileEquiv : Fin 16 × Fin 256 ≃ Fin 4096 where
  toFun p := tix p.1 p.2
  invFun i := (⟨i.val / 256, by omega⟩, ⟨i.val % 256, by omega⟩)
  left_inv := by
    rintro ⟨k, q⟩
    refine Prod.ext (Fin.ext ?_) (Fin.ext ?_)
    · show (k.val * 256 + 1 * q.val) / 256 = k.val
      omega
    · show (k.val * 256 + 1 * q.val) % 256 = q.val
      omega
  right_inv := by
    intro i
    refine Fin.ext ?_
    show i.val / 256 * 256 + 1 * (i.val % 256) = i.val
    omega

/-- Sixteen guarded tile sums are the sum over all features. -/
theorem tile_sum (f : Fin 4096 → EReal) :
    (∑ k ∈ Finset.range 16, (if h : k < 16 then ∑ q : Fin 256, f (tix ⟨k, h⟩ q) else 0))
      = ∑ i : Fin 4096, f i := by
  rw [Finset.sum_range (fun k => if h : k < 16 then ∑ q : Fin 256, f (tix ⟨k, h⟩ q) else 0)]
  have hk : ∀ k : Fin 16,
      (if h : k.val < 16 then ∑ q : Fin 256, f (tix ⟨k.val, h⟩ q) else 0) = ∑ q : Fin 256, f (tix k q) :=
    fun k => dif_pos k.isLt
  rw [Finset.sum_congr rfl (fun k _ => hk k), ← Fintype.sum_prod_type' (fun k q => f (tix k q))]
  exact Fintype.sum_equiv tileEquiv _ _ (fun _ => rfl)

/-! ### (3) Distribution over real entries -/

/-- Multiplication distributes over addition when the three extended reals are real. -/
theorem real_mul_add {x a b : EReal} (hx : ∃ r : ℝ, x = (r : EReal)) (ha : ∃ r : ℝ, a = (r : EReal))
    (hb : ∃ r : ℝ, b = (r : EReal)) : x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A product of two reals is real. -/
theorem real_mul {a b : EReal} (ha : ∃ r : ℝ, a = (r : EReal)) (hb : ∃ r : ℝ, b = (r : EReal)) :
    ∃ r : ℝ, a * b = (r : EReal) := by
  obtain ⟨a, rfl⟩ := ha
  obtain ⟨b, rfl⟩ := hb
  exact ⟨a * b, (EReal.coe_mul a b).symm⟩

/-- A 32-bit float pattern whose exponent field is not all ones denotes a real. -/
theorem ofBits_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  simp only []
  rw [if_neg h]
  split_ifs <;> exact ⟨_, rfl⟩

/-- The learning rate is real when the logarithmic rates are. -/
theorem lr_real (logl : SL.Idx → EReal) (hl : ∀ i, ∃ r : ℝ, logl i = (r : EReal)) (r : Fin 128) (i : Fin 4096) :
    ∃ t : ℝ, lr logl r i = (t : EReal) := by
  obtain ⟨c, hc⟩ := ofBits_real 0x3C23D70A#32 (by decide)
  obtain ⟨d, hd⟩ := ofBits_real 0x42800000#32 (by decide)
  obtain ⟨l, hl'⟩ := hl (ix2 r i)
  refine ⟨c * Real.exp (l * d), ?_⟩
  unfold lr
  rw [hc, hd, hl', ← EReal.coe_mul, Ideal.exp_coe, ← EReal.coe_mul]

/-! ### The two stages -/

/-- The kernel's code, computed from the combined matrix, is the reference's code. -/
theorem ZK_WB_eq_zRef (x : SX.Idx → EReal) (logl : SL.Idx → EReal) (st : SS.Idx → EReal) (wb : SL.Idx → EReal)
    (hx : ∀ i, ∃ r : ℝ, x i = (r : EReal)) (hl : ∀ i, ∃ r : ℝ, logl i = (r : EReal))
    (hs : ∀ i, ∃ r : ℝ, st i = (r : EReal)) (hwb : ∀ i, ∃ r : ℝ, wb i = (r : EReal))
    (b : Fin 4) (s : Fin 2048) (r : Fin 128) :
    ZK x (WB logl st wb) (ix3 b s r) = zRef x logl st wb b s r := by
  show accFrom 0 (fun k => if h : k < 16 then
      ∑ q : Fin 256, x (ix3 b s (tix ⟨k, h⟩ q)) * WB logl st wb (ix3 b r (tix ⟨k, h⟩ q)) else 0) 16 = _
  rw [accFrom_eq, tile_sum (fun i => x (ix3 b s i) * WB logl st wb (ix3 b r i)), zero_add]
  unfold zRef
  rw [← Finset.sum_add_distrib]
  refine Finset.sum_congr rfl (fun i _ => ?_)
  show x (ix3 b s i) * (lr logl r i * st (ix3 b r i) + wb (ix2 r i)) = _
  exact real_mul_add (hx _) (real_mul (lr_real logl hl r i) (hs _)) (hwb _)

theorem kernel_eq_reference (x : SX.Idx → EReal) (logl : SL.Idx → EReal) (st : SS.Idx → EReal) (wb : SL.Idx → EReal)
    (wo : SO.Idx → EReal) (wl : SW.Idx → EReal) (bl : SB.Idx → EReal)
    (hx : ∀ i, ∃ r : ℝ, x i = (r : EReal)) (hl : ∀ i, ∃ r : ℝ, logl i = (r : EReal)) (hs : ∀ i, ∃ r : ℝ, st i = (r : EReal))
    (hwb : ∀ i, ∃ r : ℝ, wb i = (r : EReal)) (hwo : ∀ i, ∃ r : ℝ, wo i = (r : EReal)) (hwl : ∀ i, ∃ r : ℝ, wl i = (r : EReal))
    (hb : ∀ i, ∃ r : ℝ, bl i = (r : EReal)) :
    YK x (ZK x (WB logl st wb)) wo wl bl = G x logl st wb wo wl bl := by
  funext j
  have hz : ∀ r : Fin 128, ZK x (WB logl st wb) (ix3 (j 0) (j 1) r) = zRef x logl st wb (j 0) (j 1) r :=
    fun r => ZK_WB_eq_zRef x logl st wb hx hl hs hwb (j 0) (j 1) r
  show accFrom (∑ r : Fin 128, ZK x (WB logl st wb) (ix3 (j 0) (j 1) r) * wo (ix2 (j 2) r))
      (fun k => if h : k < 16 then
        ∑ q : Fin 256, x (ix3 (j 0) (j 1) (tix ⟨k, h⟩ q)) * wl (ix2 (j 2) (tix ⟨k, h⟩ q)) else 0) 16
      + bl (ix1 (j 2)) = _
  rw [accFrom_eq, tile_sum (fun i => x (ix3 (j 0) (j 1) i) * wl (ix2 (j 2) i)),
    Finset.sum_congr rfl (fun r _ => congrArg (· * wo (ix2 (j 2) r)) (hz r))]
  rfl

end Cert.Spec

end
-- ==== Proof.KernelValue.lean ====
/-
  The kernel program's result, on the extended reals, is the function G of the launch arguments.

  The program runs a stretch of host operations, kernel region 0, one host operation, kernel region 1. Read backwards
  from the result:
    region 1 leaves in its output array the tiled result  YK(x, z, w_out, w_lin, bias)  of the five arrays it finds;
    it finds x, w_out and w_lin as launched, the bias as launched (laid out as one row by the host operation before
    it), and as z what region 0 left in its output array;
    region 0 leaves the tiled code  ZK(x, w)  of the two arrays it finds: x as launched, and as w the combined matrix
    WB(log_lr, state, w_bsp)  that the first host stretch computes from the launch memory.
  So the result is  YK(x, ZK(x, WB(log_lr, state, w_bsp)), w_out, w_lin, b_lin)  of the launch arguments, which equals
  G of them when their entries are real (the tiled sums are the whole sums, and the product distributes over the sum of
  the two matrices only on real entries).
-/
import proofs.«158239_j26474178412911_1_alg».proof.Proof.MainRun
import proofs.«158239_j26474178412911_1_alg».proof.Proof.ZValue
import proofs.«158239_j26474178412911_1_alg».proof.Proof.YValue
import proofs.«158239_j26474178412911_1_alg».proof.Proof.HostGlue
import proofs.«158239_j26474178412911_1_alg».proof.Proof.Algebra

noncomputable section

namespace Cert.KernelIdeal.KV

open Cert.KernelIdeal Cert.KernelIdeal.Gen Idealize.ShloMosaic Idealize.ShloMosaic.TcCoe
open Idealize.ShloMosaic.ValueIdx

/-! ## Equal arguments give equal values -/

/-- The kernel's code depends only on its two arguments. -/
theorem ZK_congr {x x' : Cert.Spec.SX.Idx → EReal} {w w' : Cert.Spec.SS.Idx → EReal} (hx : x = x') (hw : w = w') :
    Cert.Spec.ZK x w = Cert.Spec.ZK x' w' := by rw [hx, hw]

/-- The kernel's result depends only on its five arguments. -/
theorem YK_congr {x x' : Cert.Spec.SX.Idx → EReal} {z z' : Cert.Spec.SZ.Idx → EReal} {wo wo' : Cert.Spec.SO.Idx → EReal}
    {wl wl' : Cert.Spec.SW.Idx → EReal} {bl bl' : Cert.Spec.SB.Idx → EReal}
    (hx : x = x') (hz : z = z') (ho : wo = wo') (hl : wl = wl') (hb : bl = bl') :
    Cert.Spec.YK x z wo wl bl = Cert.Spec.YK x' z' wo' wl' bl' := by rw [hx, hz, ho, hl, hb]

/-! ## What each region finds, in terms of the launch memory -/

/-- Region 0 finds, as its second operand, the combined matrix WB of the launch's log_lr, state and w_bsp: the first
    host stretch computes it from the launch memory. -/
theorem combined_eq (m : (ℓ : Loc nD τ sig) → Buf (Elt Ideal) ℓ) (c : Dev nD) :
    Run2.V1 m c main_v10
      = Cert.Spec.WB (m ((c.tc : Thread nD τ).loc main_arg1)) (m ((c.tc : Thread nD τ).loc main_arg2)) (m ((c.tc : Thread nD τ).loc main_arg4)) :=
  HostGlue.wb_eq (Run2.W0 m c)

/-- Region 1 finds, as its code operand, the tiled code of the launch's x against that combined matrix: region 0 leaves
    it in its output array, and the second host stretch does not touch it. -/
theorem code_eq (m : (ℓ : Loc nD τ sig) → Buf (Elt Ideal) ℓ) (c : Dev nD) :
    Run2.V3 m c main_v11
      = Cert.Spec.ZK (m ((c.tc : Thread nD τ).loc main_arg0))
          (Cert.Spec.WB (m ((c.tc : Thread nD τ).loc main_arg1)) (m ((c.tc : Thread nD τ).loc main_arg2)) (m ((c.tc : Thread nD τ).loc main_arg4))) :=
  (Run2.V3_main_v11 m c).trans <| (R0V.z_final (Run2.V1 m) c).trans <|
    ZK_congr (Run2.V1_main_arg0 m c) (combined_eq m c)

/-- Region 1 finds, as its bias operand, a one-row matrix whose entry (0, o) is the launch's b_lin[o]: the second host
    stretch lays the bias out so, and nothing before it changes the bias. -/
theorem bias_row (m : (ℓ : Loc nD τ sig) → Buf (Elt Ideal) ℓ) (c : Dev nD) :
    (fun j : Cert.Spec.SB.Idx => Run2.V3 m c main_v12 (ix2 (0 : Fin 1) (j 0))) = m ((c.tc : Thread nD τ).loc main_arg7) :=
  funext fun j => (HostGlue.bias_eq (Run2.W2 m c) (j 0)).trans <|
    (congrFun (Run2.W2_main_arg7 m c) (ix1 (j 0))).trans (congrArg (m ((c.tc : Thread nD τ).loc main_arg7)) (eq_ix1 j).symm)

/-! ## The result -/

/-- What region 1's write-backs leave in its output array is G of the launch arguments, when those are real: the array
    is the tiled result YK of what region 1 finds; what it finds is the launch's x, w_out, w_lin, the tiled code ZK of
    x against WB, and the bias; and the tiled evaluation equals the reference's on real entries. -/
theorem result_eq (m : (ℓ : Loc nD τ sig) → Buf (Elt Ideal) ℓ) (c : Dev nD)
    (h0 : ∀ i, ∃ r : ℝ, m ((c.tc : Thread nD τ).loc main_arg0) i = (r : EReal)) (h1 : ∀ i, ∃ r : ℝ, m ((c.tc : Thread nD τ).loc main_arg1) i = (r : EReal))
    (h2 : ∀ i, ∃ r : ℝ, m ((c.tc : Thread nD τ).loc main_arg2) i = (r : EReal)) (h4 : ∀ i, ∃ r : ℝ, m ((c.tc : Thread nD τ).loc main_arg4) i = (r : EReal))
    (h5 : ∀ i, ∃ r : ℝ, m ((c.tc : Thread nD τ).loc main_arg5) i = (r : EReal)) (h6 : ∀ i, ∃ r : ℝ, m ((c.tc : Thread nD τ).loc main_arg6) i = (r : EReal))
    (h7 : ∀ i, ∃ r : ℝ, m ((c.tc : Thread nD τ).loc main_arg7) i = (r : EReal)) :
    (R1.dat (F := Ideal) (Run2.V3 m) c).arrAt 5 cfg1.N
      = Cert.Spec.G (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6)) (m ((c.tc : Thread nD τ).loc main_arg7)) :=
  (R1V.y_final (Run2.V3 m) c).trans <|
    (YK_congr (Run2.V3_main_arg0 m c) (code_eq m c) (Run2.V3_main_arg5 m c) (Run2.V3_main_arg6 m c) (bias_row m c)).trans <|
      Cert.Spec.kernel_eq_reference _ _ _ _ _ _ _ h0 h1 h2 h4 h5 h6 h7

end Cert.KernelIdeal.KV

end
-- ==== Proof.RefValue.lean ====
/-
  The reference's run ends with its result array at the function `Cert.Spec.G` of the argument arrays.

  The reference computes its result in stages, and each stage is read here at explicit coordinates
  (b a batch, s a position, r a rank row, o an output feature, i an input feature):
    the learning rate            c · exp(log_lr[r,i] · 64)                       (a [128, 4096] array),
    the per-batch matrix         lr[r,i] · state[b,r,i]                          (the rate repeated over b),
    the first code               Σ_i x[b,s,i] · (lr[r,i] · state[b,r,i])         (batched over b),
    the second code              Σ_i x[b,s,i] · w_bsp[r,i],
    their sum                    z[b,s,r],
    the low-rank product         Σ_r z[b,s,r] · w_out[o,r],
    the dense product            Σ_i x[b,s,i] · w_lin[o,i],
    the bias                     b_lin[o] repeated over b and s,
  and the result is (low-rank product + dense product) + bias: the three summands of G in G's own order.
  No law of arithmetic is used: each stage is the same expression as the matching piece of G once the
  index functions of the repeats and of the contractions are written by coordinates.
-/
import proofs.«158239_j26474178412911_1_alg».proof.Defs
import proofs.«158239_j26474178412911_1_alg».proof.Proof.Gen.ReferenceIdeal.Run
import proofs.«158239_j26474178412911_1_alg».proof.Proof.Gen.ReferenceIdeal.Read
import proofs.«158239_j26474178412911_1_alg».proof.Proof.Spec

noncomputable section

open Idealize.ShloMosaic Idealize.ShloMosaic.TcCoe Idealize.SL.Sem

namespace Cert.ReferenceIdeal.RefValue

open Cert.ReferenceIdeal Cert.ReferenceIdeal.Read Idealize.ShloMosaic.ValueIdx
open scoped BigOperators

/-! ## The arrays' types -/

/-- x : [4, 2048, 4096]. -/
abbrev AX : Type := (⟨S4x2048x4096, .f32⟩ : BufTy).Contents (Elt Ideal)
/-- log_lr and w_bsp : [128, 4096]. -/
abbrev AL : Type := (⟨S128x4096, .f32⟩ : BufTy).Contents (Elt Ideal)
/-- state : [4, 128, 4096]. -/
abbrev AS : Type := (⟨S4x128x4096, .f32⟩ : BufTy).Contents (Elt Ideal)
/-- w_out : [4096, 128]. -/
abbrev AO : Type := (⟨S4096x128, .f32⟩ : BufTy).Contents (Elt Ideal)
/-- w_lin : [4096, 4096]. -/
abbrev AW : Type := (⟨S4096x4096, .f32⟩ : BufTy).Contents (Elt Ideal)
/-- b_lin : [4096]. -/
abbrev AB : Type := (⟨S4096, .f32⟩ : BufTy).Contents (Elt Ideal)

/-! ## The index functions by coordinates -/

/-- Repeating a [128, 4096] array over a new leading axis of size one and then over four batches reads
    entry (r, i) at every (b, r, i). -/
theorem idx_rate (b : Fin 4) (r : Fin 128) (i : Fin 4096) :
    idx_main_v5 (idx_main_v6 (ix3 b r i)) = ix2 r i :=
  funext fun a => Fin.ext (by match a with | ⟨0, _⟩ => rfl | ⟨1, _⟩ => rfl)

/-- Repeating a [4096] array over two new leading axes reads entry o at every (b, s, o). -/
theorem idx_bias (b : Fin 4) (s : Fin 2048) (o : Fin 4096) :
    idx_main_v14 (idx_main_v15 (ix3 b s o)) = ix1 o :=
  funext fun a => Fin.ext (by match a with | ⟨0, _⟩ => rfl)

/-- The batched contraction's left operand at (b, s, r) and summand k is x at (b, s, k). -/
theorem lidx_code1 (b : Fin 4) (s : Fin 2048) (r : Fin 128) (k : Fin 4096) :
    lidx_main_v8 (ix3 b s r) k = ix3 b s k :=
  funext fun a => Fin.ext (by match a with | ⟨0, _⟩ => rfl | ⟨1, _⟩ => rfl | ⟨2, _⟩ => rfl)

/-- The batched contraction's right operand at (b, s, r) and summand k is the per-batch matrix at (b, r, k). -/
theorem ridx_code1 (b : Fin 4) (s : Fin 2048) (r : Fin 128) (k : Fin 4096) :
    ridx_main_v8 (ix3 b s r) k = ix3 b r k :=
  funext fun a => Fin.ext (by match a with | ⟨0, _⟩ => rfl | ⟨1, _⟩ => rfl | ⟨2, _⟩ => rfl)

/-- The second code's left operand at (b, s, r) and summand k is x at (b, s, k). -/
theorem lidx_code2 (b : Fin 4) (s : Fin 2048) (r : Fin 128) (k : Fin 4096) :
    lidx_main_v9 (ix3 b s r) k = ix3 b s k :=
  funext fun a => Fin.ext (by match a with | ⟨0, _⟩ => rfl | ⟨1, _⟩ => rfl | ⟨2, _⟩ => rfl)

/-- The second code's right operand at (b, s, r) and summand k is w_bsp at (r, k). -/
theorem ridx_code2 (b : Fin 4) (s : Fin 2048) (r : Fin 128) (k : Fin 4096) :
    ridx_main_v9 (ix3 b s r) k = ix2 r k :=
  funext fun a => Fin.ext (by match a with | ⟨0, _⟩ => rfl | ⟨1, _⟩ => rfl)

/-- The low-rank product's left operand at (b, s, o) and summand k is the code at (b, s, k). -/
theorem lidx_low (b : Fin 4) (s : Fin 2048) (o : Fin 4096) (k : Fin 128) :
    lidx_main_v11 (ix3 b s o) k = ix3 b s k :=
  funext fun a => Fin.ext (by match a with | ⟨0, _⟩ => rfl | ⟨1, _⟩ => rfl | ⟨2, _⟩ => rfl)

/-- The low-rank product's right operand at (b, s, o) and summand k is w_out at (o, k). -/
theorem ridx_low (b : Fin 4) (s : Fin 2048) (o : Fin 4096) (k : Fin 128) :
    ridx_main_v11 (ix3 b s o) k = ix2 o k :=
  funext fun a => Fin.ext (by match a with | ⟨0, _⟩ => rfl | ⟨1, _⟩ => rfl)

/-- The dense product's left operand at (b, s, o) and summand k is x at (b, s, k). -/
theorem lidx_dense (b : Fin 4) (s : Fin 2048) (o : Fin 4096) (k : Fin 4096) :
    lidx_main_v12 (ix3 b s o) k = ix3 b s k :=
  funext fun a => Fin.ext (by match a with | ⟨0, _⟩ => rfl | ⟨1, _⟩ => rfl | ⟨2, _⟩ => rfl)

/-- The dense product's right operand at (b, s, o) and summand k is w_lin at (o, k). -/
theorem ridx_dense (b : Fin 4) (s : Fin 2048) (o : Fin 4096) (k : Fin 4096) :
    ridx_main_v12 (ix3 b s o) k = ix2 o k :=
  funext fun a => Fin.ext (by match a with | ⟨0, _⟩ => rfl | ⟨1, _⟩ => rfl)

/-! ## The stages at coordinates -/

/-- The learning rate: the constant c times the exponential of log_lr[r,i] times the constant 64, both
    constants kept as their words. -/
theorem rate_at (x1 : AL) (r : Fin 128) (i : Fin 4096) :
    val_main_v4 (F := Ideal) x1 (ix2 r i) = Cert.Spec.lr x1 r i := by
  rw [val_main_v4_apply, val_main_v3_apply, val_main_cst_0_apply, val_main_v2_apply, val_main_v1_apply,
    val_main_v0_apply, val_main_cst_apply]
  simp only [Ideal.mulf_def, Ideal.hostUnary_exp_def, Ideal.ofBits_def]
  rfl

/-- The per-batch matrix: lr[r,i] · state[b,r,i]. -/
theorem mat_at (x1 : AL) (x2 : AS) (b : Fin 4) (r : Fin 128) (i : Fin 4096) :
    val_main_v7 (F := Ideal) x1 x2 (ix3 b r i) = Cert.Spec.lr x1 r i * x2 (ix3 b r i) := by
  rw [val_main_v7_apply, val_main_v6_apply, val_main_v5_apply, idx_rate, rate_at, Ideal.mulf_def]

/-- The first code: x[b,s,·] against the per-batch matrix's row r. -/
theorem code1_at (x0 : AX) (x1 : AL) (x2 : AS) (b : Fin 4) (s : Fin 2048) (r : Fin 128) :
    val_main_v8 (F := Ideal) x0 x1 x2 (ix3 b s r)
      = ∑ i : Fin 4096, x0 (ix3 b s i) * (Cert.Spec.lr x1 r i * x2 (ix3 b r i)) := by
  rw [val_main_v8_apply]
  refine Finset.sum_congr rfl fun k _ => ?_
  rw [lidx_code1, ridx_code1, mat_at]

/-- The second code: x[b,s,·] against w_bsp's row r. -/
theorem code2_at (x0 : AX) (x4 : AL) (b : Fin 4) (s : Fin 2048) (r : Fin 128) :
    val_main_v9 (F := Ideal) x0 x4 (ix3 b s r) = ∑ i : Fin 4096, x0 (ix3 b s i) * x4 (ix2 r i) := by
  rw [val_main_v9_apply]
  refine Finset.sum_congr rfl fun k _ => ?_
  rw [lidx_code2, ridx_code2]

/-- The code z[b,s,r]: the sum of the two. -/
theorem code_at (x0 : AX) (x1 : AL) (x2 : AS) (x4 : AL) (b : Fin 4) (s : Fin 2048) (r : Fin 128) :
    val_main_v10 (F := Ideal) x0 x1 x2 x4 (ix3 b s r) = Cert.Spec.zRef x0 x1 x2 x4 b s r := by
  rw [val_main_v10_apply, code1_at, code2_at, Ideal.addf_def]
  rfl

/-- The low-rank product: the code z[b,s,·] against w_out's row o. -/
theorem low_at (x0 : AX) (x1 : AL) (x2 : AS) (x4 : AL) (x5 : AO) (b : Fin 4) (s : Fin 2048) (o : Fin 4096) :
    val_main_v11 (F := Ideal) x0 x1 x2 x4 x5 (ix3 b s o)
      = ∑ r : Fin 128, Cert.Spec.zRef x0 x1 x2 x4 b s r * x5 (ix2 o r) := by
  rw [val_main_v11_apply]
  refine Finset.sum_congr rfl fun k _ => ?_
  rw [lidx_low, ridx_low, code_at]

/-- The dense product: x[b,s,·] against w_lin's row o. -/
theorem dense_at (x0 : AX) (x6 : AW) (b : Fin 4) (s : Fin 2048) (o : Fin 4096) :
    val_main_v12 (F := Ideal) x0 x6 (ix3 b s o) = ∑ i : Fin 4096, x0 (ix3 b s i) * x6 (ix2 o i) := by
  rw [val_main_v12_apply]
  refine Finset.sum_congr rfl fun k _ => ?_
  rw [lidx_dense, ridx_dense]

/-- The bias repeated over batches and positions: b_lin[o]. -/
theorem bias_at (x7 : AB) (b : Fin 4) (s : Fin 2048) (o : Fin 4096) :
    val_main_v15 (F := Ideal) x7 (ix3 b s o) = x7 (ix1 o) := by
  rw [val_main_v15_apply, val_main_v14_apply, idx_bias]

/-! ## The result is G -/

/-- The last stage, index by index, is G: (low-rank product + dense product) + bias. -/
theorem result_eq (x0 : AX) (x1 : AL) (x2 : AS) (x4 : AL) (x5 : AO) (x6 : AW) (x7 : AB) :
    val_main_v16 (F := Ideal) x0 x1 x2 x4 x5 x6 x7 = Cert.Spec.G x0 x1 x2 x4 x5 x6 x7 := by
  funext j
  obtain ⟨b, s, o, rfl⟩ : ∃ (b : Fin 4) (s : Fin 2048) (o : Fin 4096), j = ix3 b s o := ⟨j 0, j 1, j 2, eq_ix3 j⟩
  rw [val_main_v16_apply, val_main_v13_apply, low_at, dense_at, bias_at, Ideal.addf_def, Ideal.addf_def]
  rfl

/-- Every weakly fair execution of the reference ends with `main_v16` at `G` of the launch contents of the
    arguments, the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
          = Cert.Spec.G (m ((c.tc : Thread nD τ).loc main_arg0)) (m ((c.tc : Thread nD τ).loc main_arg1)) (m ((c.tc : Thread nD τ).loc main_arg2))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run (defs (F := Ideal)) _ _).mono (fun _ h c => ⟨(h c).1.trans ?_, (h c).2⟩)
    (Cert.ReferenceIdeal.Value.run (F := Ideal) m ρ)
  rw [val_main_v16_eq]
  exact result_eq _ _ _ _ _ _ _

end Cert.ReferenceIdeal.RefValue

end
-- ==== Proof.Finite.lean ====
/-
  The precondition, read back: every entry of the seven arrays it is asked about is real.

  The printed predicate compares, entry by entry, |a| with +∞, reduces each comparison array by "and" over all
  its axes, and ands the eight results. On the extended reals |a| = max a (-a), and max a (-a) < ⊤ holds
  exactly when a is neither ⊤ nor ⊥, that is, when a is real.
-/
import proofs.«158239_j26474178412911_1_alg».proof.Pre_finite_inputs
import proofs.«158239_j26474178412911_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

instance : Subsingleton Cert.Pre_finite_inputs.S_.Idx := ⟨fun a b => funext fun d => d.elim0⟩

/-- The pattern with exponent field all ones and zero significand is +∞. -/
theorem inf_word : Ideal.ofBits .f32 0x7F800000#32 = ⊤ := by simp [Ideal.ofBits, Ideal.ieee]

/-- An extended real whose absolute value is below +∞ is real. -/
theorem real_of_abs_lt_inf (x : EReal)
    (h : BitVec.ofBool (decide (max x (-x) < Ideal.ofBits .f32 0x7F800000#32)) = 1#1) : ∃ r : ℝ, x = (r : EReal) := by
  rw [inf_word] at h
  induction x using EReal.rec with
  | bot => simp at h
  | coe r => exact ⟨r, rfl⟩
  | top => simp at h

/-- One array: if the "and" over all axes of |a| < +∞ is 1, every entry of a is real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpf .olt (Host.absf a) (broadcastInDim s ![] hb (constant Cert.Pre_finite_inputs.S_ .f32 0x7F800000#32)))
          init hr h0 ValueIdx.ix0 = 1#1) :
    ∀ i, ∃ r : ℝ, a i = (r : EReal) := fun i =>
  real_of_abs_lt_inf (a i) (Host.reduce_andi_all _ init hr h0 ValueIdx.ix0 e i)

open Cert.Pre_finite_inputs in
theorem reals_of_pre (a0 : FVec Ideal Cert.Pre_finite_inputs.S4x2048x4096 .f32) (a1 : FVec Ideal Cert.Pre_finite_inputs.S128x4096 .f32)
    (a2 : FVec Ideal Cert.Pre_finite_inputs.S4x128x4096 .f32) (a3 : FVec Ideal Cert.Pre_finite_inputs.S4x128x4096 .f32)
    (a4 : FVec Ideal Cert.Pre_finite_inputs.S128x4096 .f32) (a5 : FVec Ideal Cert.Pre_finite_inputs.S4096x128 .f32)
    (a6 : FVec Ideal Cert.Pre_finite_inputs.S4096x4096 .f32) (a7 : FVec Ideal Cert.Pre_finite_inputs.S4096 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) := by
  have h0 := congrFun h ValueIdx.ix0
  dsimp only [Cert.Pre_finite_inputs.fn, Cert.Pre_finite_inputs.fn_part1, Cert.Pre_finite_inputs.fn_part2, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, _⟩ := IntOp.andi_eq_one.1 h0
  obtain ⟨h0, e2⟩ := IntOp.andi_eq_one.1 h0
  obtain ⟨e0, e1⟩ := IntOp.andi_eq_one.1 h0
  exact ⟨all_real a0 _ _ _ _ e0, all_real a1 _ _ _ _ e1, all_real a2 _ _ _ _ e2, all_real a4 _ _ _ _ e4,
    all_real a5 _ _ _ _ e5, all_real a6 _ _ _ _ e6, all_real a7 _ _ _ _ e7⟩

end Cert.Finite

end
-- ==== Proof.lean ====
/-
  The certificate's five claims.
  Both programs compute  y = (x · Wbᵀ) · w_outᵀ + x · w_linᵀ + b_lin  with  Wb = lr · state + w_bsp,
  lr = c · exp(64 · log_lr): the kernel in two tiled stages with accumulators, the reference with four whole
  contractions, x against lr · state and against w_bsp separately. On finite inputs every entry involved is a real
  number, so the one law that separates them, x · (a + b) = x · a + x · b summed over the input features, holds; the
  rest is regrouping of sums. The kernel's frames come from one run of @main that names every buffer's final contents
  (Proof/MainRun.lean, and its word-level copy); the reference's from its run with the result dropped.
-/
import proofs.«158239_j26474178412911_1_alg».proof.Defs
import proofs.«158239_j26474178412911_1_alg».proof.Proof.Gen.Kernel
import proofs.«158239_j26474178412911_1_alg».proof.Proof.Gen.KernelIdeal
import proofs.«158239_j26474178412911_1_alg».proof.Proof.Gen.ReferenceIdeal
import proofs.«158239_j26474178412911_1_alg».proof.Proof.Gen.Pre_finite_inputs
import proofs.«158239_j26474178412911_1_alg».proof.Proof.KMainRun
import proofs.«158239_j26474178412911_1_alg».proof.Proof.MainRun
import proofs.«158239_j26474178412911_1_alg».proof.Proof.KernelValue
import proofs.«158239_j26474178412911_1_alg».proof.Proof.RefValue
import proofs.«158239_j26474178412911_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Run2.frame m ρ

/-- So does the idealized kernel. -/
theorem frame_ki : Cert.frame_KernelIdeal := fun m ρ _ => Cert.KernelIdeal.Run2.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_G m ρ)

/-- The ideal pass rewrote nothing: there is nothing to preserve. -/
theorem preserves : Cert.preserves_Kernel_KernelIdeal := trivial

/-- On finite inputs both programs end with the same result: the reference's function G of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KernelIdeal.Run2.run_result m ρ)
    obtain ⟨h0, h1, h2, h4, h5, h6, h7⟩ := Cert.Finite.reals_of_pre _ _ _ _ _ _ _ _ (hpre c)
    exact Cert.KernelIdeal.KV.result_eq m c h0 h1 h2 h4 h5 h6 h7
  · refine (θ_run Cert.ReferenceIdeal.defs _ _).mono (fun r h c => ⟨(h c).1.trans ?_, (h c).2⟩) (Cert.ReferenceIdeal.RefValue.run_G m' ρ')
    rw [(hagree c).1, (hagree c).2.1, (hagree c).2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
